-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20x512x512 : Shape := ⟨4, ![16, 20, 512, 512]⟩
abbrev S16x1024x20x3 : Shape := ⟨4, ![16, 1024, 20, 3]⟩
abbrev S_ : Shape := ⟨0, ![]⟩
abbrev S16x1024x20x1 : Shape := ⟨4, ![16, 1024, 20, 1]⟩
abbrev S16x1024x20 : Shape := ⟨3, ![16, 1024, 20]⟩

class Facts : Prop where
  slices_S16x1024x20x3_S16x1024x20x1_0_0_0_0 : S16x1024x20x3.Slices ![0, 0, 0, 0] S16x1024x20x1
  shapeCasts_S16x1024x20x1_S16x1024x20 : S16x1024x20x1.ShapeCasts S16x1024x20
  slices_S16x1024x20x3_S16x1024x20x1_0_0_0_1 : S16x1024x20x3.Slices ![0, 0, 0, 1] S16x1024x20x1
  slices_S16x1024x20x3_S16x1024x20x1_0_0_0_2 : S16x1024x20x3.Slices ![0, 0, 0, 2] S16x1024x20x1
  bcast_S_S16x20x512x512 : S_.BroadcastsInDim S16x20x512x512 (![] : Fin 0 → Fin S16x20x512x512.rank)
  reducesTo_S16x20x512x512_S_d0_1_2_3 : S16x20x512x512.ReducesTo [0, 1, 2, 3] S_
  h_S_ : 0 < S_.numel
  reducesTo_S_S_d : S_.ReducesTo [] S_
  bcast_S_S16x1024x20 : S_.BroadcastsInDim S16x1024x20 (![] : Fin 0 → Fin S16x1024x20.rank)
  reducesTo_S16x1024x20_S_d0_1_2 : S16x1024x20.ReducesTo [0, 1, 2] S_

variable [Facts]

def fn_part1 {F : FTy → Type} [FloatOps F] (main_v3 : IVec S16x1024x20 32) (main_v5 : IVec S16x1024x20 32) (main_v13 : IVec S_ 1) (main_v15 : IVec S16x1024x20 1) (main_v17 : IVec S16x1024x20 1) : IVec S_ 1 :=
  let main_v18 : IVec S16x1024x20 1 := andi main_v15 main_v17
  let main_c_4 : IVec S_ 1 := constantI S_ 1 1#1
  let main_v19 : IVec S_ 1 := (fun x v => Host.reduce IntOp.andi x v reducesTo_S16x1024x20_S_d0_1_2 h_S_) main_v18 main_c_4
  let main_v20 : IVec S_ 1 := andi main_v13 main_v19
  let main_c_5 : IVec S_ 32 := constantI S_ 32 0#32
  let main_v21 : IVec S16x1024x20 32 := broadcastInDim S16x1024x20 ![] bcast_S_S16x1024x20 main_c_5
  let main_v22 : IVec S16x1024x20 1 := cmpi .sge main_v3 main_v21
  let main_c_6 : IVec S_ 32 := constantI S_ 32 512#32
  let main_v23 : IVec S16x1024x20 32 := broadcastInDim S16x1024x20 ![] bcast_S_S16x1024x20 main_c_6
  let main_v24 : IVec S16x1024x20 1 := cmpi .slt main_v3 main_v23
  let main_v25 : IVec S16x1024x20 1 := andi main_v22 main_v24
  let main_c_7 : IVec S_ 1 := constantI S_ 1 1#1
  let main_v26 : IVec S_ 1 := (fun x v => Host.reduce IntOp.andi x v reducesTo_S16x1024x20_S_d0_1_2 h_S_) main_v25 main_c_7
  let main_v27 : IVec S_ 1 := andi main_v20 main_v26
  let main_c_8 : IVec S_ 32 := constantI S_ 32 0#32
  let main_v28 : IVec S16x1024x20 32 := broadcastInDim S16x1024x20 ![] bcast_S_S16x1024x20 main_c_8
  let main_v29 : IVec S16x1024x20 1 := cmpi .sge main_v5 main_v28
  let main_c_9 : IVec S_ 32 := constantI S_ 32 512#32
  let main_v30 : IVec S16x1024x20 32 := broadcastInDim S16x1024x20 ![] bcast_S_S16x1024x20 main_c_9
  let main_v31 : IVec S16x1024x20 1 := cmpi .slt main_v5 main_v30
  let main_v32 : IVec S16x1024x20 1 := andi main_v29 main_v31
  let main_c_10 : IVec S_ 1 := constantI S_ 1 1#1
  let main_v33 : IVec S_ 1 := (fun x v => Host.reduce IntOp.andi x v reducesTo_S16x1024x20_S_d0_1_2 h_S_) main_v32 main_c_10
  let main_v34 : IVec S_ 1 := andi main_v27 main_v33
  main_v34

def fn {F : FTy → Type} [FloatOps F] (main_arg0 : FVec F S16x20x512x512 .f32) (main_arg1 : IVec S16x1024x20x3 32) (main_arg2 : FVec F S_ .f32) : IVec S_ 1 :=
  let main_v0 : IVec S16x1024x20x1 32 := (extractStridedSlice S16x1024x20x1 ![0, 0, 0, 0] · slices_S16x1024x20x3_S16x1024x20x1_0_0_0_0) main_arg1
  let main_v1 : IVec S16x1024x20 32 := shapeCast S16x1024x20 main_v0 shapeCasts_S16x1024x20x1_S16x1024x20
  let main_v2 : IVec S16x1024x20x1 32 := (extractStridedSlice S16x1024x20x1 ![0, 0, 0, 1] · slices_S16x1024x20x3_S16x1024x20x1_0_0_0_1) main_arg1
  let main_v3 : IVec S16x1024x20 32 := shapeCast S16x1024x20 main_v2 shapeCasts_S16x1024x20x1_S16x1024x20
  let main_v4 : IVec S16x1024x20x1 32 := (extractStridedSlice S16x1024x20x1 ![0, 0, 0, 2] · slices_S16x1024x20x3_S16x1024x20x1_0_0_0_2) main_arg1
  let main_v5 : IVec S16x1024x20 32 := shapeCast S16x1024x20 main_v4 shapeCasts_S16x1024x20x1_S16x1024x20
  let main_v6 : FVec F S16x20x512x512 .f32 := Host.absf main_arg0
  let main_cst : FVec F S_ .f32 := constant S_ .f32 0x7F800000#32
  let main_v7 : FVec F S16x20x512x512 .f32 := broadcastInDim S16x20x512x512 ![] bcast_S_S16x20x512x512 main_cst
  let main_v8 : IVec S16x20x512x512 1 := cmpf .olt main_v6 main_v7
  let main_c : IVec S_ 1 := constantI S_ 1 1#1
  let main_v9 : IVec S_ 1 := (fun x v => Host.reduce IntOp.andi x v reducesTo_S16x20x512x512_S_d0_1_2_3 h_S_) main_v8 main_c
  let main_v10 : FVec F S_ .f32 := Host.absf main_arg2
  let main_cst_0 : FVec F S_ .f32 := constant S_ .f32 0x7F800000#32
  let main_v11 : IVec S_ 1 := cmpf .olt main_v10 main_cst_0
  let main_c_1 : IVec S_ 1 := constantI S_ 1 1#1
  let main_v12 : IVec S_ 1 := (fun x v => Host.reduce IntOp.andi x v reducesTo_S_S_d h_S_) main_v11 main_c_1
  let main_v13 : IVec S_ 1 := andi main_v9 main_v12
  let main_c_2 : IVec S_ 32 := constantI S_ 32 0#32
  let main_v14 : IVec S16x1024x20 32 := broadcastInDim S16x1024x20 ![] bcast_S_S16x1024x20 main_c_2
  let main_v15 : IVec S16x1024x20 1 := cmpi .sge main_v1 main_v14
  let main_c_3 : IVec S_ 32 := constantI S_ 32 20#32
  let main_v16 : IVec S16x1024x20 32 := broadcastInDim S16x1024x20 ![] bcast_S_S16x1024x20 main_c_3
  let main_v17 : IVec S16x1024x20 1 := cmpi .slt main_v1 main_v16
  fn_part1 (F := F) main_v3 main_v5 main_v13 main_v15 main_v17
-- ==== Kernel.lean ====
abbrev S16x20x512x512 : Shape := ⟨4, ![16, 20, 512, 512]⟩
abbrev S16x1024x20x3 : Shape := ⟨4, ![16, 1024, 20, 3]⟩
abbrev S_ : Shape := ⟨0, ![]⟩
abbrev S16x1024x20x1 : Shape := ⟨4, ![16, 1024, 20, 1]⟩
abbrev S16x1024x20 : Shape := ⟨3, ![16, 1024, 20]⟩
abbrev S16x10240x512 : Shape := ⟨3, ![16, 10240, 512]⟩
abbrev S1x2048x512 : Shape := ⟨3, ![1, 2048, 512]⟩
abbrev S1x256x20 : Shape := ⟨3, ![1, 256, 20]⟩
abbrev S256x20x512 : Shape := ⟨3, ![256, 20, 512]⟩
abbrev S1x2048 : Shape := ⟨2, ![1, 2048]⟩
abbrev S2048x512 : Shape := ⟨2, ![2048, 512]⟩
abbrev S1x256x1 : Shape := ⟨3, ![1, 256, 1]⟩
abbrev S256x1 : Shape := ⟨2, ![256, 1]⟩
abbrev S256x2048 : Shape := ⟨2, ![256, 2048]⟩
abbrev S256x512 : Shape := ⟨2, ![256, 512]⟩
abbrev S256x1x512 : Shape := ⟨3, ![256, 1, 512]⟩
abbrev S1x512 : Shape := ⟨2, ![1, 512]⟩
abbrev S256 : Shape := ⟨1, ![256]⟩
abbrev S1x1 : Shape := ⟨2, ![1, 1]⟩
abbrev S16x1x20 : Shape := ⟨3, ![16, 1, 20]⟩
abbrev S1x1x1 : Shape := ⟨3, ![1, 1, 1]⟩
abbrev S16x1024 : Shape := ⟨2, ![16, 1024]⟩
abbrev S16 : Shape := ⟨1, ![16]⟩
abbrev S16x1 : Shape := ⟨2, ![16, 1]⟩
abbrev S1 : Shape := ⟨1, ![1]⟩

abbrev nBuf : Space → Nat
  | .hbm => 19
  | .vmem => 12
  | .smem => 0
  | _ => 0

abbrev bufTy : (tb : Table) → Fin (tcTables nBuf tb) → BufTy
  | .hbm, ⟨0, _⟩ => ⟨S16x20x512x512, .f32⟩
  | .hbm, ⟨1, _⟩ => ⟨S16x1024x20x3, .i32⟩
  | .hbm, ⟨2, _⟩ => ⟨S_, .f32⟩
  | .hbm, ⟨3, _⟩ => ⟨S16x1024x20x1, .i32⟩
  | .hbm, ⟨4, _⟩ => ⟨S16x1024x20, .i32⟩
  | .hbm, ⟨5, _⟩ => ⟨S16x1024x20x1, .i32⟩
  | .hbm, ⟨6, _⟩ => ⟨S16x1024x20, .i32⟩
  | .hbm, ⟨7, _⟩ => ⟨S16x1024x20x1, .i32⟩
  | .hbm, ⟨8, _⟩ => ⟨S16x1024x20, .i32⟩
  | .hbm, ⟨9, _⟩ => ⟨S_, .i32⟩
  | .hbm, ⟨10, _⟩ => ⟨S16x1024x20, .i32⟩
  | .hbm, ⟨11, _⟩ => ⟨S16x1024x20, .i32⟩
  | .hbm, ⟨12, _⟩ => ⟨S16x1024x20, .i32⟩
  | .hbm, ⟨13, _⟩ => ⟨S16x20x512x512, .bf16⟩
  | .hbm, ⟨14, _⟩ => ⟨S16x10240x512, .bf16⟩
  | .hbm, ⟨15, _⟩ => ⟨S16x1024x20, .f32⟩
  | .hbm, ⟨16, _⟩ => ⟨S1x1, .f32⟩
  | .hbm, ⟨17, _⟩ => ⟨S1x1, .f32⟩
  | .hbm, ⟨18, _⟩ => ⟨S_, .f32⟩
  | .local _ .vmem, ⟨0, _⟩ => ⟨S1x2048x512, .bf16⟩
  | .local _ .vmem, ⟨1, _⟩ => ⟨S1x2048x512, .bf16⟩
  | .local _ .vmem, ⟨2, _⟩ => ⟨S1x256x20, .i32⟩
  | .local _ .vmem, ⟨3, _⟩ => ⟨S1x256x20, .i32⟩
  | .local _ .vmem, ⟨4, _⟩ => ⟨S1x256x20, .i32⟩
  | .local _ .vmem, ⟨5, _⟩ => ⟨S1x256x20, .i32⟩
  | .local _ .vmem, ⟨6, _⟩ => ⟨S1x256x20, .f32⟩
  | .local _ .vmem, ⟨7, _⟩ => ⟨S1x256x20, .f32⟩
  | .local _ .vmem, ⟨8, _⟩ => ⟨S256x20x512, .f32⟩
  | .local _ .vmem, ⟨9, _⟩ => ⟨S16x1024x20, .f32⟩
  | .local _ .vmem, ⟨10, _⟩ => ⟨S1x1, .f32⟩
  | .local _ .vmem, ⟨11, _⟩ => ⟨S1x1, .f32⟩
  | _, _ => ⟨S16x20x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨3, ![16, 4, 5], ![false, false, false]⟩

def k0_cond2 (i : grid0.Coords) : BitVec 1 :=
  let arg2 : BitVec 32 := BitVec.ofNat 32 (i 2).val
  let c4_i32 : BitVec 32 := 4#32
  let v309 : BitVec 1 := Scalar.cmpi .eq arg2 c4_i32
  let v310 : BitVec 32 := Scalar.extui v309
  let c0_i32_183 : BitVec 32 := 0#32
  let v311 : BitVec 1 := Scalar.cmpi .ne v310 c0_i32_183
  v311

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x20 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x20 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x1024x20 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S16x1024x20x3_S16x1024x20x1_0_0_0_0 : S16x1024x20x3.Slices ![0, 0, 0, 0] S16x1024x20x1
  shapeCasts_S16x1024x20x1_S16x1024x20 : S16x1024x20x1.ShapeCasts S16x1024x20
  slices_S16x1024x20x3_S16x1024x20x1_0_0_0_1 : S16x1024x20x3.Slices ![0, 0, 0, 1] S16x1024x20x1
  slices_S16x1024x20x3_S16x1024x20x1_0_0_0_2 : S16x1024x20x3.Slices ![0, 0, 0, 2] S16x1024x20x1
  bcast_S_S16x1024x20 : S_.BroadcastsInDim S16x1024x20 (![] : Fin 0 → Fin S16x1024x20.rank)
  bitsLt_bf16_f32 : FTy.bits .bf16 < FTy.bits .f32
  shapeCasts_S16x20x512x512_S16x10240x512 : S16x20x512x512.ShapeCasts S16x10240x512
  inb_S256x20x512_S256x20x512_0_0_0 : ∀ a, (![0, 0, 0] : Fin 3 → Nat) a + S256x20x512.size a ≤ S256x20x512.size a
  h_S256x20x512 : 0 < S256x20x512.numel
  shapeCasts_S256x20x512_S256x20x512 : S256x20x512.ShapeCasts S256x20x512
  iota_S1x2048_d1_w32 : S1x2048.Iotas .tc 32 [1]
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x256x20_S1x256x1_0_0_0 : ∀ a, (![0, 0, 0] : Fin 3 → Nat) a + S1x256x1.size a ≤ S1x256x20.size a
  h_S1x256x1 : 0 < S1x256x1.numel
  shapeCasts_S1x256x1_S256x1 : S1x256x1.ShapeCasts S256x1
  broadcasts_S256x1_S256x2048 : S256x1.Broadcasts S256x2048
  broadcasts_S1x2048_S256x2048 : S1x2048.Broadcasts S256x2048
  natLt_1_32 : 1 < 32
  inb_S256x20x512_S256x1x512_0_0_0 : ∀ a, (![0, 0, 0] : Fin 3 → Nat) a + S256x1x512.size a ≤ S256x20x512.size a
  h_S256x1x512 : 0 < S256x1x512.numel
  shapeCasts_S256x1x512_S256x512 : S256x1x512.ShapeCasts S256x512
  shapeCasts_S256x512_S256x1x512 : S256x512.ShapeCasts S256x1x512
  inb_S1x256x20_S1x256x1_0_0_1 : ∀ a, (![0, 0, 1] : Fin 3 → Nat) a + S1x256x1.size a ≤ S1x256x20.size a
  inb_S256x20x512_S256x1x512_0_1_0 : ∀ a, (![0, 1, 0] : Fin 3 → Nat) a + S256x1x512.size a ≤ S256x20x512.size a
  inb_S1x256x20_S1x256x1_0_0_2 : ∀ a, (![0, 0, 2] : Fin 3 → Nat) a + S1x256x1.size a ≤ S1x256x20.size a
  inb_S256x20x512_S256x1x512_0_2_0 : ∀ a, (![0, 2, 0] : Fin 3 → Nat) a + S256x1x512.size a ≤ S256x20x512.size a
  inb_S1x256x20_S1x256x1_0_0_3 : ∀ a, (![0, 0, 3] : Fin 3 → Nat) a + S1x256x1.size a ≤ S1x256x20.size a
  inb_S256x20x512_S256x1x512_0_3_0 : ∀ a, (![0, 3, 0] : Fin 3 → Nat) a + S256x1x512.size a ≤ S256x20x512.size a
  inb_S1x256x20_S1x256x1_0_0_4 : ∀ a, (![0, 0, 4] : Fin 3 → Nat) a + S1x256x1.size a ≤ S1x256x20.size a
  inb_S256x20x512_S256x1x512_0_4_0 : ∀ a, (![0, 4, 0] : Fin 3 → Nat) a + S256x1x512.size a ≤ S256x20x512.size a
  inb_S1x256x20_S1x256x1_0_0_5 : ∀ a, (![0, 0, 5] : Fin 3 → Nat) a + S1x256x1.size a ≤ S1x256x20.size a
  inb_S256x20x512_S256x1x512_0_5_0 : ∀ a, (![0, 5, 0] : Fin 3 → Nat) a + S256x1x512.size a ≤ S256x20x512.size a
  inb_S1x256x20_S1x256x1_0_0_6 : ∀ a, (![0, 0, 6] : Fin 3 → Nat) a + S1x256x1.size a ≤ S1x256x20.size a
  inb_S256x20x512_S256x1x512_0_6_0 : ∀ a, (![0, 6, 0] : Fin 3 → Nat) a + S256x1x512.size a ≤ S256x20x512.size a
  inb_S1x256x20_S1x256x1_0_0_7 : ∀ a, (![0, 0, 7] : Fin 3 → Nat) a + S1x256x1.size a ≤ S1x256x20.size a
  inb_S256x20x512_S256x1x512_0_7_0 : ∀ a, (![0, 7, 0] : Fin 3 → Nat) a + S256x1x512.size a ≤ S256x20x512.size a
  inb_S1x256x20_S1x256x1_0_0_8 : ∀ a, (![0, 0, 8] : Fin 3 → Nat) a + S1x256x1.size a ≤ S1x256x20.size a
  inb_S256x20x512_S256x1x512_0_8_0 : ∀ a, (![0, 8, 0] : Fin 3 → Nat) a + S256x1x512.size a ≤ S256x20x512.size a
  inb_S1x256x20_S1x256x1_0_0_9 : ∀ a, (![0, 0, 9] : Fin 3 → Nat) a + S1x256x1.size a ≤ S1x256x20.size a
  inb_S256x20x512_S256x1x512_0_9_0 : ∀ a, (![0, 9, 0] : Fin 3 → Nat) a + S256x1x512.size a ≤ S256x20x512.size a
  inb_S1x256x20_S1x256x1_0_0_10 : ∀ a, (![0, 0, 10] : Fin 3 → Nat) a + S1x256x1.size a ≤ S1x256x20.size a
  inb_S256x20x512_S256x1x512_0_10_0 : ∀ a, (![0, 10, 0] : Fin 3 → Nat) a + S256x1x512.size a ≤ S256x20x512.size a
  inb_S1x256x20_S1x256x1_0_0_11 : ∀ a, (![0, 0, 11] : Fin 3 → Nat) a + S1x256x1.size a ≤ S1x256x20.size a
  inb_S256x20x512_S256x1x512_0_11_0 : ∀ a, (![0, 11, 0] : Fin 3 → Nat) a + S256x1x512.size a ≤ S256x20x512.size a
  inb_S1x256x20_S1x256x1_0_0_12 : ∀ a, (![0, 0, 12] : Fin 3 → Nat) a + S1x256x1.size a ≤ S1x256x20.size a
  inb_S256x20x512_S256x1x512_0_12_0 : ∀ a, (![0, 12, 0] : Fin 3 → Nat) a + S256x1x512.size a ≤ S256x20x512.size a
  inb_S1x256x20_S1x256x1_0_0_13 : ∀ a, (![0, 0, 13] : Fin 3 → Nat) a + S1x256x1.size a ≤ S1x256x20.size a
  inb_S256x20x512_S256x1x512_0_13_0 : ∀ a, (![0, 13, 0] : Fin 3 → Nat) a + S256x1x512.size a ≤ S256x20x512.size a
  inb_S1x256x20_S1x256x1_0_0_14 : ∀ a, (![0, 0, 14] : Fin 3 → Nat) a + S1x256x1.size a ≤ S1x256x20.size a
  inb_S256x20x512_S256x1x512_0_14_0 : ∀ a, (![0, 14, 0] : Fin 3 → Nat) a + S256x1x512.size a ≤ S256x20x512.size a
  inb_S1x256x20_S1x256x1_0_0_15 : ∀ a, (![0, 0, 15] : Fin 3 → Nat) a + S1x256x1.size a ≤ S1x256x20.size a
  inb_S256x20x512_S256x1x512_0_15_0 : ∀ a, (![0, 15, 0] : Fin 3 → Nat) a + S256x1x512.size a ≤ S256x20x512.size a
  inb_S1x256x20_S1x256x1_0_0_16 : ∀ a, (![0, 0, 16] : Fin 3 → Nat) a + S1x256x1.size a ≤ S1x256x20.size a
  inb_S256x20x512_S256x1x512_0_16_0 : ∀ a, (![0, 16, 0] : Fin 3 → Nat) a + S256x1x512.size a ≤ S256x20x512.size a
  inb_S1x256x20_S1x256x1_0_0_17 : ∀ a, (![0, 0, 17] : Fin 3 → Nat) a + S1x256x1.size a ≤ S1x256x20.size a
  inb_S256x20x512_S256x1x512_0_17_0 : ∀ a, (![0, 17, 0] : Fin 3 → Nat) a + S256x1x512.size a ≤ S256x20x512.size a
  inb_S1x256x20_S1x256x1_0_0_18 : ∀ a, (![0, 0, 18] : Fin 3 → Nat) a + S1x256x1.size a ≤ S1x256x20.size a
  inb_S256x20x512_S256x1x512_0_18_0 : ∀ a, (![0, 18, 0] : Fin 3 → Nat) a + S256x1x512.size a ≤ S256x20x512.size a
  inb_S1x256x20_S1x256x1_0_0_19 : ∀ a, (![0, 0, 19] : Fin 3 → Nat) a + S1x256x1.size a ≤ S1x256x20.size a
  inb_S256x20x512_S256x1x512_0_19_0 : ∀ a, (![0, 19, 0] : Fin 3 → Nat) a + S256x1x512.size a ≤ S256x20x512.size a
  iota_S1x512_d1_w32 : S1x512.Iotas .tc 32 [1]
  broadcasts_S256x1_S256x512 : S256x1.Broadcasts S256x512
  broadcasts_S1x512_S256x512 : S1x512.Broadcasts S256x512
  reduces_S256x512_S256 : S256x512.Reduces [1] S256
  shapeCasts_S256_S256x1 : S256.ShapeCasts S256x1
  shapeCasts_S256x1_S1x256x1 : S256x1.ShapeCasts S1x256x1
  shapeCasts_S_S1x1 : S_.ShapeCasts S1x1
  inb_S16x1024x20_S16x1024x20_0_0_0 : ∀ a, (![0, 0, 0] : Fin 3 → Nat) a + S16x1024x20.size a ≤ S16x1024x20.size a
  h_S16x1024x20 : 0 < S16x1024x20.numel
  shapeCasts_S16x1024x20_S16x1024x20 : S16x1024x20.ShapeCasts S16x1024x20
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S16x1024x20_o0_1023_0_S16x1x20 : S16x1024x20.Slices ![0, 1023, 0] S16x1x20
  broadcasts_S16x1x20_S16x1024x20 : S16x1x20.Broadcasts S16x1024x20
  shapeCasts_S1x1_S1x1x1 : S1x1.ShapeCasts S1x1x1
  broadcasts_S1x1x1_S16x1024x20 : S1x1x1.Broadcasts S16x1024x20
  reduces_S16x1024x20_S16x1024 : S16x1024x20.Reduces [2] S16x1024
  reduces_S16x1024_S16 : S16x1024.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x10240x512.size a
  hwx0_0 : ∀ i : grid0.Coords, EltTy.bits .bf16 = 32 ∨ (Rect.block (s := S16x10240x512) S1x2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x20.size a ≤ S16x1024x20.size a
  hwx0_1 : ∀ i : grid0.Coords, EltTy.bits .i32 = 32 ∨ (Rect.block (s := S16x1024x20) S1x256x20.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x20.size a ≤ S16x1024x20.size a
  hwx0_2 : ∀ i : grid0.Coords, EltTy.bits .i32 = 32 ∨ (Rect.block (s := S16x1024x20) S1x256x20.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x20.size a ≤ S16x1024x20.size a
  hwx0_3 : ∀ i : grid0.Coords, EltTy.bits .f32 = 32 ∨ (Rect.block (s := S16x1024x20) S1x256x20.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x1024x20.size a ≤ S16x1024x20.size a
  hwx1_0 : ∀ i : grid1.Coords, EltTy.bits .f32 = 32 ∨ (Rect.block (s := S16x1024x20) S16x1024x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v10) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x256x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S16x1024x20.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x20x512x512 : Shape := ⟨4, ![16, 20, 512, 512]⟩
abbrev S16x1024x20x3 : Shape := ⟨4, ![16, 1024, 20, 3]⟩
abbrev S_ : Shape := ⟨0, ![]⟩
abbrev S16 : Shape := ⟨1, ![16]⟩
abbrev S16x1x1 : Shape := ⟨3, ![16, 1, 1]⟩
abbrev S16x1024x20x1 : Shape := ⟨4, ![16, 1024, 20, 1]⟩
abbrev S16x1024x20 : Shape := ⟨3, ![16, 1024, 20]⟩
abbrev S16x1024x20x4 : Shape := ⟨4, ![16, 1024, 20, 4]⟩
abbrev S16x1x20 : Shape := ⟨3, ![16, 1, 20]⟩
abbrev S16x1024 : Shape := ⟨2, ![16, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16x20x512x512, .f32⟩
  | .hbm, ⟨1, _⟩ => ⟨S16x1024x20x3, .i32⟩
  | .hbm, ⟨2, _⟩ => ⟨S_, .f32⟩
  | .hbm, ⟨3, _⟩ => ⟨S16, .i32⟩
  | .hbm, ⟨4, _⟩ => ⟨S16x1x1, .i32⟩
  | .hbm, ⟨5, _⟩ => ⟨S16x1024x20x1, .i32⟩
  | .hbm, ⟨6, _⟩ => ⟨S16x1024x20, .i32⟩
  | .hbm, ⟨7, _⟩ => ⟨S16x1024x20x1, .i32⟩
  | .hbm, ⟨8, _⟩ => ⟨S16x1024x20, .i32⟩
  | .hbm, ⟨9, _⟩ => ⟨S16x1024x20x1, .i32⟩
  | .hbm, ⟨10, _⟩ => ⟨S16x1024x20, .i32⟩
  | .hbm, ⟨11, _⟩ => ⟨S_, .i32⟩
  | .hbm, ⟨12, _⟩ => ⟨S16x1x1, .i32⟩
  | .hbm, ⟨13, _⟩ => ⟨S16x1x1, .i1⟩
  | .hbm, ⟨14, _⟩ => ⟨S_, .i32⟩
  | .hbm, ⟨15, _⟩ => ⟨S16x1x1, .i32⟩
  | .hbm, ⟨16, _⟩ => ⟨S16x1x1, .i32⟩
  | .hbm, ⟨17, _⟩ => ⟨S16x1x1, .i32⟩
  | .hbm, ⟨18, _⟩ => ⟨S_, .i32⟩
  | .hbm, ⟨19, _⟩ => ⟨S16x1024x20, .i32⟩
  | .hbm, ⟨20, _⟩ => ⟨S16x1024x20, .i1⟩
  | .hbm, ⟨21, _⟩ => ⟨S_, .i32⟩
  | .hbm, ⟨22, _⟩ => ⟨S16x1024x20, .i32⟩
  | .hbm, ⟨23, _⟩ => ⟨S16x1024x20, .i32⟩
  | .hbm, ⟨24, _⟩ => ⟨S16x1024x20, .i32⟩
  | .hbm, ⟨25, _⟩ => ⟨S_, .i32⟩
  | .hbm, ⟨26, _⟩ => ⟨S16x1024x20, .i32⟩
  | .hbm, ⟨27, _⟩ => ⟨S16x1024x20, .i1⟩
  | .hbm, ⟨28, _⟩ => ⟨S_, .i32⟩
  | .hbm, ⟨29, _⟩ => ⟨S16x1024x20, .i32⟩
  | .hbm, ⟨30, _⟩ => ⟨S16x1024x20, .i32⟩
  | .hbm, ⟨31, _⟩ => ⟨S16x1024x20, .i32⟩
  | .hbm, ⟨32, _⟩ => ⟨S_, .i32⟩
  | .hbm, ⟨33, _⟩ => ⟨S16x1024x20, .i32⟩
  | .hbm, ⟨34, _⟩ => ⟨S16x1024x20, .i1⟩
  | .hbm, ⟨35, _⟩ => ⟨S_, .i32⟩
  | .hbm, ⟨36, _⟩ => ⟨S16x1024x20, .i32⟩
  | .hbm, ⟨37, _⟩ => ⟨S16x1024x20, .i32⟩
  | .hbm, ⟨38, _⟩ => ⟨S16x1024x20, .i32⟩
  | .hbm, ⟨39, _⟩ => ⟨S16x1024x20, .i32⟩
  | .hbm, ⟨40, _⟩ => ⟨S16x1024x20x1, .i32⟩
  | .hbm, ⟨41, _⟩ => ⟨S16x1024x20x1, .i32⟩
  | .hbm, ⟨42, _⟩ => ⟨S16x1024x20x1, .i32⟩
  | .hbm, ⟨43, _⟩ => ⟨S16x1024x20x1, .i32⟩
  | .hbm, ⟨44, _⟩ => ⟨S16x1024x20x4, .i32⟩
  | .hbm, ⟨45, _⟩ => ⟨S16x1024x20, .f32⟩
  | .hbm, ⟨46, _⟩ => ⟨S16x1x20, .f32⟩
  | .hbm, ⟨47, _⟩ => ⟨S16x1024x20, .f32⟩
  | .hbm, ⟨48, _⟩ => ⟨S16x1024x20, .f32⟩
  | .hbm, ⟨49, _⟩ => ⟨S16x1024x20, .f32⟩
  | .hbm, ⟨50, _⟩ => ⟨S16x1024x20, .f32⟩
  | .hbm, ⟨51, _⟩ => ⟨S_, .f32⟩
  | .hbm, ⟨52, _⟩ => ⟨S16x1024x20, .f32⟩
  | .hbm, ⟨53, _⟩ => ⟨S16x1024x20, .f32⟩
  | .hbm, ⟨54, _⟩ => ⟨S_, .f32⟩
  | .hbm, ⟨55, _⟩ => ⟨S16x1024, .f32⟩
  | .hbm, ⟨56, _⟩ => ⟨S_, .f32⟩
  | .hbm, ⟨57, _⟩ => ⟨S16, .f32⟩
  | .hbm, ⟨58, _⟩ => ⟨S_, .f32⟩
  | .hbm, ⟨59, _⟩ => ⟨S_, .f32⟩
  | _, _ => ⟨S16x20x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_cst : Ref sig .tc := ⟨.hbm, 51, rfl⟩
abbrev main_call0_v0 : Ref sig .tc := ⟨.hbm, 52, rfl⟩
abbrev main_v40 : Ref sig .tc := ⟨.hbm, 53, rfl⟩
abbrev main_cst : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  bcast_S16_S16x1x1_0 : S16.BroadcastsInDim S16x1x1 (![0] : Fin 1 → Fin S16x1x1.rank)
  slices_S16x1024x20x3_S16x1024x20x1_0_0_0_0 : S16x1024x20x3.Slices ![0, 0, 0, 0] S16x1024x20x1
  shapeCasts_S16x1024x20x1_S16x1024x20 : S16x1024x20x1.ShapeCasts S16x1024x20
  slices_S16x1024x20x3_S16x1024x20x1_0_0_0_1 : S16x1024x20x3.Slices ![0, 0, 0, 1] S16x1024x20x1
  slices_S16x1024x20x3_S16x1024x20x1_0_0_0_2 : S16x1024x20x3.Slices ![0, 0, 0, 2] S16x1024x20x1
  bcast_S_S16x1x1 : S_.BroadcastsInDim S16x1x1 (![] : Fin 0 → Fin S16x1x1.rank)
  bcast_S_S16x1024x20 : S_.BroadcastsInDim S16x1024x20 (![] : Fin 0 → Fin S16x1024x20.rank)
  bcast_S16x1x1_S16x1024x20_0_1_2 : S16x1x1.BroadcastsInDim S16x1024x20 (![0, 1, 2] : Fin 3 → Fin S16x1024x20.rank)
  bcast_S16x1024x20_S16x1024x20x1_0_1_2 : S16x1024x20.BroadcastsInDim S16x1024x20x1 (![0, 1, 2] : Fin 3 → Fin S16x1024x20x1.rank)
  concatenates_S16x1024x20x1_S16x1024x20x1_S16x1024x20x1_S16x1024x20x1_S16x1024x20x4_d3 : Shape.Concatenates [S16x1024x20x1, S16x1024x20x1, S16x1024x20x1, S16x1024x20x1] S16x1024x20x4 3
  slices_S16x1024x20_S16x1x20_0_1023_0 : S16x1024x20.Slices ![0, 1023, 0] S16x1x20
  bcast_S16x1x20_S16x1024x20_0_1_2 : S16x1x20.BroadcastsInDim S16x1024x20 (![0, 1, 2] : Fin 3 → Fin S16x1024x20.rank)
  reducesTo_S16x1024x20_S16x1024_d2 : S16x1024x20.ReducesTo [2] S16x1024
  h_S_ : 0 < S_.numel
  reducesTo_S16x1024_S16_d1 : S16x1024.ReducesTo [1] S16
  reducesTo_S16_S_d0 : S16.ReducesTo [0] S_
  gather_S16x20x512x512_S16x1024x20x4_S16x1024x20_n_0123_n_n_0123_3_1111_wf : GatherDims.WF S16x20x512x512 S16x1024x20x4 S16x1024x20 [] [0, 1, 2, 3] [] [0, 1, 2, 3] [] 3 ![1, 1, 1, 1]

variable [Facts₀]

def gather_S16x20x512x512_S16x1024x20x4_S16x1024x20_n_0123_n_n_0123_3_1111 : GatherDims S16x20x512x512 S16x1024x20x4 S16x1024x20 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S16x20x512x512_S16x1024x20x4_S16x1024x20_n_0123_n_n_0123_3_1111_wf

class Facts : Prop extends Facts₀ where

variable [Facts]
-- ==== Proof.KBShared.lean ====
/-
  The two kernel regions of the program, what their frames and their values are stated over.
  Region 0 (the gather) runs on a 16 x 4 x 5 grid; its innermost coordinate k walks the five row tiles of one
  batch's table, and the body keeps a running sum in a scratch buffer between the five points of a group:
  the sum is reset at k = 0, added to at every k, and read out into the output block at k = 4 only.
  So a point is in one of three cases (k = 0; 0 < k < 4; k = 4), told apart by two conditions on the grid
  coordinates, decided here over the grid as t % 5 = 0 and t % 5 = 4; the output window holds nothing of the
  body's at the points of the first two cases and is written back after the third.
  Region 1 (the loss) is one point: it reads the whole gathered array and the margin, and stores one number.
-/
import proofs.«402861_j32238024523892_2_alg».proof.Proof.Gen.Kernel.Launch
import proofs.«402861_j32238024523892_2_alg».proof.Proof.Gen.Kernel.Skeleton
import proofs.«402861_j32238024523892_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block of region 1 at its one point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's two conditions, in closed form over the grid -/

/-- "This is the group's first point" (k = 0): the running sum is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the group's last point" (k = 4): the running sum is read out into the output block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where region 0's windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from a group's last point the body stores nothing into the output block, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a group's last point the output block is stored whole. -/
theorem liveAt0_3 : ∀ t : Fin cfg0.N, cond0_1 (grid0.coords t) → cfg0.idle 3 (grid0.coords t) = false := by decide +kernel

/-! ## The staging and scratch memrefs -/

abbrev VO0_3 : View sig .tc .vmem S1x256x20 .f32 := (Memref.whole cc0_stg3_0 : Memref sig .tc .vmem S1x256x20 .f32).view
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x20 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x20 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x20 .f32 := win0_3.stage (cfg0.slots t 3)
abbrev hs0_3 (t : Fin cfg0.N) : (ms0_3 t).IsWhole := hstage0_3 ((cfg0.slots t 3).cast nbuf0_3)
/-- The running sum's buffer, whole, and as a view. -/
abbrev scM0 : Memref sig .tc .vmem S256x20x512 .f32 := Memref.whole cc0_scratch0
abbrev VS0 : View sig .tc .vmem S256x20x512 .f32 := scM0.view

abbrev VO1_2 : View sig .tc .vmem S1x1 .f32 := (Memref.whole cc1_stg2_0 : Memref sig .tc .vmem S1x1 .f32).view
abbrev ms1_0 (t : Fin cfg1.N) : Memref sig .tc .vmem S16x1024x20 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-- The other scoped buffers of the core that region 0 does not stage (region 1's staging buffers), each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The region invariant that names nothing, conjunct by conjunct: the running sum's buffer at some contents, region 1's
    staging buffers at some contents, the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [scM0, owns_whole]; try rfl

end Cert.Kernel.Fr

end
-- ==== Proof.KBSkel.lean ====
/-
  Each of the three case runs rewrites the gather kernel's parts by their skeletons; the congruence facts that
  rewriting relies on are stated here once, upstream of all three.
-/
import proofs.«402861_j32238024523892_2_alg».proof.Proof.KBShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem skel_congr_realized : True := by
  have := @cc0__gather_kernel_skel.congr_simp; have := @cc1__loss_kernel_skel.congr_simp
  have := @k0_part1_skel.congr_simp
  have := @k0_part2_skel.congr_simp
  have := @k0_part3_skel.congr_simp
  have := @k0_part4_skel.congr_simp
  have := @k0_part5_skel.congr_simp
  have := @k0_part6_skel.congr_simp
  have := @k0_part7_skel.congr_simp
  have := @k0_part8_skel.congr_simp
  have := @k0_part9_skel.congr_simp
  have := @k0_part10_skel.congr_simp
  have := @k0_part11_skel.congr_simp
  have := @k0_part12_skel.congr_simp
  have := @k0_part13_skel.congr_simp
  have := @k0_part14_skel.congr_simp
  have := @k0_part15_skel.congr_simp
  have := @k0_part16_skel.congr_simp
  have := @k0_part17_skel.congr_simp
  trivial

end Cert.Kernel.Fr

end
-- ==== Proof.KBRunA.lean ====
/-
  Region 0's body at a group's FIRST point (k = 0): the running sum's buffer is overwritten with zeros and then each of its twenty slices is added to; nothing is stored into the output block. What the stores leave in the running sum's buffer is found by running the body.
-/
import proofs.«402861_j32238024523892_2_alg».proof.Proof.KBSkel

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The pieces the body's stores leave in the running sum's buffer at a group's first point, with the proof that on whole
    memrefs — the three inputs at their contents, the output block at contents handed back untouched, the running sum's
    buffer at anything — the body runs to the continuation holding the inputs and the output block as they were and the
    running sum's buffer with those pieces written. -/
noncomputable def kernelRun0_A (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : cond0_0 i) (hc1 : ¬cond0_1 i)
    (x0 : Vec F S1x2048x512 .bf16) (x1 : Vec F S1x256x20 .i32) (x2 : Vec F S1x256x20 .i32) :
    { LS0 : List (View.Piece (Elt F) S256x20x512 .f32) //
      ∀ (xi3 : Vec F S1x256x20 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  refine ⟨?_, fun xi3 E K => ?run⟩
  case run =>
    simp only [cc0__gather_kernel_eq_skeleton]; unfold cc0__gather_kernel_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KBRunB.lean ====
/-
  Region 0's body at a group's MIDDLE points (0 < k < 4): each of the running sum's twenty slices is added to, over what the point before left; nothing is stored into the output block.
-/
import proofs.«402861_j32238024523892_2_alg».proof.Proof.KBSkel

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The pieces the body's stores leave in the running sum's buffer at a middle point, over the contents `xs0` the point
    before left, with the proof that the body runs to the continuation holding the inputs and the output block as they
    were and the running sum's buffer with those pieces written. -/
noncomputable def kernelRun0_B (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : ¬cond0_1 i)
    (x0 : Vec F S1x2048x512 .bf16) (x1 : Vec F S1x256x20 .i32) (x2 : Vec F S1x256x20 .i32) (xs0 : Vec F S256x20x512 .f32) :
    { LS0 : List (View.Piece (Elt F) S256x20x512 .f32) //
      ∀ (xi3 : Vec F S1x256x20 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  refine ⟨?_, fun xi3 E K => ?run⟩
  case run =>
    simp only [cc0__gather_kernel_eq_skeleton]; unfold cc0__gather_kernel_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.KBRunC.lean ====
/-
  Region 0's body at a group's LAST point (k = 4): each of the running sum's twenty slices is added to, and then each is read out — masked to the one column its index names and summed along the row — into the output block's twenty columns, which together are the whole block.
-/
import proofs.«402861_j32238024523892_2_alg».proof.Proof.KBSkel

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 16000000 in
/-- The pieces the body's stores leave in the output block and in the running sum's buffer at a group's last point, over
    the contents `xs0` the point before left, with the proof that the body runs to the continuation holding the inputs as
    they were and the two buffers with those pieces written. -/
noncomputable def kernelRun0_C (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i)
    (x0 : Vec F S1x2048x512 .bf16) (x1 : Vec F S1x256x20 .i32) (x2 : Vec F S1x256x20 .i32) (xs0 : Vec F S256x20x512 .f32) :
    Σ' (L3 : List (View.Piece (Elt F) S1x256x20 .f32)), { LS0 : List (View.Piece (Elt F) S256x20x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  refine ⟨?_, ?_, fun E K => ?run⟩
  case run =>
    simp only [cc0__gather_kernel_eq_skeleton]; unfold cc0__gather_kernel_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.KBFrame0.lean ====
/-
  Region 0 (the gather), point by point: what each of the three cases leaves in the running sum's buffer and, at a
  group's last point, in the output block; those contents along the grid (the running sum after point n is the case's
  result over what point n - 1 left); the region's invariant, which from the first point on holds the running sum's
  buffer at exactly those contents; the pipeline's proof data; and the body's obligation at every point.
-/
import proofs.«402861_j32238024523892_2_alg».proof.Proof.KBRunA
import proofs.«402861_j32238024523892_2_alg».proof.Proof.KBRunB
import proofs.«402861_j32238024523892_2_alg».proof.Proof.KBRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The running sum's twenty slice stores tile its buffer, in every case (the reset's whole-buffer store lies under them). -/
theorem scover0_A (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : cond0_0 i) (hc1 : ¬cond0_1 i) (x0 : Vec F S1x2048x512 .bf16) (x1 : Vec F S1x256x20 .i32) (x2 : Vec F S1x256x20 .i32) (y : S256x20x512.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S256x1x512.size (by sl_kernel_rfl) y
theorem scover0_B (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : ¬cond0_1 i) (x0 : Vec F S1x2048x512 .bf16) (x1 : Vec F S1x256x20 .i32) (x2 : Vec F S1x256x20 .i32) (xs0 : Vec F S256x20x512 .f32) (y : S256x20x512.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S256x1x512.size (by sl_kernel_rfl) y
theorem scover0_C (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) (y : S256x20x512.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S256x1x512.size (by sl_kernel_rfl) y
/-- The output block's twenty column stores tile it. -/
theorem cover0_C_3 (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) (y : S1x256x20.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x256x1.size (by sl_kernel_rfl) y

/-- What a case leaves in the running sum's buffer: its pieces read back. -/
def sout0_A (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : cond0_0 i) (hc1 : ¬cond0_1 i) (x0 : Vec F S1x2048x512 .bf16) (x1 : Vec F S1x256x20 .i32) (x2 : Vec F S1x256x20 .i32) : Vec F S256x20x512 .f32 :=
  VS0.read (Elt F) (VS0.writes (Elt F) VS0.junk (kernelRun0_A c i arg3 harg3 arg4 harg4 arg5 harg5 arg6 harg6 arg7 harg7 hc0 hc1 x0 x1 x2).1)
def sout0_B (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : ¬cond0_1 i) (x0 : Vec F S1x2048x512 .bf16) (x1 : Vec F S1x256x20 .i32) (x2 : Vec F S1x256x20 .i32) (xs0 : Vec F S256x20x512 .f32) : Vec F S256x20x512 .f32 :=
  VS0.read (Elt F) (VS0.writes (Elt F) VS0.junk (kernelRun0_B c i arg3 harg3 arg4 harg4 arg5 harg5 arg6 harg6 arg7 harg7 hc0 hc1 x0 x1 x2 xs0).1)
def sout0_C (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) : Vec F S256x20x512 .f32 :=
  VS0.read (Elt F) (VS0.writes (Elt F) VS0.junk (kernelRun0_C c i arg3 harg3 arg4 harg4 arg5 harg5 arg6 harg6 arg7 harg7 hc0 hc1 x0 x1 x2 xs0).2.1)
/-- What the last case leaves in the output block. -/
def out0_C_3 (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) : Vec F S1x256x20 .f32 :=
  VO0_3.read (Elt F) (VO0_3.writes (Elt F) VO0_3.junk (kernelRun0_C c i arg3 harg3 arg4 harg4 arg5 harg5 arg6 harg6 arg7 harg7 hc0 hc1 x0 x1 x2 xs0).1)
/-- At the other points the output block holds nothing of the body's: a placeholder nothing consults. -/
def idleOut : Vec F S1x256x20 .f32 := VO0_3.read (Elt F) VO0_3.junk

section Data
variable (V : (c : Dev nD) → (b : Ref sig .tc) → Buf (Elt F) ((c : Thread nD τ).loc b))

/-! ## The contents along the grid -/

/-- After the body at position `n`: the output block's staging buffer and the running sum's buffer. The case is read off
    `n % 5`; a case that adds to the running sum does so over what position `n - 1` left. -/
def outsAt0 (c : Dev nD) : (n : ℕ) → n < cfg0.N → Vec F S1x256x20 .f32 × Vec F S256x20x512 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩))
  | n + 1, hn =>
    if h0 : (n + 1) % 5 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => by have h' := (hcond0_1 ⟨n + 1, hn⟩).mp h; (try dsimp only at h'); omega) (iblk0 V c 0 ⟨n + 1, hn⟩) (iblk0 V c 1 ⟨n + 1, hn⟩) (iblk0 V c 2 ⟨n + 1, hn⟩))
    else if h1 : (n + 1) % 5 = 4 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a group's first point: the reset case's contents. -/
theorem outsAt0_A (c : Dev nD) (t : Fin cfg0.N) (h0 : t.val % 5 = 0) (h1 : ¬t.val % 5 = 4) :
    outsAt0 V c t.val t.isLt = (idleOut, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl
/-- At a middle point: the accumulate case's contents, over what the point before left. -/
theorem outsAt0_B (c : Dev nD) (t : Fin cfg0.N) (h0 : ¬t.val % 5 = 0) (h1 : ¬t.val % 5 = 4) :
    outsAt0 V c t.val t.isLt = (idleOut, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- At a group's last point: the read-out case's contents, over what the point before left. -/
theorem outsAt0_C (c : Dev nD) (t : Fin cfg0.N) (h0 : ¬t.val % 5 = 0) (h1 : t.val % 5 = 4) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the invariant that names nothing; afterwards the running sum's buffer at
    what position `n - 1` left, beside the other scoped buffers at some contents and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body each input's buffer at its block and the output's at the
    contents along the grid; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position modulo 5 says which case it is
    in; the invariant hands the body the running sum's buffer at what the point before left (at anything, at the very
    first point) and takes it back at this point's contents; away from a group's last point the output block's buffer
    goes in and comes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 5 = 4
  · have h0 : ¬t.val % 5 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold out0_C_3 sout0_C; (try dsimp only)
    rw [PhiS_castSucc V c t, PhiS_pos V c _ _ hz]
    iintro ⟨⟨⟨HS0, Hoth⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_C c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 5 = 0
    · rw [outsAt0_A V c t h0 h1]
      unfold sout0_A; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := by omega
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back the one that names nothing: the running sum's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 320 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hoth⟩, Hg⟩
  isplitl [HS0 Hoth]
  · isplitl [HS0]
    · iexists _; iexact HS0
    iexact Hoth
  iexact Hg

end Data

end Cert.Kernel.Fr

end
-- ==== Proof.KBFrame1.lean ====
/-
  Region 1 (the loss): one grid point. The body loads the whole gathered array and the margin, and stores one number,
  a pure function of the two; the region's invariant names nothing.
-/
import proofs.«402861_j32238024523892_2_alg».proof.Proof.KBSkel

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev r1_0 : Rect S16x1024x20 := Rect.unit (s := S16x1024x20) ![0, 0, 0] S16x1024x20.size inb_S16x1024x20_S16x1024x20_0_0_0
abbrev r1_1 : Rect S1x1 := Rect.unit (s := S1x1) ![0, 0] S1x1.size inb_S1x1_S1x1_0_0

/-- The output's staging buffer after the body, from the two inputs' blocks: its one store. -/
def out1_2 (x0 : Vec F S16x1024x20 .f32) (x1 : Vec F S1x1 .f32) : Vec F S1x1 .f32 :=
  View.canon [⟨r1_1, k1_pay1 (View.ld x0 r1_0) (View.ld x1 r1_1)⟩]

theorem cover1_2 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

set_option maxHeartbeats 1000000 in
/-- The body on whole staging memrefs, the inputs' at their contents and the output's at anything, runs to the
    continuation holding the inputs as they were and the output at `out1_2` of them. -/
theorem sound_kernel1 (c : Dev nD) (E : Set ℕ) (i : grid1.Coords) (arg1 : Memref sig .tc .vmem S16x1024x20 .f32) (harg1 : arg1.IsWhole) (arg2 : Memref sig .tc .vmem S1x1 .f32) (harg2 : arg2.IsWhole) (arg3 : Memref sig .tc .vmem S1x1 .f32) (harg3 : arg3.IsWhole)
    (x0 : Vec F S16x1024x20 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__loss_kernel i arg1 harg1 arg2 harg2 arg3 harg3) K := by
  simp only [cc1__loss_kernel_eq_skeleton]; unfold cc1__loss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section Data
variable (V : (c : Dev nD) → (b : Ref sig .tc) → Buf (Elt F) ((c : Thread nD τ).loc b))

/-- The arrays as the region finds them; after the body each input's buffer at its block and the output's at `out1_2`
    of the input blocks; the invariant that names nothing; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at the region's point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Data

end Cert.Kernel.Fr

end
-- ==== Proof.KBRun.lean ====
/-
  The program's run, from the launch to the return. The contents of every unscoped buffer are followed through @main's
  five items — a stretch of host operations, the gather region, one host operation, the loss region, one host
  operation —: a host stretch applies its operations, a region replaces its arrays by what its write-backs leave and
  keeps every other buffer. Each region is entered from "every unscoped buffer at the boundary's contents, the generator
  register at some state, nothing owed" and left in the same form; the run ends with every unscoped buffer at the last
  contents, read against the final memory. The frame and the result's value are both read off that.
-/
import proofs.«402861_j32238024523892_2_alg».proof.Proof.KBFrame0
import proofs.«402861_j32238024523892_2_alg».proof.Proof.KBFrame1
import proofs.«402861_j32238024523892_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wk0 : Dev nD → Valuation τ sig (Elt F) := fun c b => (s₀ m ρ).mem ((c : Dev nD), b)
abbrev Wk1 : Dev nD → Valuation τ sig (Elt F) := fun c => StableHlo.after hostOps0 (Wk0 m ρ c)
abbrev Vk1 : (c : Dev nD) → (b : Ref sig .tc) → Buf (Elt F) ((c : Thread nD τ).loc b) := fun c b => Wk1 m ρ c b
def Wk2 (c : Dev nD) : Valuation τ sig (Elt F) :=
  Pipeline.withArrays spec0 c (Wk1 m ρ c) fun w => (dat0 (Vk1 m ρ) c).arrAt w cfg0.N
theorem Wk2_arr (c : Dev nD) (w : Fin cfg0.W) :
    Wk2 m ρ c (Proc.devRef .tc (Pipeline.arrRef spec0 w)) = (dat0 (Vk1 m ρ) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m ρ c b
theorem hF0 (c : Dev nD) (w : Fin cfg0.W) : (dat0 (Vk1 m ρ) c).arrAt w cfg0.N = Vk2 m ρ c (Pipeline.arrRef spec0 w) :=
  (Wk2_arr m ρ c w).symm
theorem hrest0 (c : Dev nD) : ∀ b, b ∉ Finset.univ.image (Pipeline.arrRef spec0) → Vk2 m ρ c b = Vk1 m ρ c b :=
  fun b hb => Wk2_of_ne m ρ c b fun w e => hb (Finset.mem_image.mpr ⟨w, Finset.mem_univ _, e⟩)

abbrev Wk3 : Dev nD → Valuation τ sig (Elt F) := fun c => StableHlo.after hostOps1 (Wk2 m ρ c)
abbrev Vk3 : (c : Dev nD) → (b : Ref sig .tc) → Buf (Elt F) ((c : Thread nD τ).loc b) := fun c b => Wk3 m ρ c b
def Wk4 (c : Dev nD) : Valuation τ sig (Elt F) :=
  Pipeline.withArrays spec1 c (Wk3 m ρ c) fun w => (dat1 (Vk3 m ρ) c).arrAt w cfg1.N
theorem Wk4_arr (c : Dev nD) (w : Fin cfg1.W) :
    Wk4 m ρ c (Proc.devRef .tc (Pipeline.arrRef spec1 w)) = (dat1 (Vk3 m ρ) c).arrAt w cfg1.N := by
  unfold Wk4; exact Pipeline.withArrays_arr spec1 launch1.win.arr_inj c _ _ w
theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb
abbrev Vk4 : (c : Dev nD) → (b : Ref sig .tc) → Buf (Elt F) ((c : Thread nD τ).loc b) := fun c b => Wk4 m ρ c b
theorem hF1 (c : Dev nD) (w : Fin cfg1.W) : (dat1 (Vk3 m ρ) c).arrAt w cfg1.N = Vk4 m ρ c (Pipeline.arrRef spec1 w) :=
  (Wk4_arr m ρ c w).symm
theorem hrest1 (c : Dev nD) : ∀ b, b ∉ Finset.univ.image (Pipeline.arrRef spec1) → Vk4 m ρ c b = Vk3 m ρ c b :=
  fun b hb => Wk4_of_ne m ρ c b fun w e => hb (Finset.mem_image.mpr ⟨w, Finset.mem_univ _, e⟩)

abbrev Wk5 : Dev nD → Valuation τ sig (Elt F) := fun c => StableHlo.after hostOps2 (Wk4 m ρ c)

/-! ### No item writes an argument -/

theorem Wk5_main_arg0 (c : Dev nD) : Wk5 m ρ c (Proc.devRef .tc main_arg0) = m ((c : Thread nD τ).loc main_arg0) :=
  calc Wk5 m ρ c (Proc.devRef .tc main_arg0)
    _ = Wk4 m ρ c (Proc.devRef .tc main_arg0) := StableHlo.after_of_writes_sub hostOps2 _ hostOps2_writes (by decide)
    _ = Wk3 m ρ c (Proc.devRef .tc main_arg0) := Wk4_of_ne m ρ c main_arg0 (by decide)
    _ = Wk2 m ρ c (Proc.devRef .tc main_arg0) := StableHlo.after_of_writes_sub hostOps1 _ hostOps1_writes (by decide)
    _ = Wk1 m ρ c (Proc.devRef .tc main_arg0) := Wk2_of_ne m ρ c main_arg0 (by decide)
    _ = Wk0 m ρ c (Proc.devRef .tc main_arg0) := StableHlo.after_of_writes_sub hostOps0 _ hostOps0_writes (by decide)
    _ = m ((c : Thread nD τ).loc main_arg0) := rfl
theorem Wk5_main_arg1 (c : Dev nD) : Wk5 m ρ c (Proc.devRef .tc main_arg1) = m ((c : Thread nD τ).loc main_arg1) :=
  calc Wk5 m ρ c (Proc.devRef .tc main_arg1)
    _ = Wk4 m ρ c (Proc.devRef .tc main_arg1) := StableHlo.after_of_writes_sub hostOps2 _ hostOps2_writes (by decide)
    _ = Wk3 m ρ c (Proc.devRef .tc main_arg1) := Wk4_of_ne m ρ c main_arg1 (by decide)
    _ = Wk2 m ρ c (Proc.devRef .tc main_arg1) := StableHlo.after_of_writes_sub hostOps1 _ hostOps1_writes (by decide)
    _ = Wk1 m ρ c (Proc.devRef .tc main_arg1) := Wk2_of_ne m ρ c main_arg1 (by decide)
    _ = Wk0 m ρ c (Proc.devRef .tc main_arg1) := StableHlo.after_of_writes_sub hostOps0 _ hostOps0_writes (by decide)
    _ = m ((c : Thread nD τ).loc main_arg1) := rfl
theorem Wk5_main_arg2 (c : Dev nD) : Wk5 m ρ c (Proc.devRef .tc main_arg2) = m ((c : Thread nD τ).loc main_arg2) :=
  calc Wk5 m ρ c (Proc.devRef .tc main_arg2)
    _ = Wk4 m ρ c (Proc.devRef .tc main_arg2) := StableHlo.after_of_writes_sub hostOps2 _ hostOps2_writes (by decide)
    _ = Wk3 m ρ c (Proc.devRef .tc main_arg2) := Wk4_of_ne m ρ c main_arg2 (by decide)
    _ = Wk2 m ρ c (Proc.devRef .tc main_arg2) := StableHlo.after_of_writes_sub hostOps1 _ hostOps1_writes (by decide)
    _ = Wk1 m ρ c (Proc.devRef .tc main_arg2) := Wk2_of_ne m ρ c main_arg2 (by decide)
    _ = Wk0 m ρ c (Proc.devRef .tc main_arg2) := StableHlo.after_of_writes_sub hostOps0 _ hostOps0_writes (by decide)
    _ = m ((c : Thread nD τ).loc main_arg2) := rfl

/-! ## The proof data family and the thread state -/

abbrev admk : (p : Fin 2) → (pcfgs (F := F) p).Adm := fun p => (cfgs p).toPCfg_adm
def pdatsk : (p : Fin 2) → (c : Dev nD) → Dat τ (Elt F) Unit ℕ (UR sig nD τ) ℕ (Pipeline.pin (pcfgs (F := F)) admk p) c
  | ⟨0, _⟩ => fun c => dat0 (Vk1 m ρ) c
  | ⟨1, _⟩ => fun c => dat1 (Vk3 m ρ) c
abbrev 𝒱k : Variants := Variants.none
abbrev Lk : GSem nD τ sig → Finset Unit := fun _ => ∅
abbrev lvk : GSem nD τ sig → Unit → ℕ := fun _ _ => 0
/-- What rides beside the buffers through every item: the generator register at some state, and the core owing nothing. -/
abbrev Rk (c : Dev nD) : sProp 𝕄 := iprop((∃ r, prngReg c r) ∗ ∃ W, owes (c : Thread nD τ) (0 : CellTallies nD τ sig Unit) W)
abbrev hsegk (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk
abbrev Tkn (c : Dev nD) : sProp 𝕄 := iprop(StableHlo.held (c : Thread nD τ) (Pipeline.ucRefs τ sig) (Wk5 m ρ c) ∗ ∃ r, prngReg c r)

/-! ## The regions as segments -/

set_option backward.isDefEq.respectTransparency.types false in
/-- The gather region: its arrays split out of the unscoped buffers and put back at the exit contents; the generator
    register into the invariant and out — the invariant is entered at the one that names nothing and ends there again,
    the running sum's contents forgotten; nothing owed; no semaphore of the kernel's own. -/
def regk0 : Pipeline.RegionSeg (pcfgs (F := F)) admk (pdatsk m ρ) () defs₀ 𝒱k Lk lvk 0 where
  win := launch0.win.to₀
  block_pos := launch0.block_pos
  stage_whole := launch0.stage_whole
  K := PEmpty
  osem k := k.elim
  ho := Pipeline.OwnSemFacts.none _
  hbody c := (body_obligation0 (Vk1 m ρ) c).loose
  hwaits := Pipeline.hwaits_of_owed_zero _ _ _ _ Lk lvk 0 fun _ _ => rfl
  pre c := iprop(StableHlo.held (c : Thread nD τ) (Pipeline.ucRefs τ sig) (Wk1 m ρ c) ∗ Rk c)
  post c := iprop(StableHlo.held (c : Thread nD τ) (Pipeline.ucRefs τ sig) (Wk2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (Vk1 m ρ c)
  hentry c := by
    rw [Pipeline.ownSems0_none]
    have hsplit := Pipeline.arrays_of_unscopedBufs (p := 0) (pcfgs (F := F)) admk (pdatsk m ρ) launch0.win launch0.arr_whole c
      ((pdatsk m ρ 0 c).share_full fun _ => rfl) (Vk1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsk m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsk m ρ 0 c).Φ (Fin.last _) = (dat0 (Vk1 m ρ) c).Φ (Fin.last cfg0.N) from rfl]
    have hback : (dat0 (Vk1 m ρ) c).Φ (Fin.last cfg0.N) ⊢ (iprop(Pipeline.scopedRest spec0 c ∗ ∃ r, prngReg c r) : sProp 𝕄) := by
      have h := hout0 (Vk1 m ρ) c
      unfold Pipeline.ΦA at h
      exact h
    iintro Hinv
    ihave H := hback $$ Hinv
    icases H with ⟨Hr, Hp⟩
    isplitl [Hp]; · iexact Hp
    isplitr; · iempintro
    iexact Hr
  hexit c := by
    have hjoin := Pipeline.unscopedBufs_of_arrays (p := 0) (pcfgs (F := F)) admk (Ix := Unit) (Name := ℕ) (U := UR sig nD τ) (Lvl := ℕ)
      launch0.win launch0.arr_whole c (pdatsk m ρ) ((pdatsk m ρ 0 c).share_full fun _ => rfl)
      (Vk1 m ρ c) (Vk2 m ρ c) ((pdatsk m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss region, the same way; its invariant names nothing throughout. -/
def regk1 : Pipeline.RegionSeg (pcfgs (F := F)) admk (pdatsk m ρ) () defs₀ 𝒱k Lk lvk 1 where
  win := launch1.win.to₀
  block_pos := launch1.block_pos
  stage_whole := launch1.stage_whole
  K := PEmpty
  osem k := k.elim
  ho := Pipeline.OwnSemFacts.none _
  hbody c := (body_obligation1 (Vk3 m ρ) c).loose
  hwaits := Pipeline.hwaits_of_owed_zero _ _ _ _ Lk lvk 1 fun _ _ => rfl
  pre c := iprop(StableHlo.held (c : Thread nD τ) (Pipeline.ucRefs τ sig) (Wk3 m ρ c) ∗ Rk c)
  post c := iprop(StableHlo.held (c : Thread nD τ) (Pipeline.ucRefs τ sig) (Wk4 m ρ c) ∗ Rk c)
  X c := iprop(∃ r, prngReg c r)
  Y c := iprop(∃ r, prngReg c r)
  Z c := Pipeline.unscopedRest (Ix := Unit) (Name := ℕ) (U := UR sig nD τ) (Lvl := ℕ) spec1 c (Vk3 m ρ c)
  hentry c := by
    rw [Pipeline.ownSems0_none]
    have hsplit := Pipeline.arrays_of_unscopedBufs (p := 1) (pcfgs (F := F)) admk (pdatsk m ρ) launch1.win launch1.arr_whole c
      ((pdatsk m ρ 1 c).share_full fun _ => rfl) (Vk3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsk m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsk m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admk (Ix := Unit) (Name := ℕ) (U := UR sig nD τ) (Lvl := ℕ)
      launch1.win launch1.arr_whole c (pdatsk m ρ) ((pdatsk m ρ 1 c).share_full fun _ => rfl)
      (Vk3 m ρ c) (Vk4 m ρ c) ((pdatsk m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsk : List (Pipeline.Seg (pcfgs (F := F)) admk (pdatsk m ρ) () defs₀ 𝒱k Lk lvk) :=
  [ .host (hsegk hostOps0 hostOps0_sub hostOps0_fresh (Wk0 m ρ)),
    .region (regk0 m ρ),
    .host (hsegk hostOps1 hostOps1_sub hostOps1_fresh (Wk2 m ρ)),
    .region (regk1 m ρ),
    .host (hsegk hostOps2 hostOps2_sub hostOps2_fresh (Wk4 m ρ)) ]
theorem main_runk (c : Dev nD) : main (F := F) c = Pipeline.Seg.run (segsk m ρ) := (main_chain c).trans (by chain_rfl)

theorem mem_uck (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and in
    every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk5 m ρ c b) :=
  Pipeline.θ_run_regions_kit (pcfgs (F := F)) admk (pdatsk m ρ) () cellOf_inj emb₁ defs₀ 𝒱k Lk lvk m ρ main (segsk m ρ)
    (fun c Q => by rw [main_runk m ρ c])
    (by simp only [segsk, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ Rk c)) (Tₙ := Tkn m ρ)
    (hch := ⟨fun _ => .rfl, fun _ => .rfl, fun _ => .rfl, fun _ => .rfl, fun _ => .rfl, fun c => by
      show (iprop(StableHlo.held (c : Thread nD τ) (Pipeline.ucRefs τ sig) (Wk5 m ρ c) ∗ Rk c) : sProp 𝕄)
        ⊢ iprop(Tkn m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lk lvk fun c => ?_
      rw [show unscopedBufs c (fun b => m ((c : Thread nD τ).loc b)) = StableHlo.held (c : Thread nD τ) (Pipeline.ucRefs τ sig) (Wk0 m ρ c)
        from Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk5 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uck main_arg0 (by decide))).trans (Wk5_main_arg0 m ρ c),
     (h c _ (mem_uck main_arg1 (by decide))).trans (Wk5_main_arg1 m ρ c),
     (h c _ (mem_uck main_arg2 (by decide))).trans (Wk5_main_arg2 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v14) = Wk5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uck main_v14 (by decide)),
     (h c _ (mem_uck main_arg0 (by decide))).trans (Wk5_main_arg0 m ρ c),
     (h c _ (mem_uck main_arg1 (by decide))).trans (Wk5_main_arg1 m ρ c),
     (h c _ (mem_uck main_arg2 (by decide))).trans (Wk5_main_arg2 m ρ c)⟩) (run_all m ρ)

end Cert.Kernel.Fr

end
-- ==== Proof.KIShared.lean ====
/-
  The two kernel regions of the program, what their frames and their values are stated over.
  Region 0 (the gather) runs on a 16 x 4 x 5 grid; its innermost coordinate k walks the five row tiles of one
  batch's table, and the body keeps a running sum in a scratch buffer between the five points of a group:
  the sum is reset at k = 0, added to at every k, and read out into the output block at k = 4 only.
  So a point is in one of three cases (k = 0; 0 < k < 4; k = 4), told apart by two conditions on the grid
  coordinates, decided here over the grid as t % 5 = 0 and t % 5 = 4; the output window holds nothing of the
  body's at the points of the first two cases and is written back after the third.
  Region 1 (the loss) is one point: it reads the whole gathered array and the margin, and stores one number.
-/
import proofs.«402861_j32238024523892_2_alg».proof.Proof.Gen.KernelIdeal.Launch
import proofs.«402861_j32238024523892_2_alg».proof.Proof.Gen.KernelIdeal.Skeleton
import proofs.«402861_j32238024523892_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block of region 1 at its one point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0's two conditions, in closed form over the grid -/

/-- "This is the group's first point" (k = 0): the running sum is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the group's last point" (k = 4): the running sum is read out into the output block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where region 0's windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from a group's last point the body stores nothing into the output block, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a group's last point the output block is stored whole. -/
theorem liveAt0_3 : ∀ t : Fin cfg0.N, cond0_1 (grid0.coords t) → cfg0.idle 3 (grid0.coords t) = false := by decide +kernel

/-! ## The staging and scratch memrefs -/

abbrev VO0_3 : View sig .tc .vmem S1x256x20 .f32 := (Memref.whole cc0_stg3_0 : Memref sig .tc .vmem S1x256x20 .f32).view
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x20 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x20 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x20 .f32 := win0_3.stage (cfg0.slots t 3)
abbrev hs0_3 (t : Fin cfg0.N) : (ms0_3 t).IsWhole := hstage0_3 ((cfg0.slots t 3).cast nbuf0_3)
/-- The running sum's buffer, whole, and as a view. -/
abbrev scM0 : Memref sig .tc .vmem S256x20x512 .f32 := Memref.whole cc0_scratch0
abbrev VS0 : View sig .tc .vmem S256x20x512 .f32 := scM0.view

abbrev VO1_2 : View sig .tc .vmem S1x1 .f32 := (Memref.whole cc1_stg2_0 : Memref sig .tc .vmem S1x1 .f32).view
abbrev ms1_0 (t : Fin cfg1.N) : Memref sig .tc .vmem S16x1024x20 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-- The other scoped buffers of the core that region 0 does not stage (region 1's staging buffers), each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The region invariant that names nothing, conjunct by conjunct: the running sum's buffer at some contents, region 1's
    staging buffers at some contents, the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [scM0, owns_whole]; try rfl

end Cert.KernelIdeal.Fr

end
-- ==== Proof.KISkel.lean ====
/-
  Each of the three case runs rewrites the gather kernel's parts by their skeletons; the congruence facts that
  rewriting relies on are stated here once, upstream of all three.
-/
import proofs.«402861_j32238024523892_2_alg».proof.Proof.KIShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem skel_congr_realized : True := by
  have := @cc0__gather_kernel_skel.congr_simp; have := @cc1__loss_kernel_skel.congr_simp
  have := @k0_part1_skel.congr_simp
  have := @k0_part2_skel.congr_simp
  have := @k0_part3_skel.congr_simp
  have := @k0_part4_skel.congr_simp
  have := @k0_part5_skel.congr_simp
  have := @k0_part6_skel.congr_simp
  have := @k0_part7_skel.congr_simp
  have := @k0_part8_skel.congr_simp
  have := @k0_part9_skel.congr_simp
  have := @k0_part10_skel.congr_simp
  have := @k0_part11_skel.congr_simp
  have := @k0_part12_skel.congr_simp
  have := @k0_part13_skel.congr_simp
  have := @k0_part14_skel.congr_simp
  have := @k0_part15_skel.congr_simp
  have := @k0_part16_skel.congr_simp
  have := @k0_part17_skel.congr_simp
  trivial

end Cert.KernelIdeal.Fr

end
-- ==== Proof.KIRunA.lean ====
/-
  Region 0's body at a group's FIRST point (k = 0): the running sum's buffer is overwritten with zeros and then each of its twenty slices is added to; nothing is stored into the output block. What the stores leave in the running sum's buffer is found by running the body.
-/
import proofs.«402861_j32238024523892_2_alg».proof.Proof.KISkel

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The pieces the body's stores leave in the running sum's buffer at a group's first point, with the proof that on whole
    memrefs — the three inputs at their contents, the output block at contents handed back untouched, the running sum's
    buffer at anything — the body runs to the continuation holding the inputs and the output block as they were and the
    running sum's buffer with those pieces written. -/
noncomputable def kernelRun0_A (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : cond0_0 i) (hc1 : ¬cond0_1 i)
    (x0 : Vec F S1x2048x512 .bf16) (x1 : Vec F S1x256x20 .i32) (x2 : Vec F S1x256x20 .i32) :
    { LS0 : List (View.Piece (Elt F) S256x20x512 .f32) //
      ∀ (xi3 : Vec F S1x256x20 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  refine ⟨?_, fun xi3 E K => ?run⟩
  case run =>
    simp only [cc0__gather_kernel_eq_skeleton]; unfold cc0__gather_kernel_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KIRunB.lean ====
/-
  Region 0's body at a group's MIDDLE points (0 < k < 4): each of the running sum's twenty slices is added to, over what the point before left; nothing is stored into the output block.
-/
import proofs.«402861_j32238024523892_2_alg».proof.Proof.KISkel

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The pieces the body's stores leave in the running sum's buffer at a middle point, over the contents `xs0` the point
    before left, with the proof that the body runs to the continuation holding the inputs and the output block as they
    were and the running sum's buffer with those pieces written. -/
noncomputable def kernelRun0_B (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : ¬cond0_1 i)
    (x0 : Vec F S1x2048x512 .bf16) (x1 : Vec F S1x256x20 .i32) (x2 : Vec F S1x256x20 .i32) (xs0 : Vec F S256x20x512 .f32) :
    { LS0 : List (View.Piece (Elt F) S256x20x512 .f32) //
      ∀ (xi3 : Vec F S1x256x20 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  refine ⟨?_, fun xi3 E K => ?run⟩
  case run =>
    simp only [cc0__gather_kernel_eq_skeleton]; unfold cc0__gather_kernel_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KIRunC.lean ====
/-
  Region 0's body at a group's LAST point (k = 4): each of the running sum's twenty slices is added to, and then each is read out — masked to the one column its index names and summed along the row — into the output block's twenty columns, which together are the whole block.
-/
import proofs.«402861_j32238024523892_2_alg».proof.Proof.KISkel

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 16000000 in
/-- The pieces the body's stores leave in the output block and in the running sum's buffer at a group's last point, over
    the contents `xs0` the point before left, with the proof that the body runs to the continuation holding the inputs as
    they were and the two buffers with those pieces written. -/
noncomputable def kernelRun0_C (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i)
    (x0 : Vec F S1x2048x512 .bf16) (x1 : Vec F S1x256x20 .i32) (x2 : Vec F S1x256x20 .i32) (xs0 : Vec F S256x20x512 .f32) :
    Σ' (L3 : List (View.Piece (Elt F) S1x256x20 .f32)), { LS0 : List (View.Piece (Elt F) S256x20x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg3 harg3 arg4 harg4 arg5 harg5 arg6 harg6 arg7 harg7) K } := by
  refine ⟨?_, ?_, fun E K => ?run⟩
  case run =>
    simp only [cc0__gather_kernel_eq_skeleton]; unfold cc0__gather_kernel_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KIFrame0.lean ====
/-
  Region 0 (the gather), point by point: what each of the three cases leaves in the running sum's buffer and, at a
  group's last point, in the output block; those contents along the grid (the running sum after point n is the case's
  result over what point n - 1 left); the region's invariant, which from the first point on holds the running sum's
  buffer at exactly those contents; the pipeline's proof data; and the body's obligation at every point.
-/
import proofs.«402861_j32238024523892_2_alg».proof.Proof.KIRunA
import proofs.«402861_j32238024523892_2_alg».proof.Proof.KIRunB
import proofs.«402861_j32238024523892_2_alg».proof.Proof.KIRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The running sum's twenty slice stores tile its buffer, in every case (the reset's whole-buffer store lies under them). -/
theorem scover0_A (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : cond0_0 i) (hc1 : ¬cond0_1 i) (x0 : Vec F S1x2048x512 .bf16) (x1 : Vec F S1x256x20 .i32) (x2 : Vec F S1x256x20 .i32) (y : S256x20x512.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S256x1x512.size (by sl_kernel_rfl) y
theorem scover0_B (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : ¬cond0_1 i) (x0 : Vec F S1x2048x512 .bf16) (x1 : Vec F S1x256x20 .i32) (x2 : Vec F S1x256x20 .i32) (xs0 : Vec F S256x20x512 .f32) (y : S256x20x512.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S256x1x512.size (by sl_kernel_rfl) y
theorem scover0_C (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) (y : S256x20x512.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S256x1x512.size (by sl_kernel_rfl) y
/-- The output block's twenty column stores tile it. -/
theorem cover0_C_3 (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) (y : S1x256x20.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x256x1.size (by sl_kernel_rfl) y

/-- What a case leaves in the running sum's buffer: its pieces read back. -/
def sout0_A (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : cond0_0 i) (hc1 : ¬cond0_1 i) (x0 : Vec F S1x2048x512 .bf16) (x1 : Vec F S1x256x20 .i32) (x2 : Vec F S1x256x20 .i32) : Vec F S256x20x512 .f32 :=
  VS0.read (Elt F) (VS0.writes (Elt F) VS0.junk (kernelRun0_A c i arg3 harg3 arg4 harg4 arg5 harg5 arg6 harg6 arg7 harg7 hc0 hc1 x0 x1 x2).1)
def sout0_B (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : ¬cond0_1 i) (x0 : Vec F S1x2048x512 .bf16) (x1 : Vec F S1x256x20 .i32) (x2 : Vec F S1x256x20 .i32) (xs0 : Vec F S256x20x512 .f32) : Vec F S256x20x512 .f32 :=
  VS0.read (Elt F) (VS0.writes (Elt F) VS0.junk (kernelRun0_B c i arg3 harg3 arg4 harg4 arg5 harg5 arg6 harg6 arg7 harg7 hc0 hc1 x0 x1 x2 xs0).1)
def sout0_C (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) : Vec F S256x20x512 .f32 :=
  VS0.read (Elt F) (VS0.writes (Elt F) VS0.junk (kernelRun0_C c i arg3 harg3 arg4 harg4 arg5 harg5 arg6 harg6 arg7 harg7 hc0 hc1 x0 x1 x2 xs0).2.1)
/-- What the last case leaves in the output block. -/
def out0_C_3 (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole) (hc0 : ¬cond0_0 i) (hc1 : cond0_1 i) (x0 : Vec F S1x2048x512 .bf16) (x1 : Vec F S1x256x20 .i32) (x2 : Vec F S1x256x20 .i32) (xs0 : Vec F S256x20x512 .f32) : Vec F S1x256x20 .f32 :=
  VO0_3.read (Elt F) (VO0_3.writes (Elt F) VO0_3.junk (kernelRun0_C c i arg3 harg3 arg4 harg4 arg5 harg5 arg6 harg6 arg7 harg7 hc0 hc1 x0 x1 x2 xs0).1)
/-- At the other points the output block holds nothing of the body's: a placeholder nothing consults. -/
def idleOut : Vec F S1x256x20 .f32 := VO0_3.read (Elt F) VO0_3.junk

section Data
variable (V : (c : Dev nD) → (b : Ref sig .tc) → Buf (Elt F) ((c : Thread nD τ).loc b))

/-! ## The contents along the grid -/

/-- After the body at position `n`: the output block's staging buffer and the running sum's buffer. The case is read off
    `n % 5`; a case that adds to the running sum does so over what position `n - 1` left. -/
def outsAt0 (c : Dev nD) : (n : ℕ) → n < cfg0.N → Vec F S1x256x20 .f32 × Vec F S256x20x512 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩))
  | n + 1, hn =>
    if h0 : (n + 1) % 5 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => by have h' := (hcond0_1 ⟨n + 1, hn⟩).mp h; (try dsimp only at h'); omega) (iblk0 V c 0 ⟨n + 1, hn⟩) (iblk0 V c 1 ⟨n + 1, hn⟩) (iblk0 V c 2 ⟨n + 1, hn⟩))
    else if h1 : (n + 1) % 5 = 4 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a group's first point: the reset case's contents. -/
theorem outsAt0_A (c : Dev nD) (t : Fin cfg0.N) (h0 : t.val % 5 = 0) (h1 : ¬t.val % 5 = 4) :
    outsAt0 V c t.val t.isLt = (idleOut, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl
/-- At a middle point: the accumulate case's contents, over what the point before left. -/
theorem outsAt0_B (c : Dev nD) (t : Fin cfg0.N) (h0 : ¬t.val % 5 = 0) (h1 : ¬t.val % 5 = 4) :
    outsAt0 V c t.val t.isLt = (idleOut, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- At a group's last point: the read-out case's contents, over what the point before left. -/
theorem outsAt0_C (c : Dev nD) (t : Fin cfg0.N) (h0 : ¬t.val % 5 = 0) (h1 : t.val % 5 = 4) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the invariant that names nothing; afterwards the running sum's buffer at
    what position `n - 1` left, beside the other scoped buffers at some contents and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body each input's buffer at its block and the output's at the
    contents along the grid; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position modulo 5 says which case it is
    in; the invariant hands the body the running sum's buffer at what the point before left (at anything, at the very
    first point) and takes it back at this point's contents; away from a group's last point the output block's buffer
    goes in and comes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 5 = 4
  · have h0 : ¬t.val % 5 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold out0_C_3 sout0_C; (try dsimp only)
    rw [PhiS_castSucc V c t, PhiS_pos V c _ _ hz]
    iintro ⟨⟨⟨HS0, Hoth⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_C c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 5 = 0
    · rw [outsAt0_A V c t h0 h1]
      unfold sout0_A; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := by omega
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back the one that names nothing: the running sum's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 320 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hoth⟩, Hg⟩
  isplitl [HS0 Hoth]
  · isplitl [HS0]
    · iexists _; iexact HS0
    iexact Hoth
  iexact Hg

end Data

end Cert.KernelIdeal.Fr

end
-- ==== Proof.KIFrame1.lean ====
/-
  Region 1 (the loss): one grid point. The body loads the whole gathered array and the margin, and stores one number,
  a pure function of the two; the region's invariant names nothing.
-/
import proofs.«402861_j32238024523892_2_alg».proof.Proof.KISkel

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev r1_0 : Rect S16x1024x20 := Rect.unit (s := S16x1024x20) ![0, 0, 0] S16x1024x20.size inb_S16x1024x20_S16x1024x20_0_0_0
abbrev r1_1 : Rect S1x1 := Rect.unit (s := S1x1) ![0, 0] S1x1.size inb_S1x1_S1x1_0_0

/-- The output's staging buffer after the body, from the two inputs' blocks: its one store. -/
def out1_2 (x0 : Vec F S16x1024x20 .f32) (x1 : Vec F S1x1 .f32) : Vec F S1x1 .f32 :=
  View.canon [⟨r1_1, k1_pay1 (View.ld x0 r1_0) (View.ld x1 r1_1)⟩]

theorem cover1_2 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

set_option maxHeartbeats 1000000 in
/-- The body on whole staging memrefs, the inputs' at their contents and the output's at anything, runs to the
    continuation holding the inputs as they were and the output at `out1_2` of them. -/
theorem sound_kernel1 (c : Dev nD) (E : Set ℕ) (i : grid1.Coords) (arg1 : Memref sig .tc .vmem S16x1024x20 .f32) (harg1 : arg1.IsWhole) (arg2 : Memref sig .tc .vmem S1x1 .f32) (harg2 : arg2.IsWhole) (arg3 : Memref sig .tc .vmem S1x1 .f32) (harg3 : arg3.IsWhole)
    (x0 : Vec F S16x1024x20 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__loss_kernel i arg1 harg1 arg2 harg2 arg3 harg3) K := by
  simp only [cc1__loss_kernel_eq_skeleton]; unfold cc1__loss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

section Data
variable (V : (c : Dev nD) → (b : Ref sig .tc) → Buf (Elt F) ((c : Thread nD τ).loc b))

/-- The arrays as the region finds them; after the body each input's buffer at its block and the output's at `out1_2`
    of the input blocks; the invariant that names nothing; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at the region's point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Data

end Cert.KernelIdeal.Fr

end
-- ==== Proof.KIRun.lean ====
/-
  The program's run, from the launch to the return. The contents of every unscoped buffer are followed through @main's
  five items — a stretch of host operations, the gather region, one host operation, the loss region, one host
  operation —: a host stretch applies its operations, a region replaces its arrays by what its write-backs leave and
  keeps every other buffer. Each region is entered from "every unscoped buffer at the boundary's contents, the generator
  register at some state, nothing owed" and left in the same form; the run ends with every unscoped buffer at the last
  contents, read against the final memory. The frame and the result's value are both read off that.
-/
import proofs.«402861_j32238024523892_2_alg».proof.Proof.KIFrame0
import proofs.«402861_j32238024523892_2_alg».proof.Proof.KIFrame1
import proofs.«402861_j32238024523892_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wk0 : Dev nD → Valuation τ sig (Elt F) := fun c b => (s₀ m ρ).mem ((c : Dev nD), b)
abbrev Wk1 : Dev nD → Valuation τ sig (Elt F) := fun c => StableHlo.after hostOps0 (Wk0 m ρ c)
abbrev Vk1 : (c : Dev nD) → (b : Ref sig .tc) → Buf (Elt F) ((c : Thread nD τ).loc b) := fun c b => Wk1 m ρ c b
def Wk2 (c : Dev nD) : Valuation τ sig (Elt F) :=
  Pipeline.withArrays spec0 c (Wk1 m ρ c) fun w => (dat0 (Vk1 m ρ) c).arrAt w cfg0.N
theorem Wk2_arr (c : Dev nD) (w : Fin cfg0.W) :
    Wk2 m ρ c (Proc.devRef .tc (Pipeline.arrRef spec0 w)) = (dat0 (Vk1 m ρ) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb
abbrev Vk2 : (c : Dev nD) → (b : Ref sig .tc) → Buf (Elt F) ((c : Thread nD τ).loc b) := fun c b => Wk2 m ρ c b
theorem hF0 (c : Dev nD) (w : Fin cfg0.W) : (dat0 (Vk1 m ρ) c).arrAt w cfg0.N = Vk2 m ρ c (Pipeline.arrRef spec0 w) :=
  (Wk2_arr m ρ c w).symm
theorem hrest0 (c : Dev nD) : ∀ b, b ∉ Finset.univ.image (Pipeline.arrRef spec0) → Vk2 m ρ c b = Vk1 m ρ c b :=
  fun b hb => Wk2_of_ne m ρ c b fun w e => hb (Finset.mem_image.mpr ⟨w, Finset.mem_univ _, e⟩)

abbrev Wk3 : Dev nD → Valuation τ sig (Elt F) := fun c => StableHlo.after hostOps1 (Wk2 m ρ c)
abbrev Vk3 : (c : Dev nD) → (b : Ref sig .tc) → Buf (Elt F) ((c : Thread nD τ).loc b) := fun c b => Wk3 m ρ c b
def Wk4 (c : Dev nD) : Valuation τ sig (Elt F) :=
  Pipeline.withArrays spec1 c (Wk3 m ρ c) fun w => (dat1 (Vk3 m ρ) c).arrAt w cfg1.N
theorem Wk4_arr (c : Dev nD) (w : Fin cfg1.W) :
    Wk4 m ρ c (Proc.devRef .tc (Pipeline.arrRef spec1 w)) = (dat1 (Vk3 m ρ) c).arrAt w cfg1.N := by
  unfold Wk4; exact Pipeline.withArrays_arr spec1 launch1.win.arr_inj c _ _ w
theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb
abbrev Vk4 : (c : Dev nD) → (b : Ref sig .tc) → Buf (Elt F) ((c : Thread nD τ).loc b) := fun c b => Wk4 m ρ c b
theorem hF1 (c : Dev nD) (w : Fin cfg1.W) : (dat1 (Vk3 m ρ) c).arrAt w cfg1.N = Vk4 m ρ c (Pipeline.arrRef spec1 w) :=
  (Wk4_arr m ρ c w).symm
theorem hrest1 (c : Dev nD) : ∀ b, b ∉ Finset.univ.image (Pipeline.arrRef spec1) → Vk4 m ρ c b = Vk3 m ρ c b :=
  fun b hb => Wk4_of_ne m ρ c b fun w e => hb (Finset.mem_image.mpr ⟨w, Finset.mem_univ _, e⟩)

abbrev Wk5 : Dev nD → Valuation τ sig (Elt F) := fun c => StableHlo.after hostOps2 (Wk4 m ρ c)

/-! ### No item writes an argument -/

theorem Wk5_main_arg0 (c : Dev nD) : Wk5 m ρ c (Proc.devRef .tc main_arg0) = m ((c : Thread nD τ).loc main_arg0) :=
  calc Wk5 m ρ c (Proc.devRef .tc main_arg0)
    _ = Wk4 m ρ c (Proc.devRef .tc main_arg0) := StableHlo.after_of_writes_sub hostOps2 _ hostOps2_writes (by decide)
    _ = Wk3 m ρ c (Proc.devRef .tc main_arg0) := Wk4_of_ne m ρ c main_arg0 (by decide)
    _ = Wk2 m ρ c (Proc.devRef .tc main_arg0) := StableHlo.after_of_writes_sub hostOps1 _ hostOps1_writes (by decide)
    _ = Wk1 m ρ c (Proc.devRef .tc main_arg0) := Wk2_of_ne m ρ c main_arg0 (by decide)
    _ = Wk0 m ρ c (Proc.devRef .tc main_arg0) := StableHlo.after_of_writes_sub hostOps0 _ hostOps0_writes (by decide)
    _ = m ((c : Thread nD τ).loc main_arg0) := rfl
theorem Wk5_main_arg1 (c : Dev nD) : Wk5 m ρ c (Proc.devRef .tc main_arg1) = m ((c : Thread nD τ).loc main_arg1) :=
  calc Wk5 m ρ c (Proc.devRef .tc main_arg1)
    _ = Wk4 m ρ c (Proc.devRef .tc main_arg1) := StableHlo.after_of_writes_sub hostOps2 _ hostOps2_writes (by decide)
    _ = Wk3 m ρ c (Proc.devRef .tc main_arg1) := Wk4_of_ne m ρ c main_arg1 (by decide)
    _ = Wk2 m ρ c (Proc.devRef .tc main_arg1) := StableHlo.after_of_writes_sub hostOps1 _ hostOps1_writes (by decide)
    _ = Wk1 m ρ c (Proc.devRef .tc main_arg1) := Wk2_of_ne m ρ c main_arg1 (by decide)
    _ = Wk0 m ρ c (Proc.devRef .tc main_arg1) := StableHlo.after_of_writes_sub hostOps0 _ hostOps0_writes (by decide)
    _ = m ((c : Thread nD τ).loc main_arg1) := rfl
theorem Wk5_main_arg2 (c : Dev nD) : Wk5 m ρ c (Proc.devRef .tc main_arg2) = m ((c : Thread nD τ).loc main_arg2) :=
  calc Wk5 m ρ c (Proc.devRef .tc main_arg2)
    _ = Wk4 m ρ c (Proc.devRef .tc main_arg2) := StableHlo.after_of_writes_sub hostOps2 _ hostOps2_writes (by decide)
    _ = Wk3 m ρ c (Proc.devRef .tc main_arg2) := Wk4_of_ne m ρ c main_arg2 (by decide)
    _ = Wk2 m ρ c (Proc.devRef .tc main_arg2) := StableHlo.after_of_writes_sub hostOps1 _ hostOps1_writes (by decide)
    _ = Wk1 m ρ c (Proc.devRef .tc main_arg2) := Wk2_of_ne m ρ c main_arg2 (by decide)
    _ = Wk0 m ρ c (Proc.devRef .tc main_arg2) := StableHlo.after_of_writes_sub hostOps0 _ hostOps0_writes (by decide)
    _ = m ((c : Thread nD τ).loc main_arg2) := rfl

/-! ## The proof data family and the thread state -/

abbrev admk : (p : Fin 2) → (pcfgs (F := F) p).Adm := fun p => (cfgs p).toPCfg_adm
def pdatsk : (p : Fin 2) → (c : Dev nD) → Dat τ (Elt F) Unit ℕ (UR sig nD τ) ℕ (Pipeline.pin (pcfgs (F := F)) admk p) c
  | ⟨0, _⟩ => fun c => dat0 (Vk1 m ρ) c
  | ⟨1, _⟩ => fun c => dat1 (Vk3 m ρ) c
abbrev 𝒱k : Variants := Variants.none
abbrev Lk : GSem nD τ sig → Finset Unit := fun _ => ∅
abbrev lvk : GSem nD τ sig → Unit → ℕ := fun _ _ => 0
/-- What rides beside the buffers through every item: the generator register at some state, and the core owing nothing. -/
abbrev Rk (c : Dev nD) : sProp 𝕄 := iprop((∃ r, prngReg c r) ∗ ∃ W, owes (c : Thread nD τ) (0 : CellTallies nD τ sig Unit) W)
abbrev hsegk (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk
abbrev Tkn (c : Dev nD) : sProp 𝕄 := iprop(StableHlo.held (c : Thread nD τ) (Pipeline.ucRefs τ sig) (Wk5 m ρ c) ∗ ∃ r, prngReg c r)

/-! ## The regions as segments -/

set_option backward.isDefEq.respectTransparency.types false in
/-- The gather region: its arrays split out of the unscoped buffers and put back at the exit contents; the generator
    register into the invariant and out — the invariant is entered at the one that names nothing and ends there again,
    the running sum's contents forgotten; nothing owed; no semaphore of the kernel's own. -/
def regk0 : Pipeline.RegionSeg (pcfgs (F := F)) admk (pdatsk m ρ) () defs₀ 𝒱k Lk lvk 0 where
  win := launch0.win.to₀
  block_pos := launch0.block_pos
  stage_whole := launch0.stage_whole
  K := PEmpty
  osem k := k.elim
  ho := Pipeline.OwnSemFacts.none _
  hbody c := (body_obligation0 (Vk1 m ρ) c).loose
  hwaits := Pipeline.hwaits_of_owed_zero _ _ _ _ Lk lvk 0 fun _ _ => rfl
  pre c := iprop(StableHlo.held (c : Thread nD τ) (Pipeline.ucRefs τ sig) (Wk1 m ρ c) ∗ Rk c)
  post c := iprop(StableHlo.held (c : Thread nD τ) (Pipeline.ucRefs τ sig) (Wk2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (Vk1 m ρ c)
  hentry c := by
    rw [Pipeline.ownSems0_none]
    have hsplit := Pipeline.arrays_of_unscopedBufs (p := 0) (pcfgs (F := F)) admk (pdatsk m ρ) launch0.win launch0.arr_whole c
      ((pdatsk m ρ 0 c).share_full fun _ => rfl) (Vk1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsk m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsk m ρ 0 c).Φ (Fin.last _) = (dat0 (Vk1 m ρ) c).Φ (Fin.last cfg0.N) from rfl]
    have hback : (dat0 (Vk1 m ρ) c).Φ (Fin.last cfg0.N) ⊢ (iprop(Pipeline.scopedRest spec0 c ∗ ∃ r, prngReg c r) : sProp 𝕄) := by
      have h := hout0 (Vk1 m ρ) c
      unfold Pipeline.ΦA at h
      exact h
    iintro Hinv
    ihave H := hback $$ Hinv
    icases H with ⟨Hr, Hp⟩
    isplitl [Hp]; · iexact Hp
    isplitr; · iempintro
    iexact Hr
  hexit c := by
    have hjoin := Pipeline.unscopedBufs_of_arrays (p := 0) (pcfgs (F := F)) admk (Ix := Unit) (Name := ℕ) (U := UR sig nD τ) (Lvl := ℕ)
      launch0.win launch0.arr_whole c (pdatsk m ρ) ((pdatsk m ρ 0 c).share_full fun _ => rfl)
      (Vk1 m ρ c) (Vk2 m ρ c) ((pdatsk m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss region, the same way; its invariant names nothing throughout. -/
def regk1 : Pipeline.RegionSeg (pcfgs (F := F)) admk (pdatsk m ρ) () defs₀ 𝒱k Lk lvk 1 where
  win := launch1.win.to₀
  block_pos := launch1.block_pos
  stage_whole := launch1.stage_whole
  K := PEmpty
  osem k := k.elim
  ho := Pipeline.OwnSemFacts.none _
  hbody c := (body_obligation1 (Vk3 m ρ) c).loose
  hwaits := Pipeline.hwaits_of_owed_zero _ _ _ _ Lk lvk 1 fun _ _ => rfl
  pre c := iprop(StableHlo.held (c : Thread nD τ) (Pipeline.ucRefs τ sig) (Wk3 m ρ c) ∗ Rk c)
  post c := iprop(StableHlo.held (c : Thread nD τ) (Pipeline.ucRefs τ sig) (Wk4 m ρ c) ∗ Rk c)
  X c := iprop(∃ r, prngReg c r)
  Y c := iprop(∃ r, prngReg c r)
  Z c := Pipeline.unscopedRest (Ix := Unit) (Name := ℕ) (U := UR sig nD τ) (Lvl := ℕ) spec1 c (Vk3 m ρ c)
  hentry c := by
    rw [Pipeline.ownSems0_none]
    have hsplit := Pipeline.arrays_of_unscopedBufs (p := 1) (pcfgs (F := F)) admk (pdatsk m ρ) launch1.win launch1.arr_whole c
      ((pdatsk m ρ 1 c).share_full fun _ => rfl) (Vk3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsk m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsk m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admk (Ix := Unit) (Name := ℕ) (U := UR sig nD τ) (Lvl := ℕ)
      launch1.win launch1.arr_whole c (pdatsk m ρ) ((pdatsk m ρ 1 c).share_full fun _ => rfl)
      (Vk3 m ρ c) (Vk4 m ρ c) ((pdatsk m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsk : List (Pipeline.Seg (pcfgs (F := F)) admk (pdatsk m ρ) () defs₀ 𝒱k Lk lvk) :=
  [ .host (hsegk hostOps0 hostOps0_sub hostOps0_fresh (Wk0 m ρ)),
    .region (regk0 m ρ),
    .host (hsegk hostOps1 hostOps1_sub hostOps1_fresh (Wk2 m ρ)),
    .region (regk1 m ρ),
    .host (hsegk hostOps2 hostOps2_sub hostOps2_fresh (Wk4 m ρ)) ]
theorem main_runk (c : Dev nD) : main (F := F) c = Pipeline.Seg.run (segsk m ρ) := (main_chain c).trans (by chain_rfl)

theorem mem_uck (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and in
    every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk5 m ρ c b) :=
  Pipeline.θ_run_regions_kit (pcfgs (F := F)) admk (pdatsk m ρ) () cellOf_inj emb₁ defs₀ 𝒱k Lk lvk m ρ main (segsk m ρ)
    (fun c Q => by rw [main_runk m ρ c])
    (by simp only [segsk, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ Rk c)) (Tₙ := Tkn m ρ)
    (hch := ⟨fun _ => .rfl, fun _ => .rfl, fun _ => .rfl, fun _ => .rfl, fun _ => .rfl, fun c => by
      show (iprop(StableHlo.held (c : Thread nD τ) (Pipeline.ucRefs τ sig) (Wk5 m ρ c) ∗ Rk c) : sProp 𝕄)
        ⊢ iprop(Tkn m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lk lvk fun c => ?_
      rw [show unscopedBufs c (fun b => m ((c : Thread nD τ).loc b)) = StableHlo.held (c : Thread nD τ) (Pipeline.ucRefs τ sig) (Wk0 m ρ c)
        from Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk5 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uck main_arg0 (by decide))).trans (Wk5_main_arg0 m ρ c),
     (h c _ (mem_uck main_arg1 (by decide))).trans (Wk5_main_arg1 m ρ c),
     (h c _ (mem_uck main_arg2 (by decide))).trans (Wk5_main_arg2 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v14) = Wk5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uck main_v14 (by decide)),
     (h c _ (mem_uck main_arg0 (by decide))).trans (Wk5_main_arg0 m ρ c),
     (h c _ (mem_uck main_arg1 (by decide))).trans (Wk5_main_arg1 m ρ c),
     (h c _ (mem_uck main_arg2 (by decide))).trans (Wk5_main_arg2 m ρ c)⟩) (run_all m ρ)

end Cert.KernelIdeal.Fr

end
-- ==== Proof.Spec.lean ====
/-
  What the two programs compute, as plain functions over literal shapes.
  The cost volume is cv[b, t, h, w] over 16 x 20 x 512 x 512; the trajectory array gives, for each batch b, each of
  1024 trajectories n and each of 20 points p, a triple (t, h, w) of indices. The gathered cost is
  x[b, n, p] = cv[b, t, h, w], and the loss is
    sum over b of max over n of sum over p of max(x[b, 1023, p] - x[b, n, p] + d, 0):
  the last trajectory is the positive one, d is the margin.
-/
import Idealize.ShloMosaic.PureOps.Ideal
import Idealize.ShloMosaic.Lib.ValueIdx

noncomputable section

open scoped BigOperators

namespace Cert.Spec

open Idealize.ShloMosaic Idealize.ShloMosaic.ValueIdx

/-- The cost volume's shape, the trajectory array's, and the gathered costs'. -/
abbrev SCV : Shape := ⟨4, ![16, 20, 512, 512]⟩
abbrev STR : Shape := ⟨4, ![16, 1024, 20, 3]⟩
abbrev SIX : Shape := ⟨3, ![16, 1024, 20]⟩

/-- The three index columns of the trajectory array: time, row, column. -/
def Tof (a : STR.Idx → BitVec 32) : SIX.Idx → BitVec 32 := fun j => a (ix4 (j 0) (j 1) (j 2) (0 : Fin 3))
def Hof (a : STR.Idx → BitVec 32) : SIX.Idx → BitVec 32 := fun j => a (ix4 (j 0) (j 1) (j 2) (1 : Fin 3))
def Wof (a : STR.Idx → BitVec 32) : SIX.Idx → BitVec 32 := fun j => a (ix4 (j 0) (j 1) (j 2) (2 : Fin 3))

/-- Every index triple names an entry of the cost volume. -/
def InRange (T H W : SIX.Idx → BitVec 32) : Prop := ∀ j, (T j).toNat < 20 ∧ (H j).toNat < 512 ∧ (W j).toNat < 512

/-- The cost volume at natural-number coordinates, each taken modulo its extent so that the function is total;
    in range the reduction does nothing. -/
def at4 (cv : SCV.Idx → EReal) (b t h w : ℕ) : EReal :=
  cv (ix4 (⟨b % 16, Nat.mod_lt _ (by decide)⟩ : Fin 16) (⟨t % 20, Nat.mod_lt _ (by decide)⟩ : Fin 20)
    (⟨h % 512, Nat.mod_lt _ (by decide)⟩ : Fin 512) (⟨w % 512, Nat.mod_lt _ (by decide)⟩ : Fin 512))

/-- The gathered costs. -/
def sel (cv : SCV.Idx → EReal) (T H W : SIX.Idx → BitVec 32) : SIX.Idx → EReal :=
  fun j => at4 cv (j 0).val (T j).toNat (H j).toNat (W j).toNat

/-- The hinge loss of the gathered costs at margin `d`. -/
def loss (x : SIX.Idx → EReal) (d : EReal) : EReal :=
  ∑ b : Fin 16, Finset.univ.sup fun n : Fin 1024 =>
    ∑ p : Fin 20, max (x (ix3 b (⟨1023, by decide⟩ : Fin 1024) p) - x (ix3 b n p) + d) 0

end Cert.Spec

end
-- ==== Proof.KIHost.lean ====
/-
  The program's host operations, read at an index.
  Before the gather the host cuts the trajectory array a[b, n, p, ·] into its three columns t, h and w (a slice of
  width one on the last axis, then the unit axis dropped), forms the table row t * 512 + h on 32-bit words, and views
  the cost volume cv[b, t, h, w], narrowed to bf16 (the identity on extended reals), as a table of 10240 rows per
  batch: row r of the table is (t, h) = (r / 512, r % 512), because both arrays list their entries in row-major order
  and 20 * 512 = 10240. Before the loss the margin, a scalar, becomes a 1 x 1 array; after it the 1 x 1 result becomes
  a scalar. Each of these is stated for arbitrary contents of the buffers the stretch starts from.
  Last, the row word is the number it looks like: with t < 20 and h < 512 the sum t * 512 + h stays below 2^32.
-/
import proofs.«402861_j32238024523892_2_alg».proof.Proof.Gen.KernelIdeal.Launch
import proofs.«402861_j32238024523892_2_alg».proof.Proof.Spec
import Idealize.ShloMosaic.Lib.StableHlo.Run
import Idealize.ShloMosaic.Lib.ValueIdx
import Idealize.ShloMosaic.Lib.Pipeline.Value
import Idealize.ShloMosaic.PureOps.Ideal

noncomputable section

namespace Cert.KernelIdeal.Host

open Cert.KernelIdeal Cert.KernelIdeal.Gen Idealize.ShloMosaic Idealize.ShloMosaic.TcCoe Idealize.ShloMosaic.ValueIdx

/-! ## The two layout steps, over any entries -/

/-- Column `k` of the trajectory array: the width-one slice at offset `k` of the last axis, with that axis dropped,
    holds at (b, n, p) the entry at (b, n, p, k). Dropping a unit axis keeps the row-major position; the slice shifts
    the last coordinate by its offset and no other. -/
theorem column_apply {α : Type} (a : S16x1024x20x3.Idx → α) (off : Fin 4 → Nat) (k : Fin 3)
    (h0 : off 0 = 0) (h1 : off 1 = 0) (h2 : off 2 = 0) (h3 : off 3 = k.val)
    (hs : S16x1024x20x3.Slices off S16x1024x20x1) (hc : S16x1024x20x1.ShapeCasts S16x1024x20) (j : S16x1024x20.Idx) :
    shapeCast S16x1024x20 (extractStridedSlice S16x1024x20x1 off a hs) hc j = a (ix4 (j 0) (j 1) (j 2) k) := by
  refine (shapeCast_apply _ hc j (ix4 (j 0) (j 1) (j 2) (0 : Fin 1)) ?_).trans ?_
  · rw [Shape.rowMajor_val_four, Shape.rowMajor_val_three]
    show (((j 0).val * 1024 + (j 1).val) * 20 + (j 2).val) * 1 + 0 = ((j 0).val * 1024 + (j 1).val) * 20 + (j 2).val
    omega
  · refine extractStridedSlice_apply off a hs _ (ix4 (j 0) (j 1) (j 2) k) fun b => ?_
    match b with
    | ⟨0, _⟩ => show (j 0).val = off 0 + (j 0).val; omega
    | ⟨1, _⟩ => show (j 1).val = off 1 + (j 1).val; omega
    | ⟨2, _⟩ => show (j 2).val = off 2 + (j 2).val; omega
    | ⟨3, _⟩ => show k.val = off 3 + 0; omega

/-- The cost volume viewed as 10240 rows per batch: row `r`, column `w` of batch `b` is the entry at time `r / 512`,
    row `r % 512`, column `w`. Both sides sit at row-major position (b * 10240 + r) * 512 + w. -/
theorem table_cast_apply {α : Type} (x : S16x20x512x512.Idx → α) (hc : S16x20x512x512.ShapeCasts S16x10240x512)
    (b : Fin 16) (r : Fin 10240) (w : Fin 512) :
    shapeCast S16x10240x512 x hc (ix3 b r w)
      = x (ix4 b (⟨r.val / 512, by omega⟩ : Fin 20) (⟨r.val % 512, Nat.mod_lt _ (by decide)⟩ : Fin 512) w) := by
  refine shapeCast_apply x hc _ _ ?_
  rw [Shape.rowMajor_val_four, Shape.rowMajor_val_three]
  show ((b.val * 20 + r.val / 512) * 512 + r.val % 512) * 512 + w.val = (b.val * 10240 + r.val) * 512 + w.val
  omega

/-! ## What the three stretches leave, from any contents `W` -/

variable (W : Valuation τ sig (Elt Ideal))

/-- The table row of every index triple: the time column times 512, plus the row column, on 32-bit words. -/
theorem row_eq : StableHlo.after hostOps0 W main_v8
    = fun j => Cert.Spec.Tof (W main_arg1) j * 512#32 + Cert.Spec.Hof (W main_arg1) j := by
  show StableHlo.after hostOps0 _ (Proc.devRef .tc main_v8) = _
  after_results
  funext j
  exact congrArg₂ (· + ·) (congrArg (· * 512#32) (column_apply _ _ 0 rfl rfl rfl rfl _ _ j))
    (column_apply _ _ 1 rfl rfl rfl rfl _ _ j)

/-- The table column of every index triple: the column column. -/
theorem col_eq : StableHlo.after hostOps0 W main_v5 = Cert.Spec.Wof (W main_arg1) := by
  show StableHlo.after hostOps0 _ (Proc.devRef .tc main_v5) = _
  after_results
  funext j
  exact column_apply _ _ 2 rfl rfl rfl rfl _ _ j

/-- The table the gather reads: the cost volume itself (narrowing the format changes no extended real), row `r` of
    batch `b` being time `r / 512`, row `r % 512`. -/
theorem table_apply (b : Fin 16) (r : Fin 10240) (w : Fin 512) :
    StableHlo.after hostOps0 W main_v10 (ix3 b r w)
      = W main_arg0 (ix4 b (⟨r.val / 512, by omega⟩ : Fin 20) (⟨r.val % 512, Nat.mod_lt _ (by decide)⟩ : Fin 512) w) := by
  have e : (StableHlo.after hostOps0 W (Proc.devRef .tc main_v10) : FVec Ideal S16x10240x512 .bf16)
      = shapeCast S16x10240x512 (truncf (F := Ideal) .bf16 (W main_arg0) bitsLt_bf16_f32) shapeCasts_S16x20x512x512_S16x10240x512 := by
    after_results
    rfl
  show (StableHlo.after hostOps0 W (Proc.devRef .tc main_v10) : FVec Ideal S16x10240x512 .bf16) (ix3 b r w) = _
  rw [e, table_cast_apply]
  rfl

/-- The margin as a 1 x 1 array: its one entry is the scalar. -/
theorem margin_eq : StableHlo.after hostOps1 W main_v12 = fun _ => W main_arg2 ix0 := by
  show StableHlo.after hostOps1 _ (Proc.devRef .tc main_v12) = _
  after_results
  funext j
  show shapeCast S1x1 (W main_arg2) shapeCasts_S_S1x1 j = _
  unfold shapeCast
  exact congrArg _ (eq_ix0 _)

/-- The result as a scalar: the one entry of the 1 x 1 array the loss leaves. -/
theorem result_eq : StableHlo.after hostOps2 W main_v14 = fun _ => W main_v13 (ix2 (0 : Fin 1) (0 : Fin 1)) := by
  show StableHlo.after hostOps2 _ (Proc.devRef .tc main_v14) = _
  after_results
  funext j
  show shapeCast S_ (W main_v13) shapeCasts_S1x1_S_ j = _
  unfold shapeCast
  refine congrArg _ (funext fun a => ?_)
  match a with
  | ⟨0, _⟩ => exact Fin.eq_zero _
  | ⟨1, _⟩ => exact Fin.eq_zero _

/-- In range the row word does not wrap: t * 512 + h < 20 * 512 + 512, far below 2^32. -/
theorem row_toNat (j : Cert.Spec.SIX.Idx) (hT : (Cert.Spec.Tof (W main_arg1) j).toNat < 20)
    (hH : (Cert.Spec.Hof (W main_arg1) j).toNat < 512) :
    (Cert.Spec.Tof (W main_arg1) j * 512#32 + Cert.Spec.Hof (W main_arg1) j).toNat
      = (Cert.Spec.Tof (W main_arg1) j).toNat * 512 + (Cert.Spec.Hof (W main_arg1) j).toNat := by
  generalize Cert.Spec.Tof (W main_arg1) j = t at hT ⊢
  generalize Cert.Spec.Hof (W main_arg1) j = h at hH ⊢
  rw [BitVec.toNat_add, BitVec.toNat_mul]
  show (t.toNat * 512 % 4294967296 + h.toNat) % 4294967296 = _
  omega

end Cert.KernelIdeal.Host

end
-- ==== Proof.RefBase.lean ====
/-
  The reference's run and its stages read at an index, taken whole from the generated modules; the modules that
  say what the reference computes build on this one.
-/
import proofs.«402861_j32238024523892_2_alg».proof.Proof.Gen.ReferenceIdeal.Run
import proofs.«402861_j32238024523892_2_alg».proof.Proof.Gen.ReferenceIdeal.Read
-- ==== Proof.LossValue.lean ====
/-
  The loss, on both sides. Both programs end with the same arithmetic on the gathered costs x[b, n, p]:
  subtract each trajectory's cost from the last trajectory's, add the margin, clamp at zero, sum over the points p,
  take the maximum over the trajectories n starting from -∞, and sum over the batches b. Each sum starts from
  the zero word, which adds nothing; the maximum from -∞ over a finite family is the family's supremum, because
  -∞ is the bottom of the extended reals. So each side, read at its one result index, is the specification's loss.
-/
import proofs.«402861_j32238024523892_2_alg».proof.Proof.Gen.KernelIdeal.Skeleton
import proofs.«402861_j32238024523892_2_alg».proof.Proof.RefBase
import proofs.«402861_j32238024523892_2_alg».proof.Proof.Spec
import Idealize.ShloMosaic.Lib.ValueIdx
import Idealize.ShloMosaic.Lib.ValueIdxRank1
import Idealize.ShloMosaic.Lib.Pipeline.Value
import Idealize.ShloMosaic.Lib.IdealHost
import Idealize.ShloMosaic.PureOps.Ideal.Laws
import Idealize.ShloMosaic.PureOps.Reduce

noncomputable section

open scoped BigOperators

namespace Cert.LossValue

open Idealize.ShloMosaic Idealize.ShloMosaic.ValueIdx Cert.Spec

/-! ## Two facts about the extended reals -/

/-- The running maximum from the bottom element over a finite family is the family's supremum. -/
theorem fold_max_bot {ι : Type} (s : Finset ι) (f : ι → EReal) : s.fold max ⊥ f = s.sup f := rfl

/-- The f32 word of -∞ denotes the bottom element. -/
theorem ofBits_neg_inf : Ideal.ofBits .f32 0xFF800000#32 = ⊥ := by simp [Ideal.ofBits, Ideal.ieee]

/-! ## Indices -/

/-- A one-by-one array has one index. -/
theorem idx11 (j : Cert.KernelIdeal.S1x1.Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- Point p put back behind (b, n). -/
theorem lift_point (b : Fin 16) (n : Fin 1024) (p : Fin 20) :
    Cert.KernelIdeal.Gen.reduces_S16x1024x20_S16x1024.lift (ix2 b n) p = ix3 b n p := by
  funext a
  match a with
  | ⟨0, _⟩ => rfl
  | ⟨1, _⟩ => rfl
  | ⟨2, _⟩ => rfl

/-- Trajectory n put back behind b. -/
theorem lift_traj (b : Fin 16) (n : Fin 1024) :
    Cert.KernelIdeal.Gen.reduces_S16x1024_S16.lift (ix1 b) n = ix2 b n := by
  funext a
  match a with
  | ⟨0, _⟩ => rfl
  | ⟨1, _⟩ => rfl

/-- Batch b put back in front of the unit column. -/
theorem lift_batch (b : Fin 16) :
    Cert.KernelIdeal.Gen.reduces_S16x1_S1.lift (ix1 (0 : Fin 1)) b = ix2 b (0 : Fin 1) := by
  funext a
  match a with
  | ⟨0, _⟩ => rfl
  | ⟨1, _⟩ => rfl

/-! ## The kernel's side -/

/-- The last trajectory's cost, sliced out and broadcast back over the trajectories: at (b, n, p) it is x[b, 1023, p]. -/
theorem positive_apply (v0 : Vec Ideal Cert.KernelIdeal.S16x1024x20 .f32) (b : Fin 16) (n : Fin 1024) (p : Fin 20) :
    broadcastTo Cert.KernelIdeal.S16x1024x20
      (extractStridedSlice Cert.KernelIdeal.S16x1x20 ![0, 1023, 0] v0 Cert.KernelIdeal.Gen.slices_S16x1024x20_o0_1023_0_S16x1x20)
      Cert.KernelIdeal.Gen.broadcasts_S16x1x20_S16x1024x20 (ix3 b n p) = v0 (ix3 b (⟨1023, by decide⟩ : Fin 1024) p) := by
  refine (broadcastTo_apply _ _ _ (ix3 b (0 : Fin 1) p) ?_).trans ?_
  · intro a
    match a with
    | ⟨0, _⟩ => rfl
    | ⟨1, _⟩ => rfl
    | ⟨2, _⟩ => rfl
  refine extractStridedSlice_apply _ _ _ _ (ix3 b (⟨1023, by decide⟩ : Fin 1024) p) ?_
  intro a
  match a with
  | ⟨0, _⟩ => exact (Nat.zero_add _).symm
  | ⟨1, _⟩ => rfl
  | ⟨2, _⟩ => exact (Nat.zero_add _).symm

/-- The margin, a one-by-one array, broadcast over every entry. -/
theorem margin_apply (v2 : Vec Ideal Cert.KernelIdeal.S1x1 .f32) (b : Fin 16) (n : Fin 1024) (p : Fin 20) :
    broadcastTo Cert.KernelIdeal.S16x1024x20
      (shapeCast Cert.KernelIdeal.S1x1x1 v2 Cert.KernelIdeal.Gen.shapeCasts_S1x1_S1x1x1)
      Cert.KernelIdeal.Gen.broadcasts_S1x1x1_S16x1024x20 (ix3 b n p) = v2 (ix2 (0 : Fin 1) (0 : Fin 1)) := by
  refine (broadcastTo_apply _ _ _ (ix3 (0 : Fin 1) (0 : Fin 1) (0 : Fin 1)) ?_).trans ?_
  · intro a
    match a with
    | ⟨0, _⟩ => rfl
    | ⟨1, _⟩ => rfl
    | ⟨2, _⟩ => rfl
  exact shapeCast_apply _ _ _ (ix2 (0 : Fin 1) (0 : Fin 1)) rfl

/-- The value the loss kernel stores is the loss of the array it loads, at the margin it loads. The three reductions
    are read outermost first: the sum over batches, the maximum over trajectories, the sum over points; what is left
    is the clamped difference at one entry. -/
theorem kernel_loss (v0 : Vec Ideal Cert.KernelIdeal.S16x1024x20 .f32) (v2 : Vec Ideal Cert.KernelIdeal.S1x1 .f32) (j : Cert.KernelIdeal.S1x1.Idx) :
    Cert.KernelIdeal.Gen.k1_pay1 (F := Ideal) v0 v2 j = Cert.Spec.loss v0 (v2 (ix2 (0 : Fin 1) (0 : Fin 1))) := by
  obtain rfl := idx11 j
  unfold Cert.KernelIdeal.Gen.k1_pay1
  dsimp only
  -- the sum over the batches b
  refine (shapeCast_apply _ _ _ (ix1 (0 : Fin 1)) rfl).trans ?_
  refine (Ideal.multiReduction_add_single _ _ _ _ _ _).trans ?_
  unfold Cert.Spec.loss
  refine Finset.sum_congr rfl fun (b : Fin 16) _ => ?_
  rw [lift_batch b]
  refine (shapeCast_apply _ _ _ (ix1 b) ?_).trans ?_
  · rw [Shape.rowMajor_val_one, Shape.rowMajor_val_two]
    show b.val = b.val * 1 + 0
    omega
  -- the maximum over the trajectories n, from -∞
  refine (Ideal.multiReduction_maximumf_single _ _ _ _ _ _).trans ?_
  rw [Ideal.ofBits_def, ofBits_neg_inf, fold_max_bot]
  refine Finset.sup_congr rfl fun (n : Fin 1024) _ => ?_
  show multiReduction _ _ _ _ _ _ _ _ (Cert.KernelIdeal.Gen.reduces_S16x1024_S16.lift (ix1 b) n) = _
  rw [lift_traj b n]
  -- the sum over the points p
  refine (Ideal.multiReduction_add_single _ _ _ _ _ _).trans ?_
  refine Finset.sum_congr rfl fun (p : Fin 20) _ => ?_
  rw [lift_point b n p]
  -- one entry
  simp only [shapeCast_self]
  rw [maximumf_apply, addf_apply, subf_apply, broadcast_apply, positive_apply, margin_apply, Ideal.ofBits_def,
    Ideal.ofBits_zero_f32]

/-! ## The reference's side -/

/-- The reference's maximum runs over axis 1 of a 16 x 1024 array. -/
theorem reduces_traj : Cert.ReferenceIdeal.S16x1024.Reduces [1] Cert.ReferenceIdeal.S16 := by decide

/-- Trajectory n put back behind b, for the reference's shapes. -/
theorem lift_traj_ref (b : Fin 16) (n : Fin 1024) : reduces_traj.lift (ix1 b) n = ix2 b n := by
  funext a
  match a with
  | ⟨0, _⟩ => rfl
  | ⟨1, _⟩ => rfl

/-- The index the reference's sum over points reads at (b, n) and p. -/
theorem idx_point (b : Fin 16) (n : Fin 1024) (p : Fin 20) :
    Cert.ReferenceIdeal.Read.idx_main_v41 (ix2 b n) p = ix3 b n p := by
  funext a
  match a with
  | ⟨0, _⟩ => rfl
  | ⟨1, _⟩ => rfl
  | ⟨2, _⟩ => rfl

/-- The slice of trajectory 1023 broadcast back: at (b, n, p) it reads (b, 1023, p). -/
theorem idx_positive (b : Fin 16) (n : Fin 1024) (p : Fin 20) :
    Cert.ReferenceIdeal.Read.idx_main_v35 (Cert.ReferenceIdeal.Read.idx_main_v36 (ix3 b n p))
      = ix3 b (⟨1023, by decide⟩ : Fin 1024) p := by
  funext a
  match a with
  | ⟨0, _⟩ => rfl
  | ⟨1, _⟩ => rfl
  | ⟨2, _⟩ => rfl

/-- The reference's last stage is the loss of its gathered costs at its margin: the same three reductions, each from
    its initial value (zero, -∞, zero), over the same clamped difference. -/
theorem ref_loss (x0 : (⟨Cert.ReferenceIdeal.S16x20x512x512, .f32⟩ : BufTy).Contents (Elt Ideal)) (x1 : (⟨Cert.ReferenceIdeal.S16x1024x20x3, .i32⟩ : BufTy).Contents (Elt Ideal)) (x2 : (⟨Cert.ReferenceIdeal.S_, .f32⟩ : BufTy).Contents (Elt Ideal)) (j : Cert.ReferenceIdeal.S_.Idx) :
    Cert.ReferenceIdeal.Read.val_main_v43 (F := Ideal) x0 x1 x2 j = Cert.Spec.loss (Cert.ReferenceIdeal.Read.val_main_v34 (F := Ideal) x0 x1) (x2 ix0) := by
  -- the sum over the batches b, from zero
  rw [Cert.ReferenceIdeal.Read.val_main_v43_apply, Cert.ReferenceIdeal.Read.val_main_cst_8_apply, Ideal.ofBits_def,
    Ideal.ofBits_zero_f32, zero_add]
  unfold Cert.Spec.loss
  refine ((Equiv.sum_comp (idxEquiv1 (n := 16)).symm _).symm).trans ?_
  refine Finset.sum_congr rfl fun (b : Fin 16) _ => ?_
  show Cert.ReferenceIdeal.Read.val_main_v42 (F := Ideal) x0 x1 x2 (ix1 b) = _
  -- the maximum over the trajectories n, from -∞
  unfold Cert.ReferenceIdeal.Read.val_main_v42
  refine (Host.reduce_eq_fold_single _ _ _ _ reduces_traj _ (ix1 b)).trans ?_
  rw [Cert.ReferenceIdeal.Read.val_main_cst_7_apply, Ideal.ofBits_def, ofBits_neg_inf]
  refine (fold_max_bot _ _).trans ?_
  refine Finset.sup_congr rfl fun (n : Fin 1024) _ => ?_
  show Cert.ReferenceIdeal.Read.val_main_v41 (F := Ideal) x0 x1 x2 (reduces_traj.lift (ix1 b) n) = _
  -- the sum over the points p, from zero
  rw [lift_traj_ref b n, Cert.ReferenceIdeal.Read.val_main_v41_apply, Cert.ReferenceIdeal.Read.val_main_cst_apply,
    Ideal.ofBits_def, Ideal.ofBits_zero_f32, zero_add]
  refine Finset.sum_congr rfl fun (p : Fin 20) _ => ?_
  -- one entry
  rw [idx_point b n p, Cert.ReferenceIdeal.Read.val_main_v40_apply, Cert.ReferenceIdeal.Read.val_main_v39_apply,
    Cert.ReferenceIdeal.Read.val_main_v37_apply, Cert.ReferenceIdeal.Read.val_main_v36_apply,
    Cert.ReferenceIdeal.Read.val_main_v35_apply, Cert.ReferenceIdeal.Read.val_main_v38_apply,
    Cert.ReferenceIdeal.Read.val_main_call0_v0_apply, Cert.ReferenceIdeal.Read.val_main_call0_cst_apply,
    idx_positive b n p, Ideal.ofBits_def, Ideal.ofBits_zero_f32]
  rfl

end Cert.LossValue

end
-- ==== Proof.KIGather.lean ====
/-
  The gather region's arithmetic in closed form, at the extended reals.
  One accumulate step at tile k adds, at row n, slice p and lane w of the running sum, the table tile's entry at
  (row - k*2048, w) when the row index row = rows[n, p] falls in the tile's range [k*2048, (k+1)*2048), and nothing
  otherwise. The read-out picks, at row n and slice p, the running sum's lane col = cols[n, p].
-/
import proofs.«402861_j32238024523892_2_alg».proof.Proof.KIFrame0
import Idealize.ShloMosaic.Lib.ValueIdx
import Idealize.ShloMosaic.PureOps.Ideal

noncomputable section

namespace Cert.KernelIdeal.Value0

open Idealize.ShloMosaic Idealize.ShloMosaic.TcCoe Idealize.ShloMosaic.ValueIdx
open Cert.KernelIdeal Cert.KernelIdeal.Gen Cert.KernelIdeal.Fr

/-- The running sum after one accumulate step at tile `k`, over the contents `old`. -/
def accSpec (tile : Vec Ideal S1x2048x512 .bf16) (rowsB : Vec Ideal S1x256x20 .i32) (k : ℕ) (old : Vec Ideal S256x20x512 .f32) : Vec Ideal S256x20x512 .f32 :=
  fun y =>
    old y + (if h : k * 2048 ≤ (rowsB (ix3 (0 : Fin 1) (⟨(y 0).val, (y 0).isLt⟩ : Fin 256) (⟨(y 1).val, (y 1).isLt⟩ : Fin 20))).toNat
                  ∧ (rowsB (ix3 (0 : Fin 1) (⟨(y 0).val, (y 0).isLt⟩ : Fin 256) (⟨(y 1).val, (y 1).isLt⟩ : Fin 20))).toNat < k * 2048 + 2048
             then tile (ix3 (0 : Fin 1) (⟨(rowsB (ix3 (0 : Fin 1) (⟨(y 0).val, (y 0).isLt⟩ : Fin 256) (⟨(y 1).val, (y 1).isLt⟩ : Fin 20))).toNat - k * 2048, by omega⟩ : Fin 2048) (⟨(y 2).val, (y 2).isLt⟩ : Fin 512))
             else 0)

/-- The output block the read-out leaves, from the running sum `acc`: at row n and slice p, its lane cols[n, p]
    (taken modulo 512 so that the function is total; in range the reduction does nothing). -/
def readSpec (colsB : Vec Ideal S1x256x20 .i32) (acc : Vec Ideal S256x20x512 .f32) : Vec Ideal S1x256x20 .f32 :=
  fun z => acc (ix3 (⟨(z 1).val, (z 1).isLt⟩ : Fin 256) (⟨(z 2).val, (z 2).isLt⟩ : Fin 20)
    (⟨(colsB z).toNat % 512, Nat.mod_lt _ (by decide)⟩ : Fin 512))

/-- The zero contents. -/
def zeroAcc : Vec Ideal S256x20x512 .f32 := fun _ => 0

end Cert.KernelIdeal.Value0

end
-- ==== Proof.KIStepMath.lean ====
/-
  The arithmetic of the gather kernel's two steps, read at one element over the extended reals.

  An accumulate step compares a column of 256 row numbers with the 2048 row numbers of tile k, turns the
  0/1 answers into the numbers 0 and 1, and multiplies that 256 x 2048 matrix with the 2048 x 512 tile. On the
  extended reals 0 * x = 0 and 1 * x = x for every x, the two infinities included, and in a row of the 0/1
  matrix at most one entry is 1: the row's product with a column of the tile is the tile's entry in the one row
  whose number is the wanted one, or 0 when that row is not in tile k. A read-out step does the same along the
  512 lanes of a row: the lane sum of the row masked by "lane = wanted column" is the entry in that lane.
  Equality of 32-bit words is equality of the numbers because every number in sight is below 2^32.
-/
import proofs.«402861_j32238024523892_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StepMath

open Cert.KernelIdeal Cert.KernelIdeal.Gen Idealize.ShloMosaic Idealize.ShloMosaic.ValueIdx

/-! ## The layout operations of the two payloads, read at an index -/

section Layout
variable {α : Type}

/-- A [256, 1, 512] array viewed as [256, 512] reads (n, 0, w) at (n, w). -/
theorem cast_a1b_ab (x : S256x1x512.Idx → α) (h : S256x1x512.ShapeCasts S256x512) (n : Fin 256) (w : Fin 512) :
    shapeCast S256x512 x h (ix2 n w) = x (ix3 n (0 : Fin 1) w) :=
  shapeCast_apply x h _ _ (by
    rw [Shape.rowMajor_val_three, Shape.rowMajor_val_two]
    show (n.val * 1 + 0) * 512 + w.val = n.val * 512 + w.val
    omega)

/-- A [256, 512] array viewed as [256, 1, 512] reads (n, w) at (n, u, w). -/
theorem cast_ab_a1b (x : S256x512.Idx → α) (h : S256x512.ShapeCasts S256x1x512) (n : Fin 256) (u : Fin 1) (w : Fin 512) :
    shapeCast S256x1x512 x h (ix3 n u w) = x (ix2 n w) :=
  shapeCast_apply x h _ _ (by
    have hu : u.val = 0 := by omega
    rw [Shape.rowMajor_val_three, Shape.rowMajor_val_two]
    show n.val * 512 + w.val = (n.val * 1 + u.val) * 512 + w.val
    omega)

/-- A vector of 256 entries viewed as a [256, 1] column reads n at (n, u). -/
theorem cast_a_a1 (x : S256.Idx → α) (h : S256.ShapeCasts S256x1) (n : Fin 256) (u : Fin 1) :
    shapeCast S256x1 x h (ix2 n u) = x (ix1 n) :=
  shapeCast_apply x h _ _ (by
    have hu : u.val = 0 := by omega
    rw [Shape.rowMajor_val_two, Shape.rowMajor_val_one]
    show n.val = n.val * 1 + u.val
    omega)

/-- A [256, 1] column laid along m lanes reads (n, 0) at (n, c). -/
theorem bcast_col {m : ℕ} (x : S256x1.Idx → α) (h : S256x1.Broadcasts ⟨2, ![256, m]⟩) (n : Fin 256) (c : Fin m) :
    broadcastTo ⟨2, ![256, m]⟩ x h (ix2 n c) = x (ix2 n (0 : Fin 1)) := by
  refine broadcastTo_apply x h (ix2 n c) (ix2 n (0 : Fin 1)) fun ax => ?_
  match ax with
  | ⟨0, _⟩ => rfl
  | ⟨1, _⟩ => rfl

end Layout

/-! ## A 0/1 word as a number -/

/-- A decided condition, widened to a 32-bit word and converted to a float, is the number 1 or 0. -/
theorem bit_to_number (p : Bool) :
    (FloatOps.sitofp (F := Ideal) .f32 ((BitVec.ofBool p).setWidth 32) : EReal) = if p then 1 else 0 := by
  cases p
  · show (((BitVec.setWidth 32 (BitVec.ofBool false)).toInt : ℝ) : EReal) = 0
    have : (BitVec.setWidth 32 (BitVec.ofBool false)).toInt = 0 := by decide
    rw [this]; simp
  · show (((BitVec.setWidth 32 (BitVec.ofBool true)).toInt : ℝ) : EReal) = 1
    have : (BitVec.setWidth 32 (BitVec.ofBool true)).toInt = 1 := by decide
    rw [this]; simp

/-- A sum over a finite range of "1 where the index is the wanted one, else 0" times a term is the wanted term:
    0 * x = 0 and 1 * x = x on the extended reals, the infinities included. -/
theorem sum_pick {N : ℕ} (P : Fin N → Prop) [DecidablePred P] (f : Fin N → EReal) (c₀ : Fin N)
    (h : ∀ c, P c ↔ c = c₀) :
    ∑ c : Fin N, (if P c then (1 : EReal) else 0) * f c = f c₀ := by
  rw [Finset.sum_eq_single c₀]
  · rw [if_pos ((h c₀).mpr rfl), one_mul]
  · intro c _ hc
    rw [if_neg (fun hp => hc ((h c).mp hp)), zero_mul]
  · intro hc; exact absurd (Finset.mem_univ _) hc

/-- … and where no index is the wanted one the sum is 0. -/
theorem sum_pick_none {N : ℕ} (P : Fin N → Prop) [DecidablePred P] (f : Fin N → EReal) (h : ∀ c, ¬ P c) :
    ∑ c : Fin N, (if P c then (1 : EReal) else 0) * f c = 0 :=
  Finset.sum_eq_zero fun c _ => by rw [if_neg (h c), zero_mul]

/-- The same with the mask on the right of the product. -/
theorem sum_pick_right {N : ℕ} (P : Fin N → Prop) [DecidablePred P] (f : Fin N → EReal) (c₀ : Fin N)
    (h : ∀ c, P c ↔ c = c₀) :
    ∑ c : Fin N, f c * (if P c then (1 : EReal) else 0) = f c₀ := by
  rw [Finset.sum_eq_single c₀]
  · rw [if_pos ((h c₀).mpr rfl), mul_one]
  · intro c _ hc
    rw [if_neg (fun hp => hc ((h c).mp hp)), mul_zero]
  · intro hc; exact absurd (Finset.mem_univ _) hc

/-! ## The matrix product at an index -/

/-- On the left operand's kept axis the operand index is the output row. -/
theorem lhs_axis0 (j : S256x512.Idx) (k : dot_S256x2048_S2048x512_S256x512_1_0_0_1_n_n.contr.Idx) :
    (dot_S256x2048_S2048x512_S256x512_1_0_0_1_n_n.lhsIdx j k (0 : Fin 2)).val = (j (0 : Fin 2)).val := by
  simp [DotDims.lhsIdx, dot_S256x2048_S2048x512_S256x512_1_0_0_1_n_n]
  rfl

/-- On the left operand's contracted axis it is the contraction position. -/
theorem lhs_axis1 (j : S256x512.Idx) (k : dot_S256x2048_S2048x512_S256x512_1_0_0_1_n_n.contr.Idx) :
    (dot_S256x2048_S2048x512_S256x512_1_0_0_1_n_n.lhsIdx j k (1 : Fin 2)).val = (k ⟨0, by decide⟩).val :=
  dot_S256x2048_S2048x512_S256x512_1_0_0_1_n_n.lhsIdx_val_of_single (cl := (1 : Fin 2)) rfl j k

/-- On the right operand's contracted axis it is the contraction position. -/
theorem rhs_axis0 (j : S256x512.Idx) (k : dot_S256x2048_S2048x512_S256x512_1_0_0_1_n_n.contr.Idx) :
    (dot_S256x2048_S2048x512_S256x512_1_0_0_1_n_n.rhsIdx j k (0 : Fin 2)).val = (k ⟨0, by decide⟩).val :=
  dot_S256x2048_S2048x512_S256x512_1_0_0_1_n_n.rhsIdx_val_of_single (cr := (0 : Fin 2)) rfl j k

/-- On the right operand's kept axis it is the output column. -/
theorem rhs_axis1 (j : S256x512.Idx) (k : dot_S256x2048_S2048x512_S256x512_1_0_0_1_n_n.contr.Idx) :
    (dot_S256x2048_S2048x512_S256x512_1_0_0_1_n_n.rhsIdx j k (1 : Fin 2)).val = (j (1 : Fin 2)).val := by
  simp [DotDims.rhsIdx, dot_S256x2048_S2048x512_S256x512_1_0_0_1_n_n]
  rfl

/-- The [256, 2048] by [2048, 512] product into the zero accumulator, at (n, w): the sum over the 2048 rows of the
    tile of the products of the entries. -/
theorem matmul_at (lhs : FVec Ideal S256x2048 .bf16) (rhs : FVec Ideal S2048x512 .bf16) (n : Fin 256) (w : Fin 512) :
    matmul dot_S256x2048_S2048x512_S256x512_1_0_0_1_n_n none lhs rhs (constant (F := Ideal) S256x512 .f32 0x00000000#32) (ix2 n w)
      = ∑ c : Fin 2048, lhs (ix2 n c) * rhs (ix2 c w) := by
  show FloatOps.matmul dot_S256x2048_S2048x512_S256x512_1_0_0_1_n_n none lhs rhs _ (ix2 n w) = _
  rw [Ideal.matmul_constant_zero_apply,
    ← Equiv.sum_comp (contrEquiv1 dot_S256x2048_S2048x512_S256x512_1_0_0_1_n_n 2048 rfl rfl).symm]
  refine Finset.sum_congr rfl fun c _ => ?_
  have hc := contrEquiv1_symm_val dot_S256x2048_S2048x512_S256x512_1_0_0_1_n_n 2048 rfl rfl c
  have hl : dot_S256x2048_S2048x512_S256x512_1_0_0_1_n_n.lhsIdx (ix2 n w)
      ((contrEquiv1 dot_S256x2048_S2048x512_S256x512_1_0_0_1_n_n 2048 rfl rfl).symm c) = ix2 n c := by
    funext ax; apply Fin.ext
    match ax with
    | ⟨0, _⟩ => exact lhs_axis0 _ _
    | ⟨1, _⟩ => exact (lhs_axis1 _ _).trans hc
  have hr : dot_S256x2048_S2048x512_S256x512_1_0_0_1_n_n.rhsIdx (ix2 n w)
      ((contrEquiv1 dot_S256x2048_S2048x512_S256x512_1_0_0_1_n_n 2048 rfl rfl).symm c) = ix2 c w := by
    funext ax; apply Fin.ext
    match ax with
    | ⟨0, _⟩ => exact (rhs_axis0 _ _).trans hc
    | ⟨1, _⟩ => exact rhs_axis1 _ _
  rw [hl, hr]

/-! ## The words: the row numbers of tile k, and when a wanted row is one of them -/

/-- Row c of tile k carries the number c + k * 2048. -/
theorem tile_rows (i : grid0.Coords) (u : Fin 1) (c : Fin 2048) :
    k0_pay31 i (ix2 u c) = BitVec.ofNat 32 (c.val + (i 2).val * 2048) := by
  unfold k0_pay31
  show IntOp.addi (iota .tc S1x2048 32 [1] _ (ix2 u c)) (Scalar.muli (BitVec.ofNat 32 (i 2).val) 2048#32) = _
  rw [iota_single_apply]
  show BitVec.ofNat 32 c.val + BitVec.ofNat 32 (i 2).val * 2048#32 = _
  apply BitVec.eq_of_toNat_eq
  simp only [BitVec.toNat_add, BitVec.toNat_mul, BitVec.toNat_ofNat]
  omega

/-- A 32-bit word equals the word of a number below 2^32 exactly when its number is that number. -/
theorem word_eq_iff (x : BitVec 32) (m : ℕ) (hm : m < 4294967296) : (x == BitVec.ofNat 32 m) = decide (x.toNat = m) := by
  rw [Bool.eq_iff_iff, beq_iff_eq, decide_eq_true_iff]
  constructor
  · rintro rfl; simp only [BitVec.toNat_ofNat]; omega
  · intro h; apply BitVec.eq_of_toNat_eq; simp only [BitVec.toNat_ofNat]; omega

/-- The 0/1 matrix of an accumulate step at (n, c): 1 exactly when the wanted row of trajectory n is row c of tile k. -/
theorem onehot_at (i : grid0.Coords) (rc : Vec Ideal S1x256x1 .i32) (h1 : S1x256x1.ShapeCasts S256x1)
    (h2 : S256x1.Broadcasts S256x2048) (h3 : S1x2048.Broadcasts S256x2048) (h4 : 1 < 32) (h5 : FTy.bits .bf16 < FTy.bits .f32)
    (n : Fin 256) (c : Fin 2048) :
    (truncf .bf16 (sitofp .f32 (extui 32 (cmpi .eq (broadcastTo S256x2048 (shapeCast S256x1 rc h1) h2)
        (broadcastTo S256x2048 (k0_pay31 i) h3)) h4) : FVec Ideal S256x2048 .f32) h5 : FVec Ideal S256x2048 .bf16) (ix2 n c)
      = if (rc (ix3 (0 : Fin 1) n (0 : Fin 1))).toNat = c.val + (i 2).val * 2048 then 1 else 0 := by
  have hk : (i 2).val < 5 := (i 2).isLt
  show (FloatOps.sitofp (F := Ideal) .f32 ((IntOp.cmpi .eq (broadcastTo S256x2048 (shapeCast S256x1 rc h1) h2 (ix2 n c))
      (broadcastTo S256x2048 (k0_pay31 i) h3 (ix2 n c))).setWidth 32) : EReal) = _
  rw [bcast_col, shapeCast_1ab_ab_apply, broadcastTo_1b_ab_apply, tile_rows]
  show (FloatOps.sitofp (F := Ideal) .f32 ((BitVec.ofBool (rc (ix3 (0 : Fin 1) n (0 : Fin 1)) == BitVec.ofNat 32 (c.val + (i 2).val * 2048))).setWidth 32) : EReal) = _
  rw [bit_to_number, word_eq_iff _ _ (by have := c.isLt; omega)]
  simp only [decide_eq_true_eq]

/-- ONE ACCUMULATE STEP at (n, w): the old entry plus, when the wanted row of trajectory n lies in tile k, the tile's
    entry in that row at column w, and plus 0 otherwise. -/
theorem accStep_apply (i : grid0.Coords) (tile : Vec Ideal S1x2048x512 .bf16) (rc : Vec Ideal S1x256x1 .i32) (old : Vec Ideal S256x1x512 .f32)
    (n : Fin 256) (w : Fin 512) (hr : (rc (ix3 (0 : Fin 1) n (0 : Fin 1))).toNat < 10240) :
    k0_pay33 (F := Ideal) i tile rc old (ix3 n (0 : Fin 1) w)
      = old (ix3 n (0 : Fin 1) w)
        + (if h : (i 2).val * 2048 ≤ (rc (ix3 (0 : Fin 1) n (0 : Fin 1))).toNat ∧ (rc (ix3 (0 : Fin 1) n (0 : Fin 1))).toNat < (i 2).val * 2048 + 2048
           then tile (ix3 (0 : Fin 1) (⟨(rc (ix3 (0 : Fin 1) n (0 : Fin 1))).toNat - (i 2).val * 2048, by omega⟩ : Fin 2048) w) else 0) := by
  unfold k0_pay33
  refine (cast_ab_a1b _ _ n 0 w).trans ?_
  refine congrArg₂ (· + ·) (cast_a1b_ab old _ n w) ?_
  refine (matmul_at _ _ n w).trans ?_
  refine (Finset.sum_congr rfl fun c _ => congrArg₂ (· * ·) (onehot_at i rc _ _ _ _ _ n c)
    (show k0_pay32 tile (ix2 c w) = tile (ix3 (0 : Fin 1) c w) from shapeCast_1ab_ab_apply tile _ c w)).trans ?_
  by_cases h : (i 2).val * 2048 ≤ (rc (ix3 (0 : Fin 1) n (0 : Fin 1))).toNat ∧ (rc (ix3 (0 : Fin 1) n (0 : Fin 1))).toNat < (i 2).val * 2048 + 2048
  · rw [dif_pos h]
    refine sum_pick (fun c : Fin 2048 => (rc (ix3 (0 : Fin 1) n (0 : Fin 1))).toNat = c.val + (i 2).val * 2048)
      (fun c => tile (ix3 (0 : Fin 1) c w)) ⟨(rc (ix3 (0 : Fin 1) n (0 : Fin 1))).toNat - (i 2).val * 2048, by omega⟩ fun c => ?_
    constructor
    · intro hc; apply Fin.ext; show c.val = _ - _; omega
    · intro hc; rw [hc]; show _ = (_ - _) + _; omega
  · rw [dif_neg h]
    refine sum_pick_none (fun c : Fin 2048 => (rc (ix3 (0 : Fin 1) n (0 : Fin 1))).toNat = c.val + (i 2).val * 2048)
      (fun c => tile (ix3 (0 : Fin 1) c w)) fun c hc => h ?_
    have := c.isLt
    constructor <;> omega

/-! ## The reset: the scratch starts at zero -/

/-- The reset value of the scratch is 0 at every entry. -/
theorem zeros_apply (j : S256x20x512.Idx) : k0_pay30 (F := Ideal) j = 0 := by
  unfold k0_pay30
  rw [shapeCast_self]
  exact Ideal.ofBits_zero_f32

/-! ## The read-out step -/

/-- The 0/1 mask of a read-out step at (n, l): 1 exactly when lane l is the wanted column of trajectory n. -/
theorem lanemask_at (cc : Vec Ideal S1x256x1 .i32) (h0 : S1x512.Iotas .tc 32 [1]) (h1 : S1x256x1.ShapeCasts S256x1)
    (h2 : S256x1.Broadcasts S256x512) (h3 : S1x512.Broadcasts S256x512) (h4 : 1 < 32)
    (n : Fin 256) (l : Fin 512) :
    (sitofp .f32 (extui 32 (cmpi .eq (broadcastTo S256x512 (shapeCast S256x1 cc h1) h2)
        (broadcastTo S256x512 (iota .tc S1x512 32 [1] h0) h3)) h4) : FVec Ideal S256x512 .f32) (ix2 n l)
      = if (cc (ix3 (0 : Fin 1) n (0 : Fin 1))).toNat = l.val then 1 else 0 := by
  show (FloatOps.sitofp (F := Ideal) .f32 ((IntOp.cmpi .eq (broadcastTo S256x512 (shapeCast S256x1 cc h1) h2 (ix2 n l))
      (broadcastTo S256x512 (iota .tc S1x512 32 [1] h0) h3 (ix2 n l))).setWidth 32) : EReal) = _
  rw [bcast_col, shapeCast_1ab_ab_apply, broadcastTo_1b_ab_apply, iota_single_apply]
  show (FloatOps.sitofp (F := Ideal) .f32 ((BitVec.ofBool (cc (ix3 (0 : Fin 1) n (0 : Fin 1)) == BitVec.ofNat 32 l.val)).setWidth 32) : EReal) = _
  rw [bit_to_number, word_eq_iff _ _ (by have := l.isLt; omega)]
  simp only [decide_eq_true_eq]

/-- The lane sum of a [256, 512] array, at row n: the sum over the 512 lanes of the row's entries. -/
theorem lanesum_at (src : FVec Ideal S256x512 .f32) (h : S256x512.Reduces [1] S256) (hφ : FKind.Formats .f32)
    (hacc : (0x00000000#32 : BitVec 32) = 0x00000000#32) (n : Fin 256) :
    multiReduction (F := Ideal) .add [1] S256 src 0x00000000#32 h hφ hacc (ix1 n) = ∑ l : Fin 512, src (ix2 n l) := by
  refine (Ideal.multiReduction_add_single src 0x00000000#32 h hφ hacc (ix1 n)).trans ?_
  refine Finset.sum_congr rfl fun l _ => congrArg src ?_
  funext ax; apply Fin.ext
  match ax with
  | ⟨0, _⟩ => rfl
  | ⟨1, _⟩ => rfl

/-- ONE READ-OUT STEP at trajectory n: the accumulated row's entry in the wanted column. -/
theorem readStep_apply (cc : Vec Ideal S1x256x1 .i32) (acc : Vec Ideal S256x1x512 .f32) (n : Fin 256)
    (hc : (cc (ix3 (0 : Fin 1) n (0 : Fin 1))).toNat < 512) :
    k0_pay3 (F := Ideal) cc acc (ix3 (0 : Fin 1) n (0 : Fin 1)) = acc (ix3 n (0 : Fin 1) ⟨(cc (ix3 (0 : Fin 1) n (0 : Fin 1))).toNat, hc⟩) := by
  unfold k0_pay3
  refine (shapeCast_ab_1ab_apply _ _ (0 : Fin 1) n (0 : Fin 1)).trans ?_
  refine (cast_a_a1 _ _ n (0 : Fin 1)).trans ?_
  refine (lanesum_at _ _ _ _ n).trans ?_
  refine (Finset.sum_congr rfl fun l _ => congrArg₂ (· * ·) (cast_a1b_ab acc _ n l) (lanemask_at cc _ _ _ _ _ n l)).trans ?_
  refine sum_pick_right (fun l : Fin 512 => (cc (ix3 (0 : Fin 1) n (0 : Fin 1))).toNat = l.val)
    (fun l => acc (ix3 n (0 : Fin 1) l)) ⟨(cc (ix3 (0 : Fin 1) n (0 : Fin 1))).toNat, hc⟩ fun l => ?_
  constructor
  · intro hl; exact Fin.ext hl.symm
  · intro hl; rw [hl]

end Cert.KernelIdeal.StepMath

end
-- ==== Proof.KISteps.lean ====
/-
  What each case of the gather region's body leaves, in closed form: the pieces its stores write, read back, are one
  accumulate step over the previous contents (over zeros at a group's first point), and at a group's last point the
  output block is the read-out of the running sum just accumulated.

  The running sum is stored slice by slice: slice p is the [256,1,512] part of the [256,20,512] buffer at middle
  coordinate p, and its store's payload is the accumulate step on column p of the row-index block and on slice p of the
  old contents. So every slice store agrees, on its rectangle, with ONE function of the buffer's index, the accumulate
  step on the whole buffer, and the twenty stores together leave that function. The output block is stored column by
  column in the same way, each column the read-out of one slice.
-/
import proofs.«402861_j32238024523892_2_alg».proof.Proof.KIGather
import proofs.«402861_j32238024523892_2_alg».proof.Proof.KIStepMath
import Idealize.ShloMosaic.Lib.Pipeline.Value

set_option maxRecDepth 16384

noncomputable section

namespace Cert.KernelIdeal.Value0

open Idealize.ShloMosaic Idealize.ShloMosaic.TcCoe Idealize.ShloMosaic.ValueIdx Idealize.SL.Sem
open Cert.KernelIdeal Cert.KernelIdeal.Gen Cert.KernelIdeal.Fr

/-! ## Indices of a slice of the running sum, of a column of an index block, and of a column of the output block -/

/-- The two specifications at an index given by its coordinates. -/
theorem accSpec_at (tile : Vec Ideal S1x2048x512 .bf16) (rowsB : Vec Ideal S1x256x20 .i32) (k : ℕ)
    (old : Vec Ideal S256x20x512 .f32) (n : Fin 256) (p : Fin 20) (w : Fin 512) :
    accSpec tile rowsB k old (ix3 n p w)
      = old (ix3 n p w)
        + (if h : k * 2048 ≤ (rowsB (ix3 (0 : Fin 1) n p)).toNat ∧ (rowsB (ix3 (0 : Fin 1) n p)).toNat < k * 2048 + 2048
           then tile (ix3 (0 : Fin 1) (⟨(rowsB (ix3 (0 : Fin 1) n p)).toNat - k * 2048, by omega⟩ : Fin 2048) w) else 0) := rfl

/-- Slice p of the running sum places its index (n, 0, w) at (n, p, w). -/
theorem slice_emb (p : ℕ) (hp : p < 20) (inbs) (n : Fin 256) (w : Fin 512) :
    (Rect.unit (s := S256x20x512) ![0, p, 0] ![256, 1, 512] inbs).emb (ix3 n (0 : Fin 1) w) = ix3 n (⟨p, hp⟩ : Fin 20) w := by
  funext a; apply Fin.ext
  match a with
  | ⟨0, _⟩ => show 0 + 1 * n.val = n.val; omega
  | ⟨1, _⟩ => show p + 1 * 0 = p; omega
  | ⟨2, _⟩ => show 0 + 1 * w.val = w.val; omega

/-- Column p of a [1,256,20] block places its index (0, n, 0) at (0, n, p). -/
theorem col_emb (p : ℕ) (hp : p < 20) (inbc) (n : Fin 256) :
    (Rect.unit (s := S1x256x20) ![0, 0, p] ![1, 256, 1] inbc).emb (ix3 (0 : Fin 1) n (0 : Fin 1)) = ix3 (0 : Fin 1) n (⟨p, hp⟩ : Fin 20) := by
  funext a; apply Fin.ext
  match a with
  | ⟨0, _⟩ => show 0 + 1 * 0 = 0; omega
  | ⟨1, _⟩ => show 0 + 1 * n.val = n.val; omega
  | ⟨2, _⟩ => show p + 1 * 0 = p; omega

/-- An index of a [256,1,512] slice is (n, 0, w). -/
theorem eq_ix3_mid (x : S256x1x512.Idx) : x = ix3 (x 0 : Fin 256) (0 : Fin 1) (x 2 : Fin 512) := by
  funext a
  match a with
  | ⟨0, _⟩ => rfl
  | ⟨1, _⟩ => exact Subsingleton.elim (α := Fin 1) _ _
  | ⟨2, _⟩ => rfl

/-- An index of a [1,256,1] column is (0, n, 0). -/
theorem eq_ix3_col (x : S1x256x1.Idx) : x = ix3 (0 : Fin 1) (x 1 : Fin 256) (0 : Fin 1) := by
  funext a
  match a with
  | ⟨0, _⟩ => exact Subsingleton.elim (α := Fin 1) _ _
  | ⟨1, _⟩ => rfl
  | ⟨2, _⟩ => exact Subsingleton.elim (α := Fin 1) _ _

/-! ## One slice of an accumulate step, one column of the read-out -/

/-- What a tile adds depends on the row number only. -/
theorem tileAt_congr (k : ℕ) (tile : Vec Ideal S1x2048x512 .bf16) (w : Fin 512) (r r' : ℕ) (e : r = r') :
    (if h : k * 2048 ≤ r ∧ r < k * 2048 + 2048 then tile (ix3 (0 : Fin 1) (⟨r - k * 2048, by omega⟩ : Fin 2048) w) else 0)
      = (if h : k * 2048 ≤ r' ∧ r' < k * 2048 + 2048 then tile (ix3 (0 : Fin 1) (⟨r' - k * 2048, by omega⟩ : Fin 2048) w) else 0) := by
  subst e; rfl

/-- ONE SLICE OF AN ACCUMULATE STEP: the step's payload on column p of the index block and slice p of the old running sum
    is, at every index of the slice, the whole-buffer step at the index the slice's rectangle places it at. -/
theorem acc_piece (i : grid0.Coords) (tile : Vec Ideal S1x2048x512 .bf16) (rows : Vec Ideal S1x256x20 .i32)
    (old : Vec Ideal S256x20x512 .f32) (hr : ∀ z, (rows z).toNat < 10240) (p : ℕ) (inbc) (inbs)
    (x : (Rect.unit (s := S256x20x512) ![0, p, 0] ![256, 1, 512] inbs).shape.Idx) :
    k0_pay33 (F := Ideal) i tile (View.ld rows (Rect.unit (s := S1x256x20) ![0, 0, p] ![1, 256, 1] inbc))
        (View.ld old (Rect.unit (s := S256x20x512) ![0, p, 0] ![256, 1, 512] inbs)) x
      = accSpec tile rows (i 2).val old ((Rect.unit (s := S256x20x512) ![0, p, 0] ![256, 1, 512] inbs).emb x) := by
  have hp : p < 20 := by have h1 := inbs 1; (have e : (![0, p, 0] : Fin 3 → ℕ) 1 + (![256, 1, 512] : Fin 3 → ℕ) 1 = p + 1 := rfl); (have e' : S256x20x512.size 1 = 20 := rfl); rw [e, e'] at h1; omega
  obtain ⟨n, w, rfl⟩ : ∃ (n : Fin 256) (w : Fin 512), x = ix3 n (0 : Fin 1) w := ⟨x 0, x 2, eq_ix3_mid x⟩
  refine (StepMath.accStep_apply i tile _ _ n w (hr _)).trans ?_
  rw [slice_emb p hp inbs n w, accSpec_at]
  have e1 : View.ld rows (Rect.unit (s := S1x256x20) ![0, 0, p] ![1, 256, 1] inbc) (ix3 (0 : Fin 1) n (0 : Fin 1))
      = rows (ix3 (0 : Fin 1) n (⟨p, hp⟩ : Fin 20)) := congrArg rows (col_emb p hp inbc n)
  have e2 : View.ld old (Rect.unit (s := S256x20x512) ![0, p, 0] ![256, 1, 512] inbs) (ix3 n (0 : Fin 1) w)
      = old (ix3 n (⟨p, hp⟩ : Fin 20) w) := congrArg old (slice_emb p hp inbs n w)
  exact congrArg₂ (· + ·) e2 (tileAt_congr (i 2).val tile w _ _ (congrArg BitVec.toNat e1))

/-- The read-out at an index given by its coordinates. -/
theorem readSpec_at (colsB : Vec Ideal S1x256x20 .i32) (acc : Vec Ideal S256x20x512 .f32) (n : Fin 256) (p : Fin 20) :
    readSpec colsB acc (ix3 (0 : Fin 1) n p)
      = acc (ix3 n p (⟨(colsB (ix3 (0 : Fin 1) n p)).toNat % 512, Nat.mod_lt _ (by decide)⟩ : Fin 512)) := rfl

/-- ONE COLUMN OF THE READ-OUT: the read-out's payload on column p of the column-index block and slice p of the running sum
    is, at every index of the column, the whole-block read-out at the index the column's rectangle places it at. -/
theorem read_piece (cols : Vec Ideal S1x256x20 .i32) (acc : Vec Ideal S256x20x512 .f32) (hc : ∀ z, (cols z).toNat < 512)
    (p : ℕ) (inbc) (inbs) (x : (Rect.unit (s := S1x256x20) ![0, 0, p] ![1, 256, 1] inbc).shape.Idx) :
    k0_pay3 (F := Ideal) (View.ld cols (Rect.unit (s := S1x256x20) ![0, 0, p] ![1, 256, 1] inbc))
        (View.ld acc (Rect.unit (s := S256x20x512) ![0, p, 0] ![256, 1, 512] inbs)) x
      = readSpec cols acc ((Rect.unit (s := S1x256x20) ![0, 0, p] ![1, 256, 1] inbc).emb x) := by
  have hp : p < 20 := by have h1 := inbs 1; (have e : (![0, p, 0] : Fin 3 → ℕ) 1 + (![256, 1, 512] : Fin 3 → ℕ) 1 = p + 1 := rfl); (have e' : S256x20x512.size 1 = 20 := rfl); rw [e, e'] at h1; omega
  obtain ⟨n, rfl⟩ : ∃ n : Fin 256, x = ix3 (0 : Fin 1) n (0 : Fin 1) := ⟨x 1, eq_ix3_col x⟩
  have e1 : View.ld cols (Rect.unit (s := S1x256x20) ![0, 0, p] ![1, 256, 1] inbc) (ix3 (0 : Fin 1) n (0 : Fin 1))
      = cols (ix3 (0 : Fin 1) n (⟨p, hp⟩ : Fin 20)) := congrArg cols (col_emb p hp inbc n)
  have hc1 : (View.ld cols (Rect.unit (s := S1x256x20) ![0, 0, p] ![1, 256, 1] inbc) (ix3 (0 : Fin 1) n (0 : Fin 1))).toNat < 512 := by
    rw [e1]; exact hc _
  refine (StepMath.readStep_apply _ _ n hc1).trans ?_
  rw [col_emb p hp inbc n, readSpec_at]
  refine (congrArg acc (slice_emb p hp inbs n _)).trans (congrArg acc (congrArg (ix3 n (⟨p, hp⟩ : Fin 20)) (Fin.ext ?_)))
  show (View.ld cols (Rect.unit (s := S1x256x20) ![0, 0, p] ![1, 256, 1] inbc) (ix3 (0 : Fin 1) n (0 : Fin 1))).toNat
      = (cols (ix3 (0 : Fin 1) n (⟨p, hp⟩ : Fin 20))).toNat % 512
  rw [e1, Nat.mod_eq_of_lt (hc _)]

/-! ## Pieces that lie over other pieces -/

/-- The canon of pieces the FIRST of which all agree with one function `G` of the buffer's index is `G` at every index one of
    those first pieces covers, whatever the pieces under them are. -/
theorem canon_apply_of_front {Val : EltTy → Type} [∀ e, Nonempty (Val e)] {S : Shape} {e : EltTy} (G : S.Idx → Val e) :
    ∀ (L₁ L₂ : List (View.Piece Val S e)) (_ : ∀ p ∈ L₁, ∀ x : p.1.shape.Idx, p.2 x = G (p.1.emb x)) (y : S.Idx)
      (_ : ∃ p ∈ L₁, y ∈ p.1.set), View.canon (L₁ ++ L₂) y = G y
  | [], _, _, _, hy => by obtain ⟨p, hp, _⟩ := hy; exact absurd hp List.not_mem_nil
  | p :: L₁, L₂, hL, y, hy => by
    by_cases hm : y ∈ p.1.set
    · obtain ⟨x, rfl⟩ := p.1.exists_idx_of_mem hm
      rw [List.cons_append, show p.1.idx x = p.1.emb x from rfl, View.canon_cons_emb]
      exact hL p List.mem_cons_self x
    · rw [List.cons_append, View.canon_cons_of_not_mem _ _ hm]
      refine canon_apply_of_front G L₁ L₂ (fun q hq => hL q (List.mem_cons_of_mem _ hq)) y ?_
      obtain ⟨q, hq, hyq⟩ := hy
      rcases List.mem_cons.mp hq with rfl | hq'
      · exact absurd hyq hm
      · exact ⟨q, hq', hyq⟩

/-- Slice q of the running sum, as a rectangle of the buffer, holds only indices whose middle coordinate is q. -/
theorem not_mem_slice (q : ℕ) (inb) (y : S256x20x512.Idx) (h : (y 1).val ≠ q) :
    y ∉ (Rect.unit (s := S256x20x512) ![0, q, 0] ![256, 1, 512] inb).set := by
  rw [Rect.mem_set_unit]
  intro hh
  have h1 := hh 1
  have e1 : (![0, q, 0] : Fin 3 → ℕ) 1 = q := rfl
  have e2 : (![256, 1, 512] : Fin 3 → ℕ) 1 = 1 := rfl
  rw [e1, e2] at h1
  omega

/-- The pieces `L` leave zeros on the slices from `q` on. -/
def ZeroFrom (q : ℕ) (L : List (View.Piece (Elt Ideal) S256x20x512 .f32)) : Prop :=
  ∀ y : S256x20x512.Idx, q ≤ (y 1).val → View.canon L y = 0

/-- A store into slice q over pieces that leave zeros from q on leaves zeros from q + 1 on. -/
theorem zeroFrom_cons (q : ℕ) (inb) (w : (Rect.unit (s := S256x20x512) ![0, q, 0] ![256, 1, 512] inb).shape.Idx → Elt Ideal .f32)
    (L : List (View.Piece (Elt Ideal) S256x20x512 .f32)) (h : ZeroFrom q L) :
    ZeroFrom (q + 1) ((⟨Rect.unit (s := S256x20x512) ![0, q, 0] ![256, 1, 512] inb, w⟩ : View.Piece (Elt Ideal) S256x20x512 .f32) :: L) :=
  fun y hy => by
    have hn : y ∉ (Rect.unit (s := S256x20x512) ![0, q, 0] ![256, 1, 512] inb).set := not_mem_slice q inb y (by omega)
    exact (View.canon_cons_of_not_mem (⟨Rect.unit (s := S256x20x512) ![0, q, 0] ![256, 1, 512] inb, w⟩ : View.Piece (Elt Ideal) S256x20x512 .f32) L hn).trans
      (h y (by omega))

/-- A load of slice q after such pieces reads zeros. -/
theorem readCov_zeroFrom {sg : RefSig} {κ : Kind} {sp : Space} (v : View sg κ sp S256x20x512 .f32) (q : ℕ) (inb)
    (L : List (View.Piece (Elt Ideal) S256x20x512 .f32)) (h : ZeroFrom q L) :
    v.readCov L (Rect.unit (s := S256x20x512) ![0, q, 0] ![256, 1, 512] inb).toLoadRect
      = View.ld zeroAcc (Rect.unit (s := S256x20x512) ![0, q, 0] ![256, 1, 512] inb) := by
  rw [View.readCov_eq_canon']
  funext j
  exact h _ (by show q ≤ q + 1 * (j 1).val; omega)

theorem hz3 : (![0, 0, 0] : Fin 3 → Nat) = fun _ => 0 := funext fun a => by fin_cases a <;> rfl

section
variable (c : Dev nD) (i : grid0.Coords) (arg3 : Memref sig .tc .vmem S1x2048x512 .bf16) (harg3 : arg3.IsWhole) (arg4 : Memref sig .tc .vmem S1x256x20 .i32) (harg4 : arg4.IsWhole) (arg5 : Memref sig .tc .vmem S1x256x20 .i32) (harg5 : arg5.IsWhole) (arg6 : Memref sig .tc .vmem S1x256x20 .f32) (harg6 : arg6.IsWhole) (arg7 : Memref sig .tc .vmem S256x20x512 .f32) (harg7 : arg7.IsWhole)

/-- A group's first point: the running sum is zeroed, and each of its twenty slices is then one accumulate step over the
    zeros. The zeroing store lies under the twenty slice stores; a slice's load, made after the stores into the slices before
    it, reads the zeros. -/
theorem stepA (hc0 : cond0_0 i) (hc1 : ¬cond0_1 i) (x0 : Vec Ideal S1x2048x512 .bf16) (x1 : Vec Ideal S1x256x20 .i32) (x2 : Vec Ideal S1x256x20 .i32)
    (hrows : ∀ z, (x1 z).toNat < 10240) :
    sout0_A (F := Ideal) c i arg3 harg3 arg4 harg4 arg5 harg5 arg6 harg6 arg7 harg7 hc0 hc1 x0 x1 x2 = accSpec x0 x1 (i 2).val zeroAcc := by
  -- the zeros under the stores: after the stores into slices 0 … q - 1, slices q … 19 still hold them
  have z1 : ZeroFrom 0 (kernelRun0_A.sl.HS0_1 (F := Ideal)) := fun y _ => by
    unfold kernelRun0_A.sl.HS0_1
    rw [View.canon_unit_zero hz3]
    exact StepMath.zeros_apply y
  have z2 : ZeroFrom 1 (kernelRun0_A.sl.HS0_2 c i arg3 harg3 arg4 harg4 arg7 x0 x1) := zeroFrom_cons 0 _ _ _ z1
  have z3 : ZeroFrom 2 (kernelRun0_A.sl.HS0_3 c i arg3 harg3 arg4 harg4 arg7 x0 x1) := zeroFrom_cons 1 _ _ _ z2
  have z4 : ZeroFrom 3 (kernelRun0_A.sl.HS0_4 c i arg3 harg3 arg4 harg4 arg7 x0 x1) := zeroFrom_cons 2 _ _ _ z3
  have z5 : ZeroFrom 4 (kernelRun0_A.sl.HS0_5 c i arg3 harg3 arg4 harg4 arg7 x0 x1) := zeroFrom_cons 3 _ _ _ z4
  have z6 : ZeroFrom 5 (kernelRun0_A.sl.HS0_6 c i arg3 harg3 arg4 harg4 arg7 x0 x1) := zeroFrom_cons 4 _ _ _ z5
  have z7 : ZeroFrom 6 (kernelRun0_A.sl.HS0_7 c i arg3 harg3 arg4 harg4 arg7 x0 x1) := zeroFrom_cons 5 _ _ _ z6
  have z8 : ZeroFrom 7 (kernelRun0_A.sl.HS0_8 c i arg3 harg3 arg4 harg4 arg7 x0 x1) := zeroFrom_cons 6 _ _ _ z7
  have z9 : ZeroFrom 8 (kernelRun0_A.sl.HS0_9 c i arg3 harg3 arg4 harg4 arg7 x0 x1) := zeroFrom_cons 7 _ _ _ z8
  have z10 : ZeroFrom 9 (kernelRun0_A.sl.HS0_10 c i arg3 harg3 arg4 harg4 arg7 x0 x1) := zeroFrom_cons 8 _ _ _ z9
  have z11 : ZeroFrom 10 (kernelRun0_A.sl.HS0_11 c i arg3 harg3 arg4 harg4 arg7 x0 x1) := zeroFrom_cons 9 _ _ _ z10
  have z12 : ZeroFrom 11 (kernelRun0_A.sl.HS0_12 c i arg3 harg3 arg4 harg4 arg7 x0 x1) := zeroFrom_cons 10 _ _ _ z11
  have z13 : ZeroFrom 12 (kernelRun0_A.sl.HS0_13 c i arg3 harg3 arg4 harg4 arg7 x0 x1) := zeroFrom_cons 11 _ _ _ z12
  have z14 : ZeroFrom 13 (kernelRun0_A.sl.HS0_14 c i arg3 harg3 arg4 harg4 arg7 x0 x1) := zeroFrom_cons 12 _ _ _ z13
  have z15 : ZeroFrom 14 (kernelRun0_A.sl.HS0_15 c i arg3 harg3 arg4 harg4 arg7 x0 x1) := zeroFrom_cons 13 _ _ _ z14
  have z16 : ZeroFrom 15 (kernelRun0_A.sl.HS0_16 c i arg3 harg3 arg4 harg4 arg7 x0 x1) := zeroFrom_cons 14 _ _ _ z15
  have z17 : ZeroFrom 16 (kernelRun0_A.sl.HS0_17 c i arg3 harg3 arg4 harg4 arg7 x0 x1) := zeroFrom_cons 15 _ _ _ z16
  have z18 : ZeroFrom 17 (kernelRun0_A.sl.HS0_18 c i arg3 harg3 arg4 harg4 arg7 x0 x1) := zeroFrom_cons 16 _ _ _ z17
  have z19 : ZeroFrom 18 (kernelRun0_A.sl.HS0_19 c i arg3 harg3 arg4 harg4 arg7 x0 x1) := zeroFrom_cons 17 _ _ _ z18
  have z20 : ZeroFrom 19 (kernelRun0_A.sl.HS0_20 c i arg3 harg3 arg4 harg4 arg7 x0 x1) := zeroFrom_cons 18 _ _ _ z19
  unfold sout0_A
  rw [View.read_writes_eq_canon _ _ _ (scover0_A c i arg3 harg3 arg4 harg4 arg5 harg5 arg6 harg6 arg7 harg7 hc0 hc1 x0 x1 x2)]
  funext y
  unfold kernelRun0_A; dsimp only
  -- the list's spine: twenty slice stores over the zeroing store
  simp only [kernelRun0_A.sl.HS0_20, kernelRun0_A.sl.HS0_19, kernelRun0_A.sl.HS0_18, kernelRun0_A.sl.HS0_17, kernelRun0_A.sl.HS0_16,
    kernelRun0_A.sl.HS0_15, kernelRun0_A.sl.HS0_14, kernelRun0_A.sl.HS0_13, kernelRun0_A.sl.HS0_12, kernelRun0_A.sl.HS0_11,
    kernelRun0_A.sl.HS0_10, kernelRun0_A.sl.HS0_9, kernelRun0_A.sl.HS0_8, kernelRun0_A.sl.HS0_7, kernelRun0_A.sl.HS0_6,
    kernelRun0_A.sl.HS0_5, kernelRun0_A.sl.HS0_4, kernelRun0_A.sl.HS0_3, kernelRun0_A.sl.HS0_2, kernelRun0_A.sl.HS0_1]
  refine canon_apply_of_front (accSpec x0 x1 (i 2).val zeroAcc) [_, _, _, _, _, _, _, _, _, _, _, _, _, _, _, _, _, _, _, _] [_] ?_ y
    (View.cover_of_tiledL (s := S256x20x512) _ ![256, 1, 512] (by sl_kernel_rfl) y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl
  all_goals (
    intro x
    (try dsimp only)
    simp only [kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.v18, kernelRun0_A.sl.v33, kernelRun0_A.sl.v48, kernelRun0_A.sl.v63,
      kernelRun0_A.sl.v78, kernelRun0_A.sl.v93, kernelRun0_A.sl.v108, kernelRun0_A.sl.v123, kernelRun0_A.sl.v138, kernelRun0_A.sl.v153,
      kernelRun0_A.sl.v168, kernelRun0_A.sl.v183, kernelRun0_A.sl.v198, kernelRun0_A.sl.v213, kernelRun0_A.sl.v228, kernelRun0_A.sl.v243,
      kernelRun0_A.sl.v258, kernelRun0_A.sl.v273, kernelRun0_A.sl.v288, kernelRun0_A.sl.v303]
    (try dsimp only)
    simp only [readCov_zeroFrom _ _ _ _ z1, readCov_zeroFrom _ _ _ _ z2, readCov_zeroFrom _ _ _ _ z3, readCov_zeroFrom _ _ _ _ z4,
      readCov_zeroFrom _ _ _ _ z5, readCov_zeroFrom _ _ _ _ z6, readCov_zeroFrom _ _ _ _ z7, readCov_zeroFrom _ _ _ _ z8,
      readCov_zeroFrom _ _ _ _ z9, readCov_zeroFrom _ _ _ _ z10, readCov_zeroFrom _ _ _ _ z11, readCov_zeroFrom _ _ _ _ z12,
      readCov_zeroFrom _ _ _ _ z13, readCov_zeroFrom _ _ _ _ z14, readCov_zeroFrom _ _ _ _ z15, readCov_zeroFrom _ _ _ _ z16,
      readCov_zeroFrom _ _ _ _ z17, readCov_zeroFrom _ _ _ _ z18, readCov_zeroFrom _ _ _ _ z19, readCov_zeroFrom _ _ _ _ z20,
      View.readAt_eq_ld, harg3.read_unread, harg4.read_unread, View.ld_unit_zero (S := S1x2048x512) hz3]
    exact acc_piece i x0 x1 zeroAcc hrows _ _ _ x)

/-- A middle point: each of the running sum's twenty slices is one accumulate step over what the point before left there. -/
theorem stepB (hc0 : ¬cond0_0 i) (hc1 : ¬cond0_1 i) (x0 : Vec Ideal S1x2048x512 .bf16) (x1 : Vec Ideal S1x256x20 .i32) (x2 : Vec Ideal S1x256x20 .i32) (xs0 : Vec Ideal S256x20x512 .f32)
    (hrows : ∀ z, (x1 z).toNat < 10240) :
    sout0_B (F := Ideal) c i arg3 harg3 arg4 harg4 arg5 harg5 arg6 harg6 arg7 harg7 hc0 hc1 x0 x1 x2 xs0 = accSpec x0 x1 (i 2).val xs0 := by
  unfold sout0_B
  rw [View.read_writes_eq_canon _ _ _ (scover0_B c i arg3 harg3 arg4 harg4 arg5 harg5 arg6 harg6 arg7 harg7 hc0 hc1 x0 x1 x2 xs0)]
  funext y
  refine View.canon_apply_of_pieces (accSpec x0 x1 (i 2).val xs0) _ ?_ y (scover0_B c i arg3 harg3 arg4 harg4 arg5 harg5 arg6 harg6 arg7 harg7 hc0 hc1 x0 x1 x2 xs0 y)
  unfold kernelRun0_B; dsimp only
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl
  all_goals (
    intro x
    (try dsimp only)
    sl_unfold_words
    simp only [View.readAt_eq_ld, harg3.read_unread, harg4.read_unread, harg7.read_unread, View.ld_unit_zero (S := S1x2048x512) hz3]
    exact acc_piece i x0 x1 xs0 hrows _ _ _ x)

/-- A group's last point, the running sum: as at a middle point. -/
theorem stepC_sum (hc0 : ¬cond0_0 i) (hc1 : cond0_1 i) (x0 : Vec Ideal S1x2048x512 .bf16) (x1 : Vec Ideal S1x256x20 .i32) (x2 : Vec Ideal S1x256x20 .i32) (xs0 : Vec Ideal S256x20x512 .f32)
    (hrows : ∀ z, (x1 z).toNat < 10240) :
    sout0_C (F := Ideal) c i arg3 harg3 arg4 harg4 arg5 harg5 arg6 harg6 arg7 harg7 hc0 hc1 x0 x1 x2 xs0 = accSpec x0 x1 (i 2).val xs0 := by
  unfold sout0_C
  rw [View.read_writes_eq_canon _ _ _ (scover0_C c i arg3 harg3 arg4 harg4 arg5 harg5 arg6 harg6 arg7 harg7 hc0 hc1 x0 x1 x2 xs0)]
  funext y
  refine View.canon_apply_of_pieces (accSpec x0 x1 (i 2).val xs0) _ ?_ y (scover0_C c i arg3 harg3 arg4 harg4 arg5 harg5 arg6 harg6 arg7 harg7 hc0 hc1 x0 x1 x2 xs0 y)
  unfold kernelRun0_C; dsimp only
  unfold kernelRun0_C.sl.HS0_20
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl
  all_goals (
    intro x
    (try dsimp only)
    sl_unfold_words
    simp only [View.readAt_eq_ld, harg3.read_unread, harg4.read_unread, harg7.read_unread, View.ld_unit_zero (S := S1x2048x512) hz3]
    exact acc_piece i x0 x1 xs0 hrows _ _ _ x)

/-- A group's last point, the output block: each of its twenty columns is the read-out of the slice of the running sum that
    the twenty slice stores just left, which is the accumulate step's. -/
theorem stepC_out (hc0 : ¬cond0_0 i) (hc1 : cond0_1 i) (x0 : Vec Ideal S1x2048x512 .bf16) (x1 : Vec Ideal S1x256x20 .i32) (x2 : Vec Ideal S1x256x20 .i32) (xs0 : Vec Ideal S256x20x512 .f32)
    (hrows : ∀ z, (x1 z).toNat < 10240) (hcols : ∀ z, (x2 z).toNat < 512) :
    out0_C_3 (F := Ideal) c i arg3 harg3 arg4 harg4 arg5 harg5 arg6 harg6 arg7 harg7 hc0 hc1 x0 x1 x2 xs0 = readSpec x2 (accSpec x0 x1 (i 2).val xs0) := by
  -- what the slice stores left, read back through any load
  have hcov : ∀ y, ∃ pc ∈ kernelRun0_C.sl.HS0_20 c i arg3 harg3 arg4 harg4 arg7 harg7 x0 x1 xs0, y ∈ pc.1.set :=
    scover0_C c i arg3 harg3 arg4 harg4 arg5 harg5 arg6 harg6 arg7 harg7 hc0 hc1 x0 x1 x2 xs0
  have hS : View.canon (kernelRun0_C.sl.HS0_20 c i arg3 harg3 arg4 harg4 arg7 harg7 x0 x1 xs0) = accSpec x0 x1 (i 2).val xs0 := by
    have h := stepC_sum c i arg3 harg3 arg4 harg4 arg5 harg5 arg6 harg6 arg7 harg7 hc0 hc1 x0 x1 x2 xs0 hrows
    unfold sout0_C at h
    rw [View.read_writes_eq_canon _ _ _ (scover0_C c i arg3 harg3 arg4 harg4 arg5 harg5 arg6 harg6 arg7 harg7 hc0 hc1 x0 x1 x2 xs0)] at h
    exact h
  unfold out0_C_3
  rw [View.read_writes_eq_canon _ _ _ (cover0_C_3 c i arg3 harg3 arg4 harg4 arg5 harg5 arg6 harg6 arg7 harg7 hc0 hc1 x0 x1 x2 xs0)]
  funext y
  refine View.canon_apply_of_pieces (readSpec x2 (accSpec x0 x1 (i 2).val xs0)) _ ?_ y (cover0_C_3 c i arg3 harg3 arg4 harg4 arg5 harg5 arg6 harg6 arg7 harg7 hc0 hc1 x0 x1 x2 xs0 y)
  unfold kernelRun0_C; dsimp only
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl
  all_goals (
    intro x
    (try dsimp only)
    simp only [kernelRun0_C.sl.r_8, kernelRun0_C.sl.r_9, kernelRun0_C.sl.r_10, kernelRun0_C.sl.r_11, kernelRun0_C.sl.r_12, kernelRun0_C.sl.r_13,
      kernelRun0_C.sl.r_14, kernelRun0_C.sl.r_15, kernelRun0_C.sl.v312, kernelRun0_C.sl.v320, kernelRun0_C.sl.v335, kernelRun0_C.sl.v350,
      kernelRun0_C.sl.v365, kernelRun0_C.sl.v380, kernelRun0_C.sl.v395, kernelRun0_C.sl.v410, kernelRun0_C.sl.v425, kernelRun0_C.sl.v440,
      kernelRun0_C.sl.v455, kernelRun0_C.sl.v470, kernelRun0_C.sl.v485, kernelRun0_C.sl.v500, kernelRun0_C.sl.v515, kernelRun0_C.sl.v530,
      kernelRun0_C.sl.v545, kernelRun0_C.sl.v560, kernelRun0_C.sl.v575, kernelRun0_C.sl.v590, kernelRun0_C.sl.v605]
    (try dsimp only)
    simp only [View.readCov_eq_canon_ld _ _ _ hcov, hS, View.readAt_eq_ld, harg5.read_unread]
    exact read_piece x2 (accSpec x0 x1 (i 2).val xs0) hcols _ _ _ x)

end

end Cert.KernelIdeal.Value0

end
-- ==== Proof.KIInvariant.lean ====
/-
  The gather region along its grid. Point t = (b*4 + q)*5 + k works on batch b = t / 20, row group q = t / 5 % 4 and
  table tile k = t % 5. Within a group the running sum after tile k holds, at (n, p, w), the table's entry
  (b, row, w) if row = rows[b, q*256 + n, p] lies below (k+1)*2048 and zero otherwise; after the last tile that is the
  entry itself (every row index is below 5*2048), and the output block at (n, p) is the table at (b, row, col).
-/
import proofs.«402861_j32238024523892_2_alg».proof.Proof.KISteps

set_option maxRecDepth 16384

noncomputable section

namespace Cert.KernelIdeal.Value0

open Idealize.ShloMosaic Idealize.ShloMosaic.TcCoe Idealize.ShloMosaic.ValueIdx Idealize.SL.Sem
open Cert.KernelIdeal Cert.KernelIdeal.Gen Cert.KernelIdeal.Fr

/-- The index of the gathered array that entry (n, p) of grid point t's output block is. -/
theorem outIdx_lt (t : Fin cfg0.N) (z : S1x256x20.Idx) : t.val / 20 < 16 ∧ (t.val / 5 % 4) * 256 + (z 1).val < 1024 ∧ (z 2).val < 20 := by
  have hN : t.val < 320 := lt_of_lt_of_eq t.isLt (show cfg0.N = 320 from N_0)
  have h1 : (z 1).val < 256 := (z 1).isLt
  have h2 : (z 2).val < 20 := (z 2).isLt
  refine ⟨by omega, by omega, h2⟩
def outIdx (t : Fin cfg0.N) (z : S1x256x20.Idx) : S16x1024x20.Idx :=
  ix3 (⟨t.val / 20, (outIdx_lt t z).1⟩ : Fin 16) (⟨(t.val / 5 % 4) * 256 + (z 1).val, (outIdx_lt t z).2.1⟩ : Fin 1024) (⟨(z 2).val, (outIdx_lt t z).2.2⟩ : Fin 20)

/-! ## The grid's index maps, and the blocks read at an index -/

/-- The table window's block index at point t: batch t / 20, tile t % 5. -/
theorem idx0_facts : ∀ t : Fin cfg0.N, win0_0.index t (0 : Fin 3) = t.val / 20 ∧ win0_0.index t (1 : Fin 3) = t.val % 5 ∧ win0_0.index t (2 : Fin 3) = 0 :=
  (by decide +kernel : ∀ t : Fin grid0.N, win0_0.index t (0 : Fin 3) = t.val / 20 ∧ win0_0.index t (1 : Fin 3) = t.val % 5 ∧ win0_0.index t (2 : Fin 3) = 0)

/-- The row-index window's block index at point t: batch t / 20, row group t / 5 % 4. -/
theorem idx1_facts : ∀ t : Fin cfg0.N, win0_1.index t (0 : Fin 3) = t.val / 20 ∧ win0_1.index t (1 : Fin 3) = t.val / 5 % 4 ∧ win0_1.index t (2 : Fin 3) = 0 :=
  (by decide +kernel : ∀ t : Fin grid0.N, win0_1.index t (0 : Fin 3) = t.val / 20 ∧ win0_1.index t (1 : Fin 3) = t.val / 5 % 4 ∧ win0_1.index t (2 : Fin 3) = 0)

/-- The column-index window's block index at point t: the same. -/
theorem idx2_facts : ∀ t : Fin cfg0.N, win0_2.index t (0 : Fin 3) = t.val / 20 ∧ win0_2.index t (1 : Fin 3) = t.val / 5 % 4 ∧ win0_2.index t (2 : Fin 3) = 0 :=
  (by decide +kernel : ∀ t : Fin grid0.N, win0_2.index t (0 : Fin 3) = t.val / 20 ∧ win0_2.index t (1 : Fin 3) = t.val / 5 % 4 ∧ win0_2.index t (2 : Fin 3) = 0)

/-- The innermost grid coordinate of point t is the tile number t % 5. -/
theorem coord2 : ∀ t : Fin cfg0.N, ((grid0.coords t) 2).val = t.val % 5 :=
  (by decide +kernel : ∀ t : Fin grid0.N, ((grid0.coords t) 2).val = t.val % 5)

section
variable (V : (c : Dev nD) → (b : Ref sig .tc) → Buf (Elt Ideal) ((c : Thread nD τ).loc b)) (c : Dev nD)

/-- The table's block at point t is rows (t % 5) * 2048 … of batch t / 20. -/
theorem tile_apply (t : Fin cfg0.N) (x : S1x2048x512.Idx) (k : S16x10240x512.Idx)
    (hk0 : (k 0).val = t.val / 20) (hk1 : (k 1).val = (t.val % 5) * 2048 + (x 1).val) (hk2 : (k 2).val = (x 2).val) :
    (iblk0 V c 0 t : Vec Ideal S1x2048x512 .bf16) x = (V c main_v10 : S16x10240x512.Idx → EReal) k := by
  obtain ⟨e0, e1, e2⟩ := idx0_facts t
  unfold iblk0
  rw [View.read_apply]
  show V c main_v10 _ = V c main_v10 _
  congr 1
  funext a
  apply Fin.ext
  match a with
  | ⟨0, _⟩ => show win0_0.index t 0 * 1 + 1 * (x 0).val = (k 0).val; have h0 : (x 0).val < 1 := (x 0).isLt; rw [e0, hk0]; omega
  | ⟨1, _⟩ => show win0_0.index t 1 * 2048 + 1 * (x 1).val = (k 1).val; rw [e1, hk1]; omega
  | ⟨2, _⟩ => show win0_0.index t 2 * 512 + 1 * (x 2).val = (k 2).val; rw [e2, hk2]; omega

/-- The row-index block at point t, entry (n, p), is the row-index array at (t / 20, (t / 5 % 4) * 256 + n, p). -/
theorem rows_apply (t : Fin cfg0.N) (z : S1x256x20.Idx) :
    (iblk0 V c 1 t : Vec Ideal S1x256x20 .i32) z = (V c main_v8 : S16x1024x20.Idx → BitVec 32) (outIdx t z) := by
  obtain ⟨e0, e1, e2⟩ := idx1_facts t
  unfold iblk0
  rw [View.read_apply]
  show V c main_v8 _ = V c main_v8 _
  congr 1
  funext a
  apply Fin.ext
  match a with
  | ⟨0, _⟩ => show win0_1.index t 0 * 1 + 1 * (z 0).val = t.val / 20; have h0 : (z 0).val < 1 := (z 0).isLt; rw [e0]; omega
  | ⟨1, _⟩ => show win0_1.index t 1 * 256 + 1 * (z 1).val = (t.val / 5 % 4) * 256 + (z 1).val; rw [e1]; omega
  | ⟨2, _⟩ => show win0_1.index t 2 * 20 + 1 * (z 2).val = (z 2).val; rw [e2]; omega

/-- The column-index block at point t, likewise. -/
theorem cols_apply (t : Fin cfg0.N) (z : S1x256x20.Idx) :
    (iblk0 V c 2 t : Vec Ideal S1x256x20 .i32) z = (V c main_v5 : S16x1024x20.Idx → BitVec 32) (outIdx t z) := by
  obtain ⟨e0, e1, e2⟩ := idx2_facts t
  unfold iblk0
  rw [View.read_apply]
  show V c main_v5 _ = V c main_v5 _
  congr 1
  funext a
  apply Fin.ext
  match a with
  | ⟨0, _⟩ => show win0_2.index t 0 * 1 + 1 * (z 0).val = t.val / 20; have h0 : (z 0).val < 1 := (z 0).isLt; rw [e0]; omega
  | ⟨1, _⟩ => show win0_2.index t 1 * 256 + 1 * (z 1).val = (t.val / 5 % 4) * 256 + (z 1).val; rw [e1]; omega
  | ⟨2, _⟩ => show win0_2.index t 2 * 20 + 1 * (z 2).val = (z 2).val; rw [e2]; omega

end

/-! ## The running sum in closed form -/

/-- The table at natural-number coordinates, each taken modulo its extent so that the function is total. -/
def tn (tbl : S16x10240x512.Idx → EReal) (b r w : ℕ) : EReal :=
  tbl (ix3 (⟨b % 16, Nat.mod_lt _ (by decide)⟩ : Fin 16) (⟨r % 10240, Nat.mod_lt _ (by decide)⟩ : Fin 10240) (⟨w % 512, Nat.mod_lt _ (by decide)⟩ : Fin 512))

/-- The row index that entry (n, p, w) of the running sum looks up at point t. -/
def rowN (rows : S16x1024x20.Idx → BitVec 32) (t : Fin cfg0.N) (y : S256x20x512.Idx) : ℕ :=
  (rows (outIdx t (ix3 (0 : Fin 1) (y 0) (y 1)))).toNat

/-- The running sum once the first m tiles of point t's group are in: the table's entry where the row index lies in
    those tiles, zero elsewhere. -/
def partialSum (tbl : S16x10240x512.Idx → EReal) (rows : S16x1024x20.Idx → BitVec 32) (t : Fin cfg0.N) (m : ℕ) : Vec Ideal S256x20x512 .f32 :=
  fun y => if rowN rows t y < m * 2048 then tn tbl (t.val / 20) (rowN rows t y) (y 2).val else 0

/-- One accumulate step read at an entry, the row index named. -/
theorem accSpec_apply (tile : Vec Ideal S1x2048x512 .bf16) (rowsB : Vec Ideal S1x256x20 .i32) (k : ℕ) (old : Vec Ideal S256x20x512 .f32)
    (y : S256x20x512.Idx) (r : ℕ) (hrow : (rowsB (ix3 (0 : Fin 1) (y 0) (y 1))).toNat = r) :
    accSpec tile rowsB k old y = old y + (if h : k * 2048 ≤ r ∧ r < k * 2048 + 2048
      then tile (ix3 (0 : Fin 1) (⟨r - k * 2048, by omega⟩ : Fin 2048) (⟨(y 2).val, (y 2).isLt⟩ : Fin 512)) else 0) := by
  subst hrow; rfl

/-- Nothing is in before the first tile. -/
theorem partialSum_zero (tbl : S16x10240x512.Idx → EReal) (rows : S16x1024x20.Idx → BitVec 32) (t : Fin cfg0.N) :
    zeroAcc = partialSum tbl rows t 0 := by
  funext y
  unfold partialSum zeroAcc
  rw [if_neg (by omega)]

/-- Adding tile k onto the sum of the first k tiles gives the sum of the first k + 1: the row index lies in at most one
    tile, so exactly one of the two summands is the table's entry, or both are zero. -/
theorem acc_step (tbl : S16x10240x512.Idx → EReal) (rows : S16x1024x20.Idx → BitVec 32) (t : Fin cfg0.N) (k : ℕ)
    (tile : Vec Ideal S1x2048x512 .bf16) (rowsB : Vec Ideal S1x256x20 .i32)
    (htile : ∀ x : S1x2048x512.Idx, tile x = tn tbl (t.val / 20) (k * 2048 + (x 1).val) (x 2).val)
    (hrowsB : ∀ z : S1x256x20.Idx, rowsB z = rows (outIdx t z)) :
    accSpec tile rowsB k (partialSum tbl rows t k) = partialSum tbl rows t (k + 1) := by
  funext y
  rw [accSpec_apply tile rowsB k _ y (rowN rows t y) (by rw [hrowsB]; rfl)]
  unfold partialSum
  by_cases hlo : rowN rows t y < k * 2048
  · rw [if_pos hlo, dif_neg (by omega), if_pos (by omega), add_zero]
  · by_cases hhi : rowN rows t y < (k + 1) * 2048
    · rw [if_neg hlo, dif_pos ⟨by omega, by omega⟩, if_pos hhi, zero_add, htile]
      show tn tbl (t.val / 20) (k * 2048 + (rowN rows t y - k * 2048)) (y 2).val = _
      rw [Nat.add_sub_cancel' (by omega)]
    · rw [if_neg hlo, dif_neg (by omega), if_neg hhi, add_zero]

/-- The table's entry at natural-number coordinates that are in range. -/
theorem tn_eq (tbl : S16x10240x512.Idx → EReal) (b r w : ℕ) (hb : b < 16) (hr : r < 10240) (hw : w < 512) :
    tn tbl b r w = tbl (ix3 (⟨b, hb⟩ : Fin 16) (⟨r, hr⟩ : Fin 10240) (⟨w, hw⟩ : Fin 512)) := by
  simp only [tn, Nat.mod_eq_of_lt hb, Nat.mod_eq_of_lt hr, Nat.mod_eq_of_lt hw]

/-- A point that is not its group's first looks up the same entries of the index arrays as the point before it. -/
theorem outIdx_pred (t : Fin cfg0.N) (h0 : ¬t.val % 5 = 0) (hlt : t.val - 1 < cfg0.N) (z : S1x256x20.Idx) :
    outIdx ⟨t.val - 1, hlt⟩ z = outIdx t z := by
  unfold outIdx
  funext a
  apply Fin.ext
  match a with
  | ⟨0, _⟩ => show (t.val - 1) / 20 = t.val / 20; omega
  | ⟨1, _⟩ => show ((t.val - 1) / 5 % 4) * 256 + (z 1).val = (t.val / 5 % 4) * 256 + (z 1).val; omega
  | ⟨2, _⟩ => rfl

/-- What the point before left is the sum of the tiles before this point's, in this point's own terms. -/
theorem partialSum_pred (tbl : S16x10240x512.Idx → EReal) (rows : S16x1024x20.Idx → BitVec 32) (t : Fin cfg0.N)
    (h0 : ¬t.val % 5 = 0) (hlt : t.val - 1 < cfg0.N) :
    partialSum tbl rows ⟨t.val - 1, hlt⟩ ((t.val - 1) % 5 + 1) = partialSum tbl rows t (t.val % 5) := by
  funext y
  unfold partialSum rowN
  rw [outIdx_pred t h0 hlt]
  show (if _ < ((t.val - 1) % 5 + 1) * 2048 then tn tbl ((t.val - 1) / 20) _ _ else 0) = _
  rw [show (t.val - 1) % 5 + 1 = t.val % 5 from by omega, show (t.val - 1) / 20 = t.val / 20 from by omega]

/-- The read-out of the full sum: at a group's last point every row index lies in the tiles summed, so entry (n, p) is
    the table at (batch, row index, column index). -/
theorem readSpec_full (tbl : S16x10240x512.Idx → EReal) (rows : S16x1024x20.Idx → BitVec 32) (t : Fin cfg0.N) (h4 : t.val % 5 = 4)
    (colsB : Vec Ideal S1x256x20 .i32) (z : S1x256x20.Idx) (hrz : (rows (outIdx t z)).toNat < 10240) (hcz : (colsB z).toNat < 512) :
    readSpec colsB (partialSum tbl rows t (t.val % 5 + 1)) z
      = tbl (ix3 (⟨t.val / 20, (outIdx_lt t z).1⟩ : Fin 16) (⟨(rows (outIdx t z)).toNat, hrz⟩ : Fin 10240) (⟨(colsB z).toNat, hcz⟩ : Fin 512)) := by
  unfold readSpec partialSum
  show (if (rows (outIdx t z)).toNat < (t.val % 5 + 1) * 2048 then tn tbl (t.val / 20) (rows (outIdx t z)).toNat ((colsB z).toNat % 512) else 0) = _
  rw [if_pos (by omega), tn_eq tbl _ _ _ (outIdx_lt t z).1 hrz (Nat.mod_lt _ (by decide))]
  congr 1
  funext a
  match a with
  | ⟨0, _⟩ => rfl
  | ⟨1, _⟩ => rfl
  | ⟨2, _⟩ => exact Fin.ext (Nat.mod_eq_of_lt hcz)

/-! ## The invariant along the grid -/

section
variable (V : (c : Dev nD) → (b : Ref sig .tc) → Buf (Elt Ideal) ((c : Thread nD τ).loc b)) (c : Dev nD)
  (tbl : S16x10240x512.Idx → EReal) (rows cols : S16x1024x20.Idx → BitVec 32)

/-- The table's block at point t in closed form. -/
theorem tile_tn (htbl : V c main_v10 = tbl) (t : Fin cfg0.N) (x : S1x2048x512.Idx) :
    (iblk0 V c 0 t : Vec Ideal S1x2048x512 .bf16) x = tn tbl (t.val / 20) ((t.val % 5) * 2048 + (x 1).val) (x 2).val := by
  have hN : t.val < 320 := lt_of_lt_of_eq t.isLt (show cfg0.N = 320 from N_0)
  have h1 : (x 1).val < 2048 := (x 1).isLt
  have h2 : (x 2).val < 512 := (x 2).isLt
  subst htbl
  unfold tn
  refine tile_apply V c t x _ ?_ ?_ ?_
  · show (t.val / 20) % 16 = t.val / 20; omega
  · show ((t.val % 5) * 2048 + (x 1).val) % 10240 = (t.val % 5) * 2048 + (x 1).val; omega
  · show (x 2).val % 512 = (x 2).val; omega

/-- After every point the running sum's buffer holds the sum of its group's tiles up to and including its own. -/
theorem sum_inv (htbl : V c main_v10 = tbl) (hrows : V c main_v8 = rows) (hr : ∀ j, (rows j).toNat < 10240) :
    ∀ (n : ℕ) (t : Fin cfg0.N), t.val = n → (outsAt0 (F := Ideal) V c t.val t.isLt).2 = partialSum tbl rows t (t.val % 5 + 1) := by
  intro n
  induction n using Nat.strong_induction_on with
  | _ n ih =>
    intro t htn
    have hrB : ∀ z : S1x256x20.Idx, ((iblk0 V c 1 t : Vec Ideal S1x256x20 .i32) z).toNat < 10240 :=
      fun z => by rw [rows_apply V c t z, hrows]; exact hr _
    have hstep := acc_step tbl rows t (t.val % 5) (iblk0 V c 0 t) (iblk0 V c 1 t) (tile_tn V c tbl htbl t)
      (fun z => by rw [rows_apply V c t z, hrows])
    have hk : ((grid0.coords t) 2).val = t.val % 5 := coord2 t
    by_cases h0 : t.val % 5 = 0
    · have h1 : ¬t.val % 5 = 4 := by omega
      rw [outsAt0_A V c t h0 h1]; dsimp only
      refine (stepA c (grid0.coords t) (ms0_0 t) (hs0_0 t) (ms0_1 t) (hs0_1 t) (ms0_2 t) (hs0_2 t) (ms0_3 t) (hs0_3 t) scM0 (Memref.isWhole_whole _)
        ((hcond0_0 t).mpr h0) (fun h => h1 ((hcond0_1 t).mp h)) (iblk0 V c 0 t) (iblk0 V c 1 t) (iblk0 V c 2 t) hrB).trans ?_
      rw [hk, partialSum_zero tbl rows t, show partialSum tbl rows t 0 = partialSum tbl rows t (t.val % 5) from by rw [h0]]
      exact hstep
    · have hlt : t.val - 1 < cfg0.N := Nat.lt_of_le_of_lt (Nat.sub_le _ _) t.isLt
      have hprev : (outsAt0 (F := Ideal) V c (t.val - 1) hlt).2 = partialSum tbl rows t (t.val % 5) :=
        (ih (t.val - 1) (by omega) ⟨t.val - 1, hlt⟩ rfl).trans (partialSum_pred tbl rows t h0 hlt)
      by_cases h1 : t.val % 5 = 4
      · rw [outsAt0_C V c t h0 h1]; dsimp only
        refine (stepC_sum c (grid0.coords t) (ms0_0 t) (hs0_0 t) (ms0_1 t) (hs0_1 t) (ms0_2 t) (hs0_2 t) (ms0_3 t) (hs0_3 t) scM0 (Memref.isWhole_whole _)
          (fun h => h0 ((hcond0_0 t).mp h)) ((hcond0_1 t).mpr h1) (iblk0 V c 0 t) (iblk0 V c 1 t) (iblk0 V c 2 t) (outsAt0 (F := Ideal) V c (t.val - 1) hlt).2 hrB).trans ?_
        rw [hk, hprev]
        exact hstep
      · rw [outsAt0_B V c t h0 h1]; dsimp only
        refine (stepB c (grid0.coords t) (ms0_0 t) (hs0_0 t) (ms0_1 t) (hs0_1 t) (ms0_2 t) (hs0_2 t) (ms0_3 t) (hs0_3 t) scM0 (Memref.isWhole_whole _)
          (fun h => h0 ((hcond0_0 t).mp h)) (fun h => h1 ((hcond0_1 t).mp h)) (iblk0 V c 0 t) (iblk0 V c 1 t) (iblk0 V c 2 t) (outsAt0 (F := Ideal) V c (t.val - 1) hlt).2 hrB).trans ?_
        rw [hk, hprev]
        exact hstep

end

/-- At a group's last point the output block's buffer holds, entry by entry, the table at (batch, row index, column index). -/
theorem out_at_last (V : (c : Dev nD) → (b : Ref sig .tc) → Buf (Elt Ideal) ((c : Thread nD τ).loc b)) (c : Dev nD)
    (tbl : S16x10240x512.Idx → EReal) (rows cols : S16x1024x20.Idx → BitVec 32)
    (htbl : V c main_v10 = tbl) (hrows : V c main_v8 = rows) (hcols : V c main_v5 = cols)
    (hr : ∀ j, (rows j).toNat < 10240) (hc : ∀ j, (cols j).toNat < 512)
    (t : Fin cfg0.N) (h4 : t.val % 5 = 4) :
    (outsAt0 (F := Ideal) V c t.val t.isLt).1 = fun z : S1x256x20.Idx =>
      tbl (ix3 (⟨t.val / 20, (outIdx_lt t z).1⟩ : Fin 16) (⟨(rows (outIdx t z)).toNat, hr _⟩ : Fin 10240) (⟨(cols (outIdx t z)).toNat, hc _⟩ : Fin 512)) := by
  have h0 : ¬t.val % 5 = 0 := by omega
  have hlt : t.val - 1 < cfg0.N := Nat.lt_of_le_of_lt (Nat.sub_le _ _) t.isLt
  have hrB : ∀ z : S1x256x20.Idx, ((iblk0 V c 1 t : Vec Ideal S1x256x20 .i32) z).toNat < 10240 :=
    fun z => by rw [rows_apply V c t z, hrows]; exact hr _
  have hcB : ∀ z : S1x256x20.Idx, ((iblk0 V c 2 t : Vec Ideal S1x256x20 .i32) z).toNat < 512 :=
    fun z => by rw [cols_apply V c t z, hcols]; exact hc _
  have hprev : (outsAt0 (F := Ideal) V c (t.val - 1) hlt).2 = partialSum tbl rows t (t.val % 5) :=
    (sum_inv V c tbl rows htbl hrows hr (t.val - 1) ⟨t.val - 1, hlt⟩ rfl).trans (partialSum_pred tbl rows t h0 hlt)
  have hstep := acc_step tbl rows t (t.val % 5) (iblk0 V c 0 t) (iblk0 V c 1 t) (tile_tn V c tbl htbl t)
    (fun z => by rw [rows_apply V c t z, hrows])
  have hk : ((grid0.coords t) 2).val = t.val % 5 := coord2 t
  rw [outsAt0_C V c t h0 h4]; dsimp only
  refine (stepC_out c (grid0.coords t) (ms0_0 t) (hs0_0 t) (ms0_1 t) (hs0_1 t) (ms0_2 t) (hs0_2 t) (ms0_3 t) (hs0_3 t) scM0 (Memref.isWhole_whole _)
    (fun h => h0 ((hcond0_0 t).mp h)) ((hcond0_1 t).mpr h4) (iblk0 V c 0 t) (iblk0 V c 1 t) (iblk0 V c 2 t) (outsAt0 (F := Ideal) V c (t.val - 1) hlt).2 hrB hcB).trans ?_
  rw [hk, hprev, hstep]
  funext z
  rw [readSpec_full tbl rows t h4 (iblk0 V c 2 t) z (hr _) (hcB z)]
  congr 1
  funext a
  match a with
  | ⟨0, _⟩ => rfl
  | ⟨1, _⟩ => rfl
  | ⟨2, _⟩ => exact Fin.ext (congrArg BitVec.toNat ((cols_apply V c t z).trans (congrFun hcols (outIdx t z))))

end Cert.KernelIdeal.Value0

end
-- ==== Proof.KIValue0.lean ====
/-
  What the gather region leaves in its output array: entry (b, n, p) is the table at (b, row index, column index).
  The output block of row group (b, q) is written back once, after the group's last point, and those blocks tile the array.
-/
import proofs.«402861_j32238024523892_2_alg».proof.Proof.KIInvariant
import Idealize.ShloMosaic.Lib.Pipeline.Value

set_option maxRecDepth 16384

noncomputable section

namespace Cert.KernelIdeal.Value0

open Idealize.ShloMosaic Idealize.ShloMosaic.TcCoe Idealize.ShloMosaic.ValueIdx Idealize.SL.Sem
open Cert.KernelIdeal Cert.KernelIdeal.Gen Cert.KernelIdeal.Fr

/-- The output window's block index at grid point t: batch t / 20, row group t / 5 % 4, column block 0. -/
theorem idx3 : ∀ t : Fin cfg0.N, win0_3.index t (0 : Fin 3) = t.val / 20 ∧ win0_3.index t (1 : Fin 3) = t.val / 5 % 4
    ∧ win0_3.index t (2 : Fin 3) = 0 :=
  (by decide +kernel : ∀ t : Fin grid0.N, win0_3.index t (0 : Fin 3) = t.val / 20 ∧ win0_3.index t (1 : Fin 3) = t.val / 5 % 4
    ∧ win0_3.index t (2 : Fin 3) = 0)

/-- The gathered array: entry (b, n, p) is the table at (b, row index, column index). -/
def G (tbl : S16x10240x512.Idx → EReal) (rows cols : S16x1024x20.Idx → BitVec 32)
    (hr : ∀ j, (rows j).toNat < 10240) (hc : ∀ j, (cols j).toNat < 512) : S16x1024x20.Idx → EReal :=
  fun j => tbl (ix3 (⟨(j 0).val, (j 0).isLt⟩ : Fin 16) (⟨(rows j).toNat, hr j⟩ : Fin 10240) (⟨(cols j).toNat, hc j⟩ : Fin 512))

/-- What a group's last point writes back is its block of the gathered array: entry (0, n, p) of the block of point t
    sits at (t / 20, (t / 5 % 4) * 256 + n, p) of the array. -/
theorem flushed3_eq (V : (c : Dev nD) → (b : Ref sig .tc) → Buf (Elt Ideal) ((c : Thread nD τ).loc b)) (c : Dev nD)
    (tbl : S16x10240x512.Idx → EReal) (rows cols : S16x1024x20.Idx → BitVec 32)
    (htbl : V c main_v10 = tbl) (hrows : V c main_v8 = rows) (hcols : V c main_v5 = cols)
    (hr : ∀ j, (rows j).toNat < 10240) (hc : ∀ j, (cols j).toNat < 512)
    (t : Fin cfg0.N) (hf : (cfg0.win 3).flush t = true) :
    (dat0 (F := Ideal) V c).flushed 3 t = ((cfg0.win 3).blk t).view.read (Elt Ideal) (G tbl rows cols hr hc) := by
  have h4 : t.val % 5 = 4 := (flush0_3 t).mp hf
  show (cfg0.win 3).cut (grid0.coords t) ((dat0 (F := Ideal) V c).after 3 t) = _
  rw [after0_3, out_at_last V c tbl rows cols htbl hrows hcols hr hc t h4]
  obtain ⟨e0, e1, e2⟩ := idx3 t
  funext z
  have hz0 : (z 0).val < 1 := (z 0).isLt
  have hemb : ((cfg0.win 3).blk t).view.emb z = outIdx t ((cfg0.win 3).xinj (grid0.coords t) z) := by
    funext a; apply Fin.ext
    match a with
    | ⟨0, _⟩ => show win0_3.index t (0 : Fin 3) * 1 + 1 * (z 0).val = t.val / 20; omega
    | ⟨1, _⟩ => show win0_3.index t (1 : Fin 3) * 256 + 1 * (z 1).val = (t.val / 5 % 4) * 256 + (z 1).val; omega
    | ⟨2, _⟩ => show win0_3.index t (2 : Fin 3) * 20 + 1 * (z 2).val = (z 2).val; omega
  rw [View.read_apply, hemb]
  rfl

/-- An index of the gathered array lies in grid point t's block iff each coordinate lies in the block's range on its axis. -/
theorem mem_blk3 (t : Fin cfg0.N) (i : S16x1024x20.Idx) :
    i ∈ ((cfg0.win 3).blk t).view.set ↔ ∀ a : Fin 3, win0_3.index t a * S1x256x20.size a ≤ (i a).val
      ∧ (i a).val < win0_3.index t a * S1x256x20.size a + S1x256x20.size a := by
  show i ∈ ((View.whole main_v11).slice (win0_3.rect t)).set ↔ _
  rw [View.set_slice_whole, Rect.mem_set_unit]
  exact Iff.rfl

/-- Every index (b, n, p) of the gathered array lies in the block written back at the last point of row group (b, n / 256). -/
theorem covered3 (i : S16x1024x20.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 20 := (i 2).isLt
  have hN : cfg0.N = 320 := N_0
  obtain ⟨t, ht⟩ : ∃ t : Fin cfg0.N, t.val = ((i 0).val * 4 + (i 1).val / 256) * 5 + 4 :=
    ⟨⟨((i 0).val * 4 + (i 1).val / 256) * 5 + 4, by omega⟩, rfl⟩
  obtain ⟨e0, e1, e2⟩ := idx3 t
  refine ⟨t, (flush0_3 t).mpr (by omega), ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 20 ≤ (i 2).val ∧ (i 2).val < win0_3.index t (2 : Fin 3) * 20 + 20
    omega

/-- The gather region's output array after the run: entry (b, n, p) is the table at (b, row index, column index). -/
theorem gathered (V : (c : Dev nD) → (b : Ref sig .tc) → Buf (Elt Ideal) ((c : Thread nD τ).loc b)) (c : Dev nD)
    (tbl : S16x10240x512.Idx → EReal) (rows cols : S16x1024x20.Idx → BitVec 32)
    (htbl : V c main_v10 = tbl) (hrows : V c main_v8 = rows) (hcols : V c main_v5 = cols)
    (hr : ∀ j, (rows j).toNat < 10240) (hc : ∀ j, (cols j).toNat < 512) :
    (dat0 (F := Ideal) V c).arrAt 3 cfg0.N = fun j : S16x1024x20.Idx =>
      tbl (ix3 (⟨(j 0).val, (j 0).isLt⟩ : Fin 16) (⟨(rows j).toNat, hr j⟩ : Fin 10240) (⟨(cols j).toNat, hc j⟩ : Fin 512)) :=
  (dat0 (F := Ideal) V c).arrAt_eq_of_cover 3 (G tbl rows cols hr hc)
    (flushed3_eq V c tbl rows cols htbl hrows hcols hr hc) covered3

end Cert.KernelIdeal.Value0

end
-- ==== Proof.KIValue1.lean ====
/-
  What the loss region leaves in its output array.
  The region has one grid point, and each of its three windows has one block, the whole array, at block index
  zero on every axis. So the block a window reads at the point is the array itself; the body's loads and its one
  store go through the whole-shape rectangle at zero offsets, so a load reads the block and the store leaves its
  payload; and the one write-back puts that payload over every index of the output array.
-/
import proofs.«402861_j32238024523892_2_alg».proof.Proof.KIFrame1
import Idealize.ShloMosaic.Lib.Pipeline.Value
import Idealize.ShloMosaic.Lib.ValueIdx

set_option maxRecDepth 16384

noncomputable section

namespace Cert.KernelIdeal.Value1

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets of the rank-3 and the rank-2 whole-shape rectangles, however spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-- Window 0's one block is the whole gathered array: the block read at the point is the array. -/
theorem iblk1_0_eq (c : Dev nD) (t : Fin cfg1.N) : iblk1 V c 0 t = V c main_v11 := by
  funext j
  show V c main_v11 (((cfg1.win 0).blk t).view.emb j) = V c main_v11 j
  have h : ((cfg1.win 0).blk t).view.emb j = j := by
    funext a; apply Fin.ext
    match a with
    | ⟨0, _⟩ => show win1_0.index t (0 : Fin 3) * 16 + 1 * (j 0).val = (j 0).val; show 0 * 16 + 1 * (j 0).val = (j 0).val; omega
    | ⟨1, _⟩ => show win1_0.index t (1 : Fin 3) * 1024 + 1 * (j 1).val = (j 1).val; show 0 * 1024 + 1 * (j 1).val = (j 1).val; omega
    | ⟨2, _⟩ => show win1_0.index t (2 : Fin 3) * 20 + 1 * (j 2).val = (j 2).val; show 0 * 20 + 1 * (j 2).val = (j 2).val; omega
  rw [h]

/-- Window 1's one block is the whole margin array. -/
theorem iblk1_1_eq (c : Dev nD) (t : Fin cfg1.N) : iblk1 V c 1 t = V c main_v12 := by
  funext j
  show V c main_v12 (((cfg1.win 1).blk t).view.emb j) = V c main_v12 j
  have h : ((cfg1.win 1).blk t).view.emb j = j := by
    funext a; apply Fin.ext
    match a with
    | ⟨0, _⟩ => show win1_1.index t (0 : Fin 2) * 1 + 1 * (j 0).val = (j 0).val; show 0 * 1 + 1 * (j 0).val = (j 0).val; omega
    | ⟨1, _⟩ => show win1_1.index t (1 : Fin 2) * 1 + 1 * (j 1).val = (j 1).val; show 0 * 1 + 1 * (j 1).val = (j 1).val; omega
  rw [h]

/-- What the point writes back is the output window's block of the payload of the two arrays. -/
theorem flushed1_2_eq (c : Dev nD) (t : Fin cfg1.N) :
    (dat1 V c).flushed 2 t = ((cfg1.win 2).blk t).view.read (Elt F) (k1_pay1 (V c main_v11) (V c main_v12)) := by
  show (cfg1.win 2).cut (grid1.coords t) ((dat1 V c).after 2 t) = _
  rw [after1_2]
  unfold out1_2
  rw [View.canon_unit_zero hz2]
  simp only [View.ld_unit_zero (S := S16x1024x20) hz3, View.ld_unit_zero (S := S1x1) hz2]
  rw [iblk1_0_eq, iblk1_1_eq]
  funext j
  show k1_pay1 (V c main_v11) (V c main_v12) j = k1_pay1 (V c main_v11) (V c main_v12) (((cfg1.win 2).blk t).view.emb j)
  have h : ((cfg1.win 2).blk t).view.emb j = j := by
    funext a; apply Fin.ext
    match a with
    | ⟨0, _⟩ => show win1_2.index t (0 : Fin 2) * 1 + 1 * (j 0).val = (j 0).val; show 0 * 1 + 1 * (j 0).val = (j 0).val; omega
    | ⟨1, _⟩ => show win1_2.index t (1 : Fin 2) * 1 + 1 * (j 1).val = (j 1).val; show 0 * 1 + 1 * (j 1).val = (j 1).val; omega
  rw [h]

/-- Every index of the output array is in the one point's block. -/
theorem covered1_2 (i : S1x1.Idx) :
    ∃ t : Fin cfg1.N, (cfg1.win 2).flush t = true ∧ i ∈ ((cfg1.win 2).blk t).view.set := by
  refine ⟨t1_0, flush1_2 t1_0, ?_⟩
  show i ∈ ((View.whole main_v13).slice (win1_2.rect t1_0)).set
  rw [View.set_slice_whole, Rect.mem_set_unit]
  intro a
  match a with
  | ⟨0, _⟩ => show win1_2.index t1_0 (0 : Fin 2) * 1 ≤ (i 0).val ∧ (i 0).val < win1_2.index t1_0 (0 : Fin 2) * 1 + 1; show 0 * 1 ≤ (i 0).val ∧ (i 0).val < 0 * 1 + 1; have hi : (i 0).val < 1 := (i 0).isLt; omega
  | ⟨1, _⟩ => show win1_2.index t1_0 (1 : Fin 2) * 1 ≤ (i 1).val ∧ (i 1).val < win1_2.index t1_0 (1 : Fin 2) * 1 + 1; show 0 * 1 ≤ (i 1).val ∧ (i 1).val < 0 * 1 + 1; have hi : (i 1).val < 1 := (i 1).isLt; omega

/-- The output array after the region's one write-back is the payload of the gathered array and the margin array
    as the region finds them. -/
theorem loss_out (c : Dev nD)
    (x : Vec F S16x1024x20 .f32) (d : Vec F S1x1 .f32) (hx : V c main_v11 = x) (hd : V c main_v12 = d) :
    (dat1 (F := F) V c).arrAt 2 cfg1.N = k1_pay1 x d := by
  subst hx; subst hd
  exact (dat1 V c).arrAt_eq_of_cover 2 (k1_pay1 (V c main_v11) (V c main_v12)) (fun t _ => flushed1_2_eq V c t) covered1_2

end Cert.KernelIdeal.Value1

end
-- ==== Proof.KIResult.lean ====
/-
  The idealized kernel's result, in range: the hinge loss of the gathered costs.
  The result buffer is the loss region's one number reshaped; that number is the loss of the gather region's output array
  at the margin; the gather region's output array holds, at (b, n, p), the table at (b, row, col); the table is the cost
  volume with its time and row axes merged (row = t*512 + h, so row / 512 = t and row % 512 = h when h < 512), and the
  row and column arrays are t*512 + h and w.
-/
import proofs.«402861_j32238024523892_2_alg».proof.Proof.KIRun
import proofs.«402861_j32238024523892_2_alg».proof.Proof.KIHost
import proofs.«402861_j32238024523892_2_alg».proof.Proof.LossValue
import proofs.«402861_j32238024523892_2_alg».proof.Proof.KIValue0
import proofs.«402861_j32238024523892_2_alg».proof.Proof.KIValue1

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.KernelIdeal.Fr
open Cert.Spec

variable (m : (ℓ : Loc nD τ sig) → Buf (Elt Ideal) ℓ) (ρ : Dev nD → PrngReg)

/-- In range, the merged row index is below the table's 10240 rows. -/
theorem row_lt (c : Dev nD) (hr : InRange (Tof (Wk0 m ρ c main_arg1)) (Hof (Wk0 m ρ c main_arg1)) (Wof (Wk0 m ρ c main_arg1)))
    (j : SIX.Idx) : (Tof (Wk0 m ρ c main_arg1) j * 512#32 + Hof (Wk0 m ρ c main_arg1) j).toNat < 10240 := by
  rw [Host.row_toNat (Wk0 m ρ c) j (hr j).1 (hr j).2.1]
  have h1 := (hr j).1; have h2 := (hr j).2.1
  omega

/-- The table at (b, t*512 + h, w) is the cost volume at (b, t, h, w). -/
theorem table_at (c : Dev nD) (hr : InRange (Tof (Wk0 m ρ c main_arg1)) (Hof (Wk0 m ρ c main_arg1)) (Wof (Wk0 m ρ c main_arg1)))
    (j : SIX.Idx) (h1 : (Tof (Wk0 m ρ c main_arg1) j * 512#32 + Hof (Wk0 m ρ c main_arg1) j).toNat < 10240)
    (h2 : (Wof (Wk0 m ρ c main_arg1) j).toNat < 512) :
    Wk1 m ρ c main_v10 (ix3 (⟨(j 0).val, (j 0).isLt⟩ : Fin 16)
        (⟨(Tof (Wk0 m ρ c main_arg1) j * 512#32 + Hof (Wk0 m ρ c main_arg1) j).toNat, h1⟩ : Fin 10240)
        (⟨(Wof (Wk0 m ρ c main_arg1) j).toNat, h2⟩ : Fin 512))
      = sel (Wk0 m ρ c main_arg0) (Tof (Wk0 m ρ c main_arg1)) (Hof (Wk0 m ρ c main_arg1)) (Wof (Wk0 m ρ c main_arg1)) j := by
  refine (Host.table_apply (Wk0 m ρ c) _ _ _).trans ?_
  unfold sel at4
  have hT := (hr j).1; have hH := (hr j).2.1; have hW := (hr j).2.2
  have hrow := Host.row_toNat (Wk0 m ρ c) j hT hH
  have hb : (j 0).val < 16 := (j 0).isLt
  congr 1
  funext a
  match a with
  | ⟨0, _⟩ => exact Fin.ext (by show (j 0).val = (j 0).val % 16; omega)
  | ⟨1, _⟩ => exact Fin.ext (by show (Tof (Wk0 m ρ c main_arg1) j * 512#32 + Hof (Wk0 m ρ c main_arg1) j).toNat / 512 = (Tof (Wk0 m ρ c main_arg1) j).toNat % 20; omega)
  | ⟨2, _⟩ => exact Fin.ext (by show (Tof (Wk0 m ρ c main_arg1) j * 512#32 + Hof (Wk0 m ρ c main_arg1) j).toNat % 512 = (Hof (Wk0 m ρ c main_arg1) j).toNat % 512; omega)
  | ⟨3, _⟩ => exact Fin.ext (by show (Wof (Wk0 m ρ c main_arg1) j).toNat = (Wof (Wk0 m ρ c main_arg1) j).toNat % 512; omega)

/-- THE RESULT. -/
theorem kernel_result (c : Dev nD) (hr : InRange (Tof (Wk0 m ρ c main_arg1)) (Hof (Wk0 m ρ c main_arg1)) (Wof (Wk0 m ρ c main_arg1))) :
    Wk5 m ρ c (Proc.devRef .tc main_v14)
      = fun _ => loss (sel (Wk0 m ρ c main_arg0) (Tof (Wk0 m ρ c main_arg1)) (Hof (Wk0 m ρ c main_arg1)) (Wof (Wk0 m ρ c main_arg1))) (Wk0 m ρ c main_arg2 ix0) := by
  -- the last host operation reshapes the loss region's one number
  have e5 : Wk5 m ρ c (Proc.devRef .tc main_v14) = fun _ => Wk4 m ρ c main_v13 (ix2 (0 : Fin 1) (0 : Fin 1)) := Host.result_eq (Wk4 m ρ c)
  -- which is the body's payload of the gathered array and the margin
  have e4 : Wk4 m ρ c (Proc.devRef .tc main_v13) = k1_pay1 (Vk3 m ρ c main_v11) (Vk3 m ρ c main_v12) :=
    (Wk4_arr m ρ c 2).trans (Value1.loss_out (Vk3 m ρ) c _ _ rfl rfl)
  -- the margin, reshaped; no item before writes the argument
  have e12 : Vk3 m ρ c main_v12 = fun _ => Wk0 m ρ c main_arg2 ix0 := by
    show StableHlo.after hostOps1 (Wk2 m ρ c) main_v12 = _
    rw [Host.margin_eq (Wk2 m ρ c)]
    have h2 : Wk2 m ρ c (Proc.devRef .tc main_arg2) = Wk0 m ρ c (Proc.devRef .tc main_arg2) :=
      (Wk2_of_ne m ρ c main_arg2 (by decide)).trans (StableHlo.after_of_writes_sub hostOps0 _ hostOps0_writes (by decide))
    rw [h2]
  -- the gathered array: what the gather region left, untouched by the host operation between the regions
  have e11 : Vk3 m ρ c main_v11 = (dat0 (Vk1 m ρ) c).arrAt 3 cfg0.N :=
    (StableHlo.after_of_writes_sub hostOps1 _ hostOps1_writes (by decide)).trans (Wk2_arr m ρ c 3)
  have hrows : Vk1 m ρ c main_v8 = fun j => Tof (Wk0 m ρ c main_arg1) j * 512#32 + Hof (Wk0 m ρ c main_arg1) j := Host.row_eq (Wk0 m ρ c)
  have hcols : Vk1 m ρ c main_v5 = Wof (Wk0 m ρ c main_arg1) := Host.col_eq (Wk0 m ρ c)
  have eg := Value0.gathered (Vk1 m ρ) c (Vk1 m ρ c main_v10) _ _ rfl hrows hcols (row_lt m ρ c hr) (fun j => (hr j).2.2)
  have ex : Vk3 m ρ c main_v11 = sel (Wk0 m ρ c main_arg0) (Tof (Wk0 m ρ c main_arg1)) (Hof (Wk0 m ρ c main_arg1)) (Wof (Wk0 m ρ c main_arg1)) := by
    rw [e11, eg]
    funext j
    exact table_at m ρ c hr j (row_lt m ρ c hr j) (hr j).2.2
  rw [e5]
  funext _
  rw [e4, Cert.LossValue.kernel_loss, ex, e12]

end Cert.KernelIdeal.Result

end
-- ==== Proof.RefGather.lean ====
/-
  The reference's gather under the range facts. The reference builds, for every (b, n, p), a start vector of four words
  (b, t, h, w): the batch counter b, and the three index columns of the trajectory array, each passed through the wrap
  "if negative, add the extent". In range no word is negative as a signed word (its value is below 512 < 2^31), so
  every wrap keeps its operand; the start vector lies inside the cost volume, so the gather's clamp does nothing, and
  the gathered element is cv[b, t, h, w].
-/
import proofs.«402861_j32238024523892_2_alg».proof.Proof.RefBase
import proofs.«402861_j32238024523892_2_alg».proof.Proof.Spec
import Idealize.ShloMosaic.Lib.ValueIdx
import Idealize.ShloMosaic.Lib.Pipeline.Value
import Idealize.ShloMosaic.Lib.StableHlo.Predicate

noncomputable section

namespace Cert.RefGather

open Cert.ReferenceIdeal Cert.ReferenceIdeal.Gen Cert.ReferenceIdeal.Read Idealize.ShloMosaic Idealize.ShloMosaic.ValueIdx
  Idealize.ShloMosaic.StableHlo Idealize.ShloMosaic.StableHlo.Predicate

variable {F : FTy → Type} [FloatOps F]

/-- The wrap of a word that is not negative as a signed word keeps it. -/
theorem wrap_keep (w c : BitVec 32) (hw : w.toNat < 2 ^ 31) :
    Scalar.select (IntOp.cmpi .slt w 0#32) (IntOp.addi w c) w = w := by
  have h : ¬ IntOp.cmpi .slt w 0#32 = 1#1 := by
    rw [slt_iff_toNat hw (by decide)]
    simp
  rw [eq_zero_of_ne_one h, select_zero]

/-- The first index column, sliced and reshaped, is the time column. -/
theorem v3_eq (x1 : (⟨S16x1024x20x3, .i32⟩ : BufTy).Contents (Elt F)) (j : S16x1024x20.Idx) :
    val_main_v3 (F := F) x1 j = Cert.Spec.Tof x1 j := by
  rw [val_main_v3_apply, val_main_v2_apply]
  unfold Cert.Spec.Tof
  congr 1
  funext a
  have h0 : (j 0).val < 16 := (j 0).isLt
  have h1 : (j 1).val < 1024 := (j 1).isLt
  have h2 : (j 2).val < 20 := (j 2).isLt
  match a with
  | ⟨0, _⟩ => apply Fin.ext; show (((j 0).val * 1024 + (j 1).val) * 20 + (j 2).val) / 20480 = (j 0).val; omega
  | ⟨1, _⟩ => apply Fin.ext; show (((j 0).val * 1024 + (j 1).val) * 20 + (j 2).val) / 20 % 1024 = (j 1).val; omega
  | ⟨2, _⟩ => apply Fin.ext; show (((j 0).val * 1024 + (j 1).val) * 20 + (j 2).val) / 1 % 20 = (j 2).val; omega
  | ⟨3, _⟩ => rfl

/-- The second index column, sliced and reshaped, is the row column. -/
theorem v5_eq (x1 : (⟨S16x1024x20x3, .i32⟩ : BufTy).Contents (Elt F)) (j : S16x1024x20.Idx) :
    val_main_v5 (F := F) x1 j = Cert.Spec.Hof x1 j := by
  rw [val_main_v5_apply, val_main_v4_apply]
  unfold Cert.Spec.Hof
  congr 1
  funext a
  have h0 : (j 0).val < 16 := (j 0).isLt
  have h1 : (j 1).val < 1024 := (j 1).isLt
  have h2 : (j 2).val < 20 := (j 2).isLt
  match a with
  | ⟨0, _⟩ => apply Fin.ext; show (((j 0).val * 1024 + (j 1).val) * 20 + (j 2).val) / 20480 = (j 0).val; omega
  | ⟨1, _⟩ => apply Fin.ext; show (((j 0).val * 1024 + (j 1).val) * 20 + (j 2).val) / 20 % 1024 = (j 1).val; omega
  | ⟨2, _⟩ => apply Fin.ext; show (((j 0).val * 1024 + (j 1).val) * 20 + (j 2).val) / 1 % 20 = (j 2).val; omega
  | ⟨3, _⟩ => rfl

/-- The third index column, sliced and reshaped, is the width column. -/
theorem v7_eq (x1 : (⟨S16x1024x20x3, .i32⟩ : BufTy).Contents (Elt F)) (j : S16x1024x20.Idx) :
    val_main_v7 (F := F) x1 j = Cert.Spec.Wof x1 j := by
  rw [val_main_v7_apply, val_main_v6_apply]
  unfold Cert.Spec.Wof
  congr 1
  funext a
  have h0 : (j 0).val < 16 := (j 0).isLt
  have h1 : (j 1).val < 1024 := (j 1).isLt
  have h2 : (j 2).val < 20 := (j 2).isLt
  match a with
  | ⟨0, _⟩ => apply Fin.ext; show (((j 0).val * 1024 + (j 1).val) * 20 + (j 2).val) / 20480 = (j 0).val; omega
  | ⟨1, _⟩ => apply Fin.ext; show (((j 0).val * 1024 + (j 1).val) * 20 + (j 2).val) / 20 % 1024 = (j 1).val; omega
  | ⟨2, _⟩ => apply Fin.ext; show (((j 0).val * 1024 + (j 1).val) * 20 + (j 2).val) / 1 % 20 = (j 2).val; omega
  | ⟨3, _⟩ => rfl

/-- A time word below 2^31 passes its wrap unchanged. -/
theorem v17_eq (x1 : (⟨S16x1024x20x3, .i32⟩ : BufTy).Contents (Elt F)) (j : S16x1024x20.Idx)
    (h : (Cert.Spec.Tof x1 j).toNat < 2 ^ 31) : val_main_v17 (F := F) x1 j = Cert.Spec.Tof x1 j := by
  rw [val_main_v17_apply, val_main_v14_apply, val_main_v16_apply, val_main_v13_apply, val_main_c_1_apply, v3_eq]
  exact wrap_keep _ _ h

/-- A row word below 2^31 passes its wrap unchanged. -/
theorem v22_eq (x1 : (⟨S16x1024x20x3, .i32⟩ : BufTy).Contents (Elt F)) (j : S16x1024x20.Idx)
    (h : (Cert.Spec.Hof x1 j).toNat < 2 ^ 31) : val_main_v22 (F := F) x1 j = Cert.Spec.Hof x1 j := by
  rw [val_main_v22_apply, val_main_v19_apply, val_main_v21_apply, val_main_v18_apply, val_main_c_3_apply, v5_eq]
  exact wrap_keep _ _ h

/-- A width word below 2^31 passes its wrap unchanged. -/
theorem v27_eq (x1 : (⟨S16x1024x20x3, .i32⟩ : BufTy).Contents (Elt F)) (j : S16x1024x20.Idx)
    (h : (Cert.Spec.Wof x1 j).toNat < 2 ^ 31) : val_main_v27 (F := F) x1 j = Cert.Spec.Wof x1 j := by
  rw [val_main_v27_apply, val_main_v24_apply, val_main_v26_apply, val_main_v23_apply, val_main_c_5_apply, v7_eq]
  exact wrap_keep _ _ h

/-- The batch counter, wrapped and broadcast, is the batch coordinate as a word. -/
theorem v28_eq (j : S16x1024x20.Idx) : val_main_v28 (F := F) j = BitVec.ofNat 32 (j 0).val := by
  have h0 : (j 0).val < 16 := (j 0).isLt
  rw [val_main_v28_apply, val_main_v12_apply, val_main_v9_apply, val_main_v11_apply, val_main_v8_apply, val_main_c_apply,
    val_main_v1_apply, val_main_v0_apply]
  refine wrap_keep _ _ ?_
  show (BitVec.ofNat 32 (j 0).val).toNat < 2 ^ 31
  rw [BitVec.toNat_ofNat]; omega

/-! The start vectors, read at the four positions of their last axis: the batch word, then the three wrapped columns. -/

theorem v33_at0 (x1 : (⟨S16x1024x20x3, .i32⟩ : BufTy).Contents (Elt F)) (b : Fin 16) (n : Fin 1024) (p : Fin 20) :
    val_main_v33 (F := F) x1 (ix4 b n p (0 : Fin 4)) = val_main_v29 (F := F) (ix4 b n p (0 : Fin 1)) := by
  unfold val_main_v33
  refine concatenate_apply_piece (α := BitVec 32) (t := S16x1024x20x4) (3 : Fin 4)
    [⟨S16x1024x20x1, (val_main_v29 (F := F))⟩, ⟨S16x1024x20x1, (val_main_v30 (F := F) x1)⟩,
      ⟨S16x1024x20x1, (val_main_v31 (F := F) x1)⟩, ⟨S16x1024x20x1, (val_main_v32 (F := F) x1)⟩]
    _ _ 0 (by show (0 : Nat) < 4; omega) S16x1024x20x1 _ rfl rfl 0 rfl (ix4 b n p (0 : Fin 1)) ?_ rfl
  intro b' hb'
  match b' with
  | ⟨0, _⟩ => rfl
  | ⟨1, _⟩ => rfl
  | ⟨2, _⟩ => rfl
  | ⟨3, _⟩ => exact absurd rfl hb'

theorem v33_at1 (x1 : (⟨S16x1024x20x3, .i32⟩ : BufTy).Contents (Elt F)) (b : Fin 16) (n : Fin 1024) (p : Fin 20) :
    val_main_v33 (F := F) x1 (ix4 b n p (1 : Fin 4)) = val_main_v30 (F := F) x1 (ix4 b n p (0 : Fin 1)) := by
  unfold val_main_v33
  refine concatenate_apply_piece (α := BitVec 32) (t := S16x1024x20x4) (3 : Fin 4)
    [⟨S16x1024x20x1, (val_main_v29 (F := F))⟩, ⟨S16x1024x20x1, (val_main_v30 (F := F) x1)⟩,
      ⟨S16x1024x20x1, (val_main_v31 (F := F) x1)⟩, ⟨S16x1024x20x1, (val_main_v32 (F := F) x1)⟩]
    _ _ 1 (by show (1 : Nat) < 4; omega) S16x1024x20x1 _ rfl rfl 1 rfl (ix4 b n p (0 : Fin 1)) ?_ rfl
  intro b' hb'
  match b' with
  | ⟨0, _⟩ => rfl
  | ⟨1, _⟩ => rfl
  | ⟨2, _⟩ => rfl
  | ⟨3, _⟩ => exact absurd rfl hb'

theorem v33_at2 (x1 : (⟨S16x1024x20x3, .i32⟩ : BufTy).Contents (Elt F)) (b : Fin 16) (n : Fin 1024) (p : Fin 20) :
    val_main_v33 (F := F) x1 (ix4 b n p (2 : Fin 4)) = val_main_v31 (F := F) x1 (ix4 b n p (0 : Fin 1)) := by
  unfold val_main_v33
  refine concatenate_apply_piece (α := BitVec 32) (t := S16x1024x20x4) (3 : Fin 4)
    [⟨S16x1024x20x1, (val_main_v29 (F := F))⟩, ⟨S16x1024x20x1, (val_main_v30 (F := F) x1)⟩,
      ⟨S16x1024x20x1, (val_main_v31 (F := F) x1)⟩, ⟨S16x1024x20x1, (val_main_v32 (F := F) x1)⟩]
    _ _ 2 (by show (2 : Nat) < 4; omega) S16x1024x20x1 _ rfl rfl 2 rfl (ix4 b n p (0 : Fin 1)) ?_ rfl
  intro b' hb'
  match b' with
  | ⟨0, _⟩ => rfl
  | ⟨1, _⟩ => rfl
  | ⟨2, _⟩ => rfl
  | ⟨3, _⟩ => exact absurd rfl hb'

theorem v33_at3 (x1 : (⟨S16x1024x20x3, .i32⟩ : BufTy).Contents (Elt F)) (b : Fin 16) (n : Fin 1024) (p : Fin 20) :
    val_main_v33 (F := F) x1 (ix4 b n p (3 : Fin 4)) = val_main_v32 (F := F) x1 (ix4 b n p (0 : Fin 1)) := by
  unfold val_main_v33
  refine concatenate_apply_piece (α := BitVec 32) (t := S16x1024x20x4) (3 : Fin 4)
    [⟨S16x1024x20x1, (val_main_v29 (F := F))⟩, ⟨S16x1024x20x1, (val_main_v30 (F := F) x1)⟩,
      ⟨S16x1024x20x1, (val_main_v31 (F := F) x1)⟩, ⟨S16x1024x20x1, (val_main_v32 (F := F) x1)⟩]
    _ _ 3 (by show (3 : Nat) < 4; omega) S16x1024x20x1 _ rfl rfl 3 rfl (ix4 b n p (0 : Fin 1)) ?_ rfl
  intro b' hb'
  match b' with
  | ⟨0, _⟩ => rfl
  | ⟨1, _⟩ => rfl
  | ⟨2, _⟩ => rfl
  | ⟨3, _⟩ => exact absurd rfl hb'

/-- The gather's dimension numbers: four collapsed axes, the start vector along the last axis of the start indices. -/
abbrev gd : GatherDims S16x20x512x512 S16x1024x20x4 S16x1024x20 :=
  gather_S16x20x512x512_S16x1024x20x4_S16x1024x20_n_0123_n_n_0123_3_1111

/-- Component `c` of the start vector of result position `j` sits at `(j₀, j₁, j₂, c)` of the start indices. -/
theorem siIdx_eq (j : S16x1024x20.Idx) (c : Fin 4) :
    gd.siIdx j ⟨c.val, c.isLt⟩ = ix4 (j 0) (j 1) (j 2) c := by
  funext b
  apply Fin.ext
  match b with
  | ⟨0, _⟩ => rfl
  | ⟨1, _⟩ => rfl
  | ⟨2, _⟩ => rfl
  | ⟨3, _⟩ => rfl

/-- The operand coordinate the gather reads on axis `a`: the start vector's component `a`, signed and clamped. -/
theorem operandIdx_val (idx : IVec S16x1024x20x4 32) (j : S16x1024x20.Idx) (a : Fin 4) :
    (gd.operandIdx j idx a).val
      = min (idx (ix4 (j 0) (j 1) (j 2) a)).toInt.toNat (S16x20x512x512.size a - 1) := by
  show gd.start j idx a + gd.batchCoord j a + gd.offCoord j a = _
  have hmem : a ∈ gd.startIndexMap := by
    show a ∈ ([0, 1, 2, 3] : List (Fin 4))
    fin_cases a <;> simp
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  have key : ∀ c : Fin 4, List.idxOf c gd.startIndexMap = c.val := by decide
  have hsi : gd.siIdx j ⟨List.idxOf a gd.startIndexMap, List.idxOf_lt_length_iff.2 hmem⟩ = ix4 (j 0) (j 1) (j 2) a := by
    rw [← siIdx_eq j a]; congr 1; exact Fin.ext (key a)
  rw [hsi]
  have hs : gd.sliceSizes a = 1 := by fin_cases a <;> rfl
  rw [hs]
  rfl

/-- A start-indices position `(j₀, j₁, j₂, 0)` of a broadcast column reads the column at `j`. -/
theorem bcast_idx (j : S16x1024x20.Idx) : idx_main_v30 (ix4 (j 0) (j 1) (j 2) (0 : Fin 1)) = j := by
  funext a
  match a with
  | ⟨0, _⟩ => rfl
  | ⟨1, _⟩ => rfl
  | ⟨2, _⟩ => rfl

/-- The start vector's first component is the batch coordinate. -/
theorem start0 (x1 : (⟨S16x1024x20x3, .i32⟩ : BufTy).Contents (Elt F)) (j : S16x1024x20.Idx) :
    val_main_v33 (F := F) x1 (ix4 (j 0) (j 1) (j 2) (0 : Fin 4)) = BitVec.ofNat 32 (j 0).val := by
  refine (v33_at0 x1 (j 0) (j 1) (j 2)).trans ?_
  rw [val_main_v29_apply, v28_eq]

/-- Its second component is the time word, when that is not negative as a signed word. -/
theorem start1 (x1 : (⟨S16x1024x20x3, .i32⟩ : BufTy).Contents (Elt F)) (j : S16x1024x20.Idx)
    (h : (Cert.Spec.Tof x1 j).toNat < 2 ^ 31) :
    val_main_v33 (F := F) x1 (ix4 (j 0) (j 1) (j 2) (1 : Fin 4)) = Cert.Spec.Tof x1 j := by
  refine (v33_at1 x1 (j 0) (j 1) (j 2)).trans ?_
  rw [val_main_v30_apply]
  show val_main_v17 (F := F) x1 (idx_main_v30 (ix4 (j 0) (j 1) (j 2) (0 : Fin 1))) = _
  rw [bcast_idx, v17_eq _ _ h]

/-- Its third component is the row word. -/
theorem start2 (x1 : (⟨S16x1024x20x3, .i32⟩ : BufTy).Contents (Elt F)) (j : S16x1024x20.Idx)
    (h : (Cert.Spec.Hof x1 j).toNat < 2 ^ 31) :
    val_main_v33 (F := F) x1 (ix4 (j 0) (j 1) (j 2) (2 : Fin 4)) = Cert.Spec.Hof x1 j := by
  refine (v33_at2 x1 (j 0) (j 1) (j 2)).trans ?_
  rw [val_main_v31_apply]
  show val_main_v22 (F := F) x1 (idx_main_v30 (ix4 (j 0) (j 1) (j 2) (0 : Fin 1))) = _
  rw [bcast_idx, v22_eq _ _ h]

/-- Its fourth component is the width word. -/
theorem start3 (x1 : (⟨S16x1024x20x3, .i32⟩ : BufTy).Contents (Elt F)) (j : S16x1024x20.Idx)
    (h : (Cert.Spec.Wof x1 j).toNat < 2 ^ 31) :
    val_main_v33 (F := F) x1 (ix4 (j 0) (j 1) (j 2) (3 : Fin 4)) = Cert.Spec.Wof x1 j := by
  refine (v33_at3 x1 (j 0) (j 1) (j 2)).trans ?_
  rw [val_main_v32_apply]
  show val_main_v27 (F := F) x1 (idx_main_v30 (ix4 (j 0) (j 1) (j 2) (0 : Fin 1))) = _
  rw [bcast_idx, v27_eq _ _ h]

/-- THE GATHER. In range the reference's gather reads the cost volume at `(b, t, h, w)`. -/
theorem ref_gather (x0 : (⟨Cert.ReferenceIdeal.S16x20x512x512, .f32⟩ : BufTy).Contents (Elt Ideal))
    (x1 : (⟨Cert.ReferenceIdeal.S16x1024x20x3, .i32⟩ : BufTy).Contents (Elt Ideal))
    (hr : Cert.Spec.InRange (Cert.Spec.Tof x1) (Cert.Spec.Hof x1) (Cert.Spec.Wof x1)) :
    Cert.ReferenceIdeal.Read.val_main_v34 (F := Ideal) x0 x1
      = Cert.Spec.sel x0 (Cert.Spec.Tof x1) (Cert.Spec.Hof x1) (Cert.Spec.Wof x1) := by
  funext j
  obtain ⟨hT, hH, hW⟩ := hr j
  have h0 : (j 0).val < 16 := (j 0).isLt
  unfold val_main_v34 Host.gather Cert.Spec.sel Cert.Spec.at4
  congr 1
  funext a
  apply Fin.ext
  refine (operandIdx_val _ j a).trans ?_
  match a with
  | ⟨0, _⟩ =>
    show min (val_main_v33 (F := Ideal) x1 (ix4 (j 0) (j 1) (j 2) (0 : Fin 4))).toInt.toNat (16 - 1) = (j 0).val % 16
    rw [start0, toInt_ofNat_small _ (by omega), Int.toNat_natCast]
    omega
  | ⟨1, _⟩ =>
    show min (val_main_v33 (F := Ideal) x1 (ix4 (j 0) (j 1) (j 2) (1 : Fin 4))).toInt.toNat (20 - 1)
      = (Cert.Spec.Tof x1 j).toNat % 20
    rw [start1 _ _ (by omega), toInt_eq_toNat_of_lt (by omega), Int.toNat_natCast]
    omega
  | ⟨2, _⟩ =>
    show min (val_main_v33 (F := Ideal) x1 (ix4 (j 0) (j 1) (j 2) (2 : Fin 4))).toInt.toNat (512 - 1)
      = (Cert.Spec.Hof x1 j).toNat % 512
    rw [start2 _ _ (by omega), toInt_eq_toNat_of_lt (by omega), Int.toNat_natCast]
    omega
  | ⟨3, _⟩ =>
    show min (val_main_v33 (F := Ideal) x1 (ix4 (j 0) (j 1) (j 2) (3 : Fin 4))).toInt.toNat (512 - 1)
      = (Cert.Spec.Wof x1 j).toNat % 512
    rw [start3 _ _ (by omega), toInt_eq_toNat_of_lt (by omega), Int.toNat_natCast]
    omega

end Cert.RefGather

end
-- ==== Proof.RefValue.lean ====
/-
  The reference's result: the hinge loss of the gathered costs, when every index triple is in range.
  Its run's composed term is the last stage; the stages after the gather are the loss of the gather's result, and the
  gather, in range, reads the cost volume exactly where the triple says.
-/
import proofs.«402861_j32238024523892_2_alg».proof.Proof.LossValue
import proofs.«402861_j32238024523892_2_alg».proof.Proof.RefGather

noncomputable section

namespace Cert.RefValue

open Idealize.ShloMosaic Idealize.ShloMosaic.TcCoe Idealize.SL.Sem Idealize.ShloMosaic.ValueIdx
open Cert.ReferenceIdeal

theorem ref_result (m : (ℓ : Loc nD τ sig) → Buf (Elt Ideal) ℓ) (c : Dev nD)
    (x0 : (⟨S16x20x512x512, .f32⟩ : BufTy).Contents (Elt Ideal)) (x1 : (⟨S16x1024x20x3, .i32⟩ : BufTy).Contents (Elt Ideal)) (x2 : (⟨S_, .f32⟩ : BufTy).Contents (Elt Ideal))
    (h0 : m ((c.tc : Thread nD τ).loc main_arg0) = x0) (h1 : m ((c.tc : Thread nD τ).loc main_arg1) = x1) (h2 : m ((c.tc : Thread nD τ).loc main_arg2) = x2)
    (hr : Cert.Spec.InRange (Cert.Spec.Tof x1) (Cert.Spec.Hof x1) (Cert.Spec.Wof x1)) :
    Cert.ReferenceIdeal.Value.res_main_v43 (F := Ideal) m c
      = fun _ => Cert.Spec.loss (Cert.Spec.sel x0 (Cert.Spec.Tof x1) (Cert.Spec.Hof x1) (Cert.Spec.Wof x1)) (x2 ix0) := by
  rw [Cert.ReferenceIdeal.Read.val_main_v43_eq, h0, h1, h2]
  funext j
  rw [Cert.LossValue.ref_loss, Cert.RefGather.ref_gather x0 x1 hr]

end Cert.RefValue

end
-- ==== Proof.PreRanges.lean ====
/-
  The printed precondition, read back as the range facts it was written to state. The precondition is a conjunction
  of five reductions by "and"; the last three say, of the three index columns of the trajectory array, that every word
  is at least 0 and below the extent of the cost-volume axis it indexes (20, 512, 512), compared signed. A word in
  [0, n) signed, n small, has unsigned value below n. Column c of the trajectory array is printed as a unit slice of
  the last axis at offset c followed by a reshape that drops the unit axis: read at (b, n, p) it is the array at
  (b, n, p, c).
-/
import proofs.«402861_j32238024523892_2_alg».proof.Pre_finite_inputs
import proofs.«402861_j32238024523892_2_alg».proof.Proof.Spec
import Idealize.ShloMosaic.Lib.ReduceAll
import Idealize.ShloMosaic.Lib.StableHlo.Predicate
import Idealize.ShloMosaic.Lib.ValueIdx
import Idealize.ShloMosaic.Lib.Pipeline.Value
import Idealize.ShloMosaic.Lib.Affine

noncomputable section

namespace Cert.PreRanges

open Idealize.ShloMosaic Idealize.ShloMosaic.ValueIdx
open Cert.Pre_finite_inputs

/-- The scalar shape has one index. -/
instance subsingleton_scalar_idx : Subsingleton S_.Idx := ⟨fun a b => funext fun d => d.elim0⟩

/-- A word that is at least 0 and below a small n, both signed, has unsigned value below n: being non-negative its
    sign bit is clear, so its signed and unsigned readings agree. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  have g0 := IntOp.cmpi_sge.1 h0
  have g1 := IntOp.cmpi_slt.1 h1
  rw [StableHlo.Predicate.toInt_ofNat_small n hn] at g1
  have z : (0#32 : BitVec 32).toInt = 0 := by decide
  rw [z] at g0
  have hw := w.isLt
  rw [BitVec.toInt_eq_toNat_cond] at g0 g1
  split at g0 <;> omega

/-- Column c of the trajectory array, as printed: the unit slice of the last axis at offset c with the unit axis
    dropped reads, at (b, n, p), the array at (b, n, p, c). -/
theorem col_read (a : IVec S16x1024x20x3 32) (c : Nat) (hc : c < 3)
    (hs : S16x1024x20x3.Slices ![0, 0, 0, c] S16x1024x20x1) (hr : S16x1024x20x1.ShapeCasts S16x1024x20)
    (j : S16x1024x20.Idx) :
    shapeCast S16x1024x20 (extractStridedSlice S16x1024x20x1 ![0, 0, 0, c] a hs) hr j
      = a (ix4 (j 0) (j 1) (j 2) (⟨c, hc⟩ : Fin 3)) := by
  refine (shapeCast_apply _ hr j (ix4 (j 0) (j 1) (j 2) (0 : Fin 1)) ?_).trans ?_
  · rw [Shape.rowMajor_val_four, Shape.rowMajor_val_three]
    show ((((j 0).val * 1024 + (j 1).val) * 20 + (j 2).val) * 1 + 0) = (((j 0).val * 1024 + (j 1).val) * 20 + (j 2).val)
    omega
  · refine extractStridedSlice_apply _ _ hs _ _ (fun ax => ?_)
    match ax with
    | ⟨0, _⟩ => exact (Nat.zero_add _).symm
    | ⟨1, _⟩ => exact (Nat.zero_add _).symm
    | ⟨2, _⟩ => exact (Nat.zero_add _).symm
    | ⟨3, _⟩ => exact (Nat.add_zero _).symm

/-- One conjunct of the precondition read at one index: if every word of v passes "at least 0 and below n", the
    word at j has value below n. -/
theorem lane_lt [Facts] (v : IVec S16x1024x20 32) (n : Nat) (hn : n < 2 ^ 31)
    (e : Host.reduce IntOp.andi
          (andi (cmpi .sge v (broadcastInDim S16x1024x20 ![] Facts.bcast_S_S16x1024x20 (constantI S_ 32 0#32)))
                (cmpi .slt v (broadcastInDim S16x1024x20 ![] Facts.bcast_S_S16x1024x20 (constantI S_ 32 (BitVec.ofNat 32 n)))))
          (constantI S_ 1 1#1) Facts.reducesTo_S16x1024x20_S_d0_1_2 Facts.h_S_ ix0 = 1#1)
    (j : S16x1024x20.Idx) : (v j).toNat < n := by
  have hj := Host.reduce_andi_all _ _ _ _ ix0 e j
  obtain ⟨h0, h1⟩ := IntOp.andi_eq_one.1 hj
  exact toNat_lt_of_signed (v j) n hn h0 h1

/-- THE PRECONDITION DECODED: every index triple of the trajectory array names an entry of the cost volume. -/
theorem ranges_of_pre [Cert.Pre_finite_inputs.Facts] {F : FTy → Type} [FloatOps F] (a0 : FVec F Cert.Pre_finite_inputs.S16x20x512x512 .f32) (a1 : IVec Cert.Pre_finite_inputs.S16x1024x20x3 32) (a2 : FVec F Cert.Pre_finite_inputs.S_ .f32)
    (h : Cert.Pre_finite_inputs.fn (F := F) a0 a1 a2 = fun _ => 1#1) :
    Cert.Spec.InRange (Cert.Spec.Tof a1) (Cert.Spec.Hof a1) (Cert.Spec.Wof a1) := by
  have e := congrFun h ix0
  dsimp only [fn, fn_part1] at e
  obtain ⟨e', eW⟩ := IntOp.andi_eq_one.1 e
  obtain ⟨e'', eH⟩ := IntOp.andi_eq_one.1 e'
  obtain ⟨-, eT⟩ := IntOp.andi_eq_one.1 e''
  intro j
  have hT := lane_lt _ 20 (by decide) eT j
  have hH := lane_lt _ 512 (by decide) eH j
  have hW := lane_lt _ 512 (by decide) eW j
  rw [col_read a1 0 (by decide)] at hT
  rw [col_read a1 1 (by decide)] at hH
  rw [col_read a1 2 (by decide)] at hW
  exact ⟨hT, hH, hW⟩

end Cert.PreRanges

end
-- ==== Proof.lean ====
/-
  The certificate's claims, assembled.
  Both printings of the kernel — word-level and idealized — run to the end without a fault and leave the three arguments
  as launched: the program's five items are followed one after the other, each kernel region entered from and left at
  "every unscoped buffer at known contents". The reference has no kernel; its frame is its run with the result dropped.
  The idealization rewrote nothing, so there is nothing to preserve.
  Equivalence: the precondition puts every index triple (t, h, w) in range of the cost volume. Then the reference's
  gather reads cv[b, t, h, w] exactly; the kernel's one-hot products, accumulated over the five row tiles and read out
  through the column mask, leave the same entry, because in the extended reals 0 * x = 0 and 1 * x = x for every x and
  a sum with one non-zero term is that term; and the two loss computations are the same sums and maxima.
-/
import proofs.«402861_j32238024523892_2_alg».proof.Defs
import proofs.«402861_j32238024523892_2_alg».proof.Proof.Gen.Kernel
import proofs.«402861_j32238024523892_2_alg».proof.Proof.Gen.KernelIdeal
import proofs.«402861_j32238024523892_2_alg».proof.Proof.Gen.ReferenceIdeal
import proofs.«402861_j32238024523892_2_alg».proof.Proof.Gen.Pre_finite_inputs
import proofs.«402861_j32238024523892_2_alg».proof.Proof.KBRun
import proofs.«402861_j32238024523892_2_alg».proof.Proof.KIRun
import proofs.«402861_j32238024523892_2_alg».proof.Proof.KIResult
import proofs.«402861_j32238024523892_2_alg».proof.Proof.RefValue
import proofs.«402861_j32238024523892_2_alg».proof.Proof.PreRanges
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the hinge loss of the gathered costs. -/
theorem algebraic : Cert.algebraic_KernelIdeal_ReferenceIdeal := by
  intro m ρ m' ρ' hpre hagree
  -- the precondition, decoded: every index triple in range
  have hr : ∀ c : Dev Cert.KernelIdeal.nD, Cert.Spec.InRange
      (Cert.Spec.Tof (Cert.KernelIdeal.Fr.Wk0 m ρ c Cert.KernelIdeal.main_arg1))
      (Cert.Spec.Hof (Cert.KernelIdeal.Fr.Wk0 m ρ c Cert.KernelIdeal.main_arg1))
      (Cert.Spec.Wof (Cert.KernelIdeal.Fr.Wk0 m ρ c Cert.KernelIdeal.main_arg1)) :=
    fun c => Cert.PreRanges.ranges_of_pre _ _ _ (hpre c)
  refine ⟨fun c => fun _ => Cert.Spec.loss
      (Cert.Spec.sel (Cert.KernelIdeal.Fr.Wk0 m ρ c Cert.KernelIdeal.main_arg0)
        (Cert.Spec.Tof (Cert.KernelIdeal.Fr.Wk0 m ρ c Cert.KernelIdeal.main_arg1))
        (Cert.Spec.Hof (Cert.KernelIdeal.Fr.Wk0 m ρ c Cert.KernelIdeal.main_arg1))
        (Cert.Spec.Wof (Cert.KernelIdeal.Fr.Wk0 m ρ c Cert.KernelIdeal.main_arg1)))
      (Cert.KernelIdeal.Fr.Wk0 m ρ c Cert.KernelIdeal.main_arg2 ix0), ?_, ?_⟩
  · exact (θ_run Cert.KernelIdeal.defs _ _).mono
      (fun _ h c => ⟨(h c).1.trans (Cert.KernelIdeal.Result.kernel_result m ρ c (hr c)), (h c).2⟩)
      (Cert.KernelIdeal.Fr.run_value m ρ)
  · refine (θ_run Cert.ReferenceIdeal.defs _ _).mono (fun _ h c => ⟨(h c).1.trans ?_, (h c).2⟩)
      (Cert.ReferenceIdeal.Value.run (F := Ideal) m' ρ')
    exact Cert.RefValue.ref_result m' c _ _ _ (hagree c).1 (hagree c).2.1 (hagree c).2.2 (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
